-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x4 : Shape := ⟨2, ![800000, 4]⟩
abbrev S128x128 : Shape := ⟨2, ![128, 128]⟩
abbrev S128 : Shape := ⟨1, ![128]⟩
abbrev S800000 : Shape := ⟨1, ![800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128x128 .f32) (main_arg5 : FVec F S128 .f32) (main_arg6 : FVec F S128 .f32) (main_arg7 : FVec F S128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S800000x4 .f32) (main_arg2 : FVec F S128x128 .f32) (main_arg3 : FVec F S128x128 .f32) (main_arg4 : FVec F S128x128 .f32) (main_arg5 : FVec F S128 .f32) (main_arg6 : FVec F S128 .f32) (main_arg7 : FVec F S128 .f32) (main_arg8 : FVec F S128 .f32) (main_arg9 : IVec S800000 32) (main_arg10 : IVec S800000 32) (main_arg11 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x4 .f32 := Host.absf main_arg1
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S800000x4 : Shape := ⟨2, ![800000, 4]⟩
abbrev S128x128 : Shape := ⟨2, ![128, 128]⟩
abbrev S128 : Shape := ⟨1, ![128]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S250 : Shape := ⟨1, ![250]⟩
abbrev S1x250 : Shape := ⟨2, ![1, 250]⟩
abbrev S50000x250 : Shape := ⟨2, ![50000, 250]⟩
abbrev S250x128 : Shape := ⟨2, ![250, 128]⟩
abbrev S10000x250 : Shape := ⟨2, ![10000, 250]⟩
abbrev S10000x128 : Shape := ⟨2, ![10000, 128]⟩

abbrev nBuf : Space → Nat
  | .hbm => 114
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S800000x4, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S800000, .i32⟩
  | .hbm, ⟨10, _⟩ => ⟨S800000, .i32⟩
  | .hbm, ⟨11, _⟩ => ⟨S50000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S800000, .f32⟩
  | .hbm, ⟨16, _⟩ => ⟨S800000, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x1, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S800000x1, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x128, .f32⟩
  | .hbm, ⟨96, _⟩ => ⟨S800000x1, .f32⟩
  | .hbm, ⟨97, _⟩ => ⟨S800000x128, .f32⟩
  | .hbm, ⟨98, _⟩ => ⟨S800000x128, .f32⟩
  | .hbm, ⟨99, _⟩ => ⟨S_, .f32⟩
  | .hbm, ⟨100, _⟩ => ⟨S50000x128, .f32⟩
  | .hbm, ⟨101, _⟩ => ⟨S800000x1, .i32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S50000x1, .i32⟩
  | .hbm, ⟨107, _⟩ => ⟨S250, .i32⟩
  | .hbm, ⟨108, _⟩ => ⟨S1x250, .i32⟩
  | .hbm, ⟨109, _⟩ => ⟨S50000x250, .i32⟩
  | .hbm, ⟨110, _⟩ => ⟨S50000x250, .i32⟩
  | .hbm, ⟨111, _⟩ => ⟨S50000x250, .i1⟩
  | .hbm, ⟨112, _⟩ => ⟨S50000x250, .bf16⟩
  | .hbm, ⟨113, _⟩ => ⟨S250x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S10000x250, .bf16⟩
  | .local _ .vmem, ⟨20, _⟩ => ⟨S10000x250, .bf16⟩
  | .local _ .vmem, ⟨21, _⟩ => ⟨S10000x128, .f32⟩
  | .local _ .vmem, ⟨22, _⟩ => ⟨S10000x128, .f32⟩
  | .local _ .vmem, ⟨23, _⟩ => ⟨S250x128, .f32⟩
  | .local _ .vmem, ⟨24, _⟩ => ⟨S250x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_cst_2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v7 : Ref sig .tc := ⟨.hbm, 26, rfl⟩
abbrev main_cst_4 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_6 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_c_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def k3_cond2 (i : grid3.Coords) : BitVec 1 :=
  let arg0 : BitVec 32 := BitVec.ofNat 32 (i 0).val
  let c4_i32 : BitVec 32 := 4#32
  let v14 : BitVec 1 := Scalar.cmpi .eq arg0 c4_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x250 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S250x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  reducesTo_S800000x4_S800000_d1 : S800000x4.ReducesTo [1] S800000
  h_S_ : 0 < S_.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  reduces_S5000x128_S5000 : S5000x128.Reduces [1] S5000
  shapeCasts_S5000_S5000x1 : S5000.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S250_S1x250_1 : S250.BroadcastsInDim S1x250 (![1] : Fin 1 → Fin S1x250.rank)
  bcast_S50000x1_S50000x250_0_1 : S50000x1.BroadcastsInDim S50000x250 (![0, 1] : Fin 2 → Fin S50000x250.rank)
  bcast_S1x250_S50000x250_0_1 : S1x250.BroadcastsInDim S50000x250 (![0, 1] : Fin 2 → Fin S50000x250.rank)
  inb_S250x128_S250x128_0_0 : ∀ a, (![0, 0] : Fin 2 → Nat) a + S250x128.size a ≤ S250x128.size a
  h_S250x128 : 0 < S250x128.numel
  shapeCasts_S250x128_S250x128 : S250x128.ShapeCasts S250x128
  inb_S10000x250_S10000x250_0_0 : ∀ a, (![0, 0] : Fin 2 → Nat) a + S10000x250.size a ≤ S10000x250.size a
  h_S10000x250 : 0 < S10000x250.numel
  shapeCasts_S10000x250_S10000x250 : S10000x250.ShapeCasts S10000x250
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S10000x250_S10000x128_S250x128_0_0_1_1_n_n_wf : DotDims.WF S10000x250 S10000x128 S250x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x250.size a ≤ S50000x250.size a
  hwx3_0 : ∀ i : grid3.Coords, EltTy.bits .bf16 = 32 ∨ (Rect.block (s := S50000x250) S10000x250.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .f32 = 32 ∨ (Rect.block (s := S50000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S250x128.size a ≤ S250x128.size a
  hwx3_2 : ∀ i : grid3.Coords, EltTy.bits .f32 = 32 ∨ (Rect.block (s := S250x128) S250x128.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S10000x250_S10000x128_S250x128_0_0_1_1_n_n : DotDims S10000x250 S10000x128 S250x128 where
  lhsContracting := [0]
  rhsContracting := [0]
  lhsNonContracting := [1]
  rhsNonContracting := [1]
  lhsBatch := []
  rhsBatch := []
  wf := dot_S10000x250_S10000x128_S250x128_0_0_1_1_n_n_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v72) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S10000x250.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S250x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S800000x4 : Shape := ⟨2, ![800000, 4]⟩
abbrev S128x128 : Shape := ⟨2, ![128, 128]⟩
abbrev S128 : Shape := ⟨1, ![128]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S250x128 : Shape := ⟨2, ![250, 128]⟩

abbrev nBuf : Space → Nat
  | .hbm => 170
  | .vmem => 0
  | .smem => 0
  | _ => 0

abbrev hbmTy0_0 (i : Nat) : BufTy := match i % 128 with
  | 0 => ⟨S50000x128, .f32⟩
  | 1 => ⟨S800000x4, .f32⟩
  | 2 => ⟨S128x128, .f32⟩
  | 3 => ⟨S128x128, .f32⟩
  | 4 => ⟨S128x128, .f32⟩
  | 5 => ⟨S128, .f32⟩
  | 6 => ⟨S128, .f32⟩
  | 7 => ⟨S128, .f32⟩
  | 8 => ⟨S128, .f32⟩
  | 9 => ⟨S800000, .i32⟩
  | 10 => ⟨S800000, .i32⟩
  | 11 => ⟨S50000, .i32⟩
  | 12 => ⟨S_, .f32⟩
  | 13 => ⟨S800000, .f32⟩
  | 14 => ⟨S_, .f32⟩
  | 15 => ⟨S800000, .f32⟩
  | 16 => ⟨S800000, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S_, .f32⟩
  | 33 => ⟨S50000, .f32⟩
  | 34 => ⟨S50000, .f32⟩
  | 35 => ⟨S50000, .f32⟩
  | 36 => ⟨S50000x1, .f32⟩
  | 37 => ⟨S50000, .f32⟩
  | 38 => ⟨S50000x1, .f32⟩
  | 39 => ⟨S50000x128, .f32⟩
  | 40 => ⟨S50000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x1, .f32⟩
  | 51 => ⟨S800000x128, .f32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .f32⟩
  | 64 => ⟨S50000, .f32⟩
  | 65 => ⟨S50000x1, .f32⟩
  | 66 => ⟨S_, .f32⟩
  | 67 => ⟨S50000x1, .f32⟩
  | 68 => ⟨S50000x1, .f32⟩
  | 69 => ⟨S50000x128, .f32⟩
  | 70 => ⟨S50000x128, .f32⟩
  | 71 => ⟨S50000x128, .f32⟩
  | 72 => ⟨S_, .f32⟩
  | 73 => ⟨S50000, .f32⟩
  | 74 => ⟨S50000x1, .f32⟩
  | 75 => ⟨S_, .f32⟩
  | 76 => ⟨S50000x1, .f32⟩
  | 77 => ⟨S50000x1, .f32⟩
  | 78 => ⟨S50000x128, .f32⟩
  | 79 => ⟨S50000x128, .f32⟩
  | 80 => ⟨S_, .f32⟩
  | 81 => ⟨S50000x1, .f32⟩
  | 82 => ⟨S50000x1, .f32⟩
  | 83 => ⟨S50000x1, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S50000x128, .f32⟩
  | 93 => ⟨S50000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x1, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S_, .f32⟩
  | 117 => ⟨S50000, .f32⟩
  | 118 => ⟨S50000x1, .f32⟩
  | 119 => ⟨S_, .f32⟩
  | 120 => ⟨S50000x1, .f32⟩
  | 121 => ⟨S50000x1, .f32⟩
  | 122 => ⟨S50000x128, .f32⟩
  | 123 => ⟨S50000x128, .f32⟩
  | 124 => ⟨S50000x128, .f32⟩
  | 125 => ⟨S_, .f32⟩
  | 126 => ⟨S50000, .f32⟩
  | 127 => ⟨S50000x1, .f32⟩
  | _ => ⟨S50000x128, .f32⟩

abbrev hbmTy0_1 (i : Nat) : BufTy := match i % 128 with
  | 0 => ⟨S_, .f32⟩
  | 1 => ⟨S50000x1, .f32⟩
  | 2 => ⟨S50000x1, .f32⟩
  | 3 => ⟨S50000x128, .f32⟩
  | 4 => ⟨S50000x128, .f32⟩
  | 5 => ⟨S_, .f32⟩
  | 6 => ⟨S50000x1, .f32⟩
  | 7 => ⟨S50000x1, .f32⟩
  | 8 => ⟨S50000x1, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S50000x128, .f32⟩
  | 18 => ⟨S50000x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S800000x1, .f32⟩
  | 29 => ⟨S800000x128, .f32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S50000x128, .f32⟩
  | 36 => ⟨S50000x128, .f32⟩
  | 37 => ⟨S50000x128, .f32⟩
  | 38 => ⟨S_, .f32⟩
  | 39 => ⟨S250x128, .f32⟩
  | 40 => ⟨S50000x1, .i32⟩
  | 41 => ⟨S250x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_cst_2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v7 : Ref sig .tc := ⟨.hbm, 26, rfl⟩
abbrev main_cst_4 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_6 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call2_cst : Ref sig .tc := ⟨.hbm, 60, rfl⟩
abbrev main_call2_v0 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_12 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_13 : Ref sig .tc := ⟨.hbm, 94, rfl⟩
abbrev main_v61 : Ref sig .tc := ⟨.hbm, 95, rfl⟩
abbrev main_v62 : Ref sig .tc := ⟨.hbm, 96, rfl⟩
abbrev main_c_14 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call3_cst : Ref sig .tc := ⟨.hbm, 113, rfl⟩
abbrev main_call3_v0 : Ref sig .tc := ⟨.hbm, 114, rfl⟩
abbrev main_v77 : Ref sig .tc := ⟨.hbm, 115, rfl⟩
abbrev main_cst_16 : Ref sig .tc := ⟨.hbm, 116, rfl⟩
abbrev main_v78 : Ref sig .tc := ⟨.hbm, 117, rfl⟩
abbrev main_v79 : Ref sig .tc := ⟨.hbm, 118, rfl⟩
abbrev main_cst_17 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_18 : Ref sig .tc := ⟨.hbm, 125, rfl⟩
abbrev main_v85 : Ref sig .tc := ⟨.hbm, 126, rfl⟩
abbrev main_v86 : Ref sig .tc := ⟨.hbm, 127, rfl⟩
abbrev main_cst_19 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_20 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_21 : Ref sig .tc := ⟨.hbm, 147, rfl⟩
abbrev main_v104 : Ref sig .tc := ⟨.hbm, 148, rfl⟩
abbrev main_v105 : Ref sig .tc := ⟨.hbm, 149, rfl⟩
abbrev main_c_22 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_23 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_24 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩

abbrev nD : Nat := 1
abbrev τ : Topo := Topo.v7x

variable {F : FTy → Type} [FloatOps F]

class Facts₀ : Prop where
  reducesTo_S800000x4_S800000_d1 : S800000x4.ReducesTo [1] S800000
  h_S_ : 0 < S_.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x128_S50000_d1 : S50000x128.ReducesTo [1] S50000
  bcast_S_S50000x1 : S_.BroadcastsInDim S50000x1 (![] : Fin 0 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S250x128 : S_.BroadcastsInDim S250x128 (![] : Fin 0 → Fin S250x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S250x128_S50000x1_S50000x128_1_0_0_1_wf : ScatterDims.WF S250x128 S50000x1 S50000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S250x128_S50000x1_S50000x128_1_0_0_1 : ScatterDims S250x128 S50000x1 S50000x128 where
  updateWindowDims := [1]
  insertedWindowDims := [0]
  scatterDimsToOperandDims := [0]
  indexVectorDim := 1
  wf := scatter_S250x128_S50000x1_S50000x128_1_0_0_1_wf

class Facts : Prop extends Facts₀ where

variable [Facts]
-- ==== Proof.K.Reg0.lean ====
import proofs.«424483_j12627203850513_1_alg».proof.Proof.Gen.Kernel.Launch
import proofs.«424483_j12627203850513_1_alg».proof.Proof.Gen.Kernel.Skeleton
import proofs.«424483_j12627203850513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the class-A half of the first dense graph-convolution call

The call multiplies a [5000,128] row tile by a [128,128] weight, clamps at zero, normalises each row and scales and
shifts it by a [1,128] pair, over ten row tiles of a [50000,128] array. Everything here is stated at a parameter
`V`, the TensorCore's buffer contents when the region is entered: the five windows' blocks read off `V`, what the
body leaves in the output window's buffer as a function of the four input blocks, the body's triple, the proof data of
the pipeline and its body obligation at every grid point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the input row tile, fetched at every point): its current staging buffer holds its block at every point, fetched there or not, for
    any proof data whose array is `V`'s and whose body leaves the block in place. Where the window is not fetched its
    block index has not moved since the last fetch, and the body kept the block; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight, fetched at the first point only): its current staging buffer holds its block at every point, fetched there or not, for
    any proof data whose array is `V`'s and whose body leaves the block in place. Where the window is not fetched its
    block index has not moved since the last fetch, and the body kept the block; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the scale row, fetched at the first point only): its current staging buffer holds its block at every point, fetched there or not, for
    any proof data whose array is `V`'s and whose body leaves the block in place. Where the window is not fetched its
    block index has not moved since the last fetch, and the body kept the block; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the shift row, fetched at the first point only): its current staging buffer holds its block at every point, fetched there or not, for
    any proof data whose array is `V`'s and whose body leaves the block in place. Where the window is not fetched its
    block index has not moved since the last fetch, and the body kept the block; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rX : Rect S5000x128 := Rect.unit (s := S5000x128) ![0, 0] S5000x128.size inb_S5000x128_S5000x128_0_0
abbrev rW : Rect S128x128 := Rect.unit (s := S128x128) ![0, 0] S128x128.size inb_S128x128_S128x128_0_0
abbrev rG : Rect S1x128 := Rect.unit (s := S1x128) ![0, 0] S1x128.size inb_S1x128_S1x128_0_0

/-! ## What the body leaves in the output window's buffer -/

/-- Window 4's staging buffer after the body, from the four input blocks: the body's one store, of the normalised
    product, through the whole buffer. -/
def out0_4 (x0 : Vec F S5000x128 .f32) (x1 : Vec F S128x128 .f32) (x2 x3 : Vec F S1x128 .f32) : Vec F S5000x128 .f32 :=
  View.canon [⟨rX, k0_pay1 (View.ld x0 rX) (View.ld x1 rW) (View.ld x2 rG) (View.ld x3 rG)⟩]

/-- The one store is through the whole buffer, so it covers it. -/
theorem cover0_4 (p0 : Vec F S5000x128 .f32) (y : S5000x128.Idx) :
    ∃ pc ∈ ([⟨rX, p0⟩] : List (View.Piece (Elt F) S5000x128 .f32)), y ∈ pc.1.set :=
  View.cover_of_tiled [⟨rX, p0⟩] S5000x128.size (by rfl) y

/-! ## The body's triple -/

set_option maxHeartbeats 1000000 in
/-- The kernel body on whole staging memrefs, the four inputs' at read contents `x0 … x3` and the output's at anything,
    runs to the continuation holding the inputs' as they were and the output's at `out0_4` of them. The body reads
    the output's buffer before it writes it; the value read is dropped. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S128x128 .f32) (x2 x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__dense_gconv_kernel_act i arg1 harg1 arg2 harg2 arg3 harg3 arg4 harg4 arg5 harg5) K := by
  simp only [cc0__dense_gconv_kernel_act_eq_skeleton]; unfold cc0__dense_gconv_kernel_act_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t` each
    input's buffer at its block and the output's at `out0_4` of the input blocks; the invariant that of a body touching
    only its windows (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«424483_j12627203850513_1_alg».proof.Proof.Gen.Kernel.Launch
import proofs.«424483_j12627203850513_1_alg».proof.Proof.Gen.Kernel.Skeleton
import proofs.«424483_j12627203850513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the class-A half of the second dense graph-convolution call

The call multiplies a [5000,128] row tile by a [128,128] weight, clamps at zero, normalises each row and scales and
shifts it by a [1,128] pair, over ten row tiles of a [50000,128] array. Everything here is stated at a parameter
`V`, the TensorCore's buffer contents when the region is entered: the five windows' blocks read off `V`, what the
body leaves in the output window's buffer as a function of the four input blocks, the body's triple, the proof data of
the pipeline and its body obligation at every grid point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the input row tile, fetched at every point): its current staging buffer holds its block at every point, fetched there or not, for
    any proof data whose array is `V`'s and whose body leaves the block in place. Where the window is not fetched its
    block index has not moved since the last fetch, and the body kept the block; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight, fetched at the first point only): its current staging buffer holds its block at every point, fetched there or not, for
    any proof data whose array is `V`'s and whose body leaves the block in place. Where the window is not fetched its
    block index has not moved since the last fetch, and the body kept the block; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the scale row, fetched at the first point only): its current staging buffer holds its block at every point, fetched there or not, for
    any proof data whose array is `V`'s and whose body leaves the block in place. Where the window is not fetched its
    block index has not moved since the last fetch, and the body kept the block; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the shift row, fetched at the first point only): its current staging buffer holds its block at every point, fetched there or not, for
    any proof data whose array is `V`'s and whose body leaves the block in place. Where the window is not fetched its
    block index has not moved since the last fetch, and the body kept the block; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rG1 : Rect S1x128 := Rect.unit (s := S1x128) ![0, 0] S1x128.size inb_S1x128_S1x128_0_0

/-! ## What the body leaves in the output window's buffer -/

/-- Window 4's staging buffer after the body, from the four input blocks: the body's one store, of the normalised
    product, through the whole buffer. -/
def out1_4 (x0 : Vec F S5000x128 .f32) (x1 : Vec F S128x128 .f32) (x2 x3 : Vec F S1x128 .f32) : Vec F S5000x128 .f32 :=
  View.canon [⟨rX1, k1_pay1 (View.ld x0 rX1) (View.ld x1 rW1) (View.ld x2 rG1) (View.ld x3 rG1)⟩]

/-- The one store is through the whole buffer, so it covers it. -/
theorem cover1_4 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

/-! ## The body's triple -/

set_option maxHeartbeats 1000000 in
/-- The kernel body on whole staging memrefs, the four inputs' at read contents `x0 … x3` and the output's at anything,
    runs to the continuation holding the inputs' as they were and the output's at `out1_4` of them. The body reads
    the output's buffer before it writes it; the value read is dropped. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S128x128 .f32) (x2 x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__dense_gconv_kernel_act i arg1 harg1 arg2 harg2 arg3 harg3 arg4 harg4 arg5 harg5) K := by
  simp only [cc1__dense_gconv_kernel_act_eq_skeleton]; unfold cc1__dense_gconv_kernel_act_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pipeline on core `c`: the arrays as the region finds them; after the body at point `t` each
    input's buffer at its block and the output's at `out1_4` of the input blocks; the invariant that of a body touching
    only its windows (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/- REGION 2 of @main (custom_call 2, the plain matmul, pipeline 2) as the class-A half of a several-region frame,
   stated at a PARAMETER V: the TensorCore's buffer contents when the region is entered.
   Per point of the grid the body reads the input tile and the weight whole, and overwrites the output tile whole with
   the product; so each input window's staging buffer holds its block (fetched there or not: the weight's block index
   never moves), and the output window's buffer is left at the product of the two blocks. -/
import proofs.«424483_j12627203850513_1_alg».proof.Proof.Gen.Kernel.Launch
import proofs.«424483_j12627203850513_1_alg».proof.Proof.Gen.Kernel.Skeleton
import proofs.«424483_j12627203850513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input tile's staging buffer holds its block at every point, for any proof data whose array is V's and
    whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's staging buffer holds its block at every point although it is fetched at the first only: its block
    index never moves, so the block left in place at the previous point is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rX2 : Rect S5000x128 := Rect.unit (s := S5000x128) ![0, 0] S5000x128.size inb_S5000x128_S5000x128_0_0
abbrev rW2 : Rect S128x128 := Rect.unit (s := S128x128) ![0, 0] S128x128.size inb_S128x128_S128x128_0_0

/-! ## What the body leaves in the output window's buffer -/

/-- The output tile's staging buffer after the body, from the two input blocks: its one store, of the product,
    over the whole buffer. -/
def out2_2 (x0 : Vec F S5000x128 .f32) (x1 : Vec F S128x128 .f32) : Vec F S5000x128 .f32 :=
  View.canon [⟨rX2, k2_pay1 (View.ld x0 rX2) (View.ld x1 rW2)⟩]

/-- The one store's rectangle is the whole buffer, so it covers it. -/
theorem cover2_2 (p0 : Vec F S5000x128 .f32) (y : S5000x128.Idx) :
    ∃ pc ∈ ([⟨rX2, p0⟩] : List (View.Piece (Elt F) S5000x128 .f32)), y ∈ pc.1.set :=
  View.cover_of_tiled [⟨rX2, p0⟩] S5000x128.size (by rfl) y

/-! ## The body's triple -/

set_option maxHeartbeats 1000000 in
/-- The kernel body on whole staging memrefs, the inputs' at read contents x0, x1 and the output's at anything, runs
    to the continuation holding the inputs' as they were and the output's at out2_2 of the inputs': the load of the
    output buffer before the store reads a value the store's payload does not use. -/
theorem sound_kernel2 (c : Dev nD) (E : Set ℕ) (i : grid2.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__dense_gconv_kernel_noact i arg1 harg1 arg2 harg2 arg3 harg3) K := by
  simp only [cc2__dense_gconv_kernel_noact_eq_skeleton]; unfold cc2__dense_gconv_kernel_noact_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core c: the arrays as the region finds them; after the body at point t each
    input's buffer at its block and the output's at out2_2 of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«424483_j12627203850513_1_alg».proof.Proof.Gen.Kernel.Launch
import proofs.«424483_j12627203850513_1_alg».proof.Proof.Gen.Kernel.Skeleton
import proofs.«424483_j12627203850513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 3: the readout. Five points; at each the one-hot tile (window 0) and the feature tile (window 1)
are fetched; the product of the transposed one-hot tile with the feature tile is added into a scratch accumulator
that is zeroed at the first point; at the last point the accumulator is copied to the output block (window 2). -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch accumulator as a whole memref. -/
abbrev scM3 : Memref sig .tc .vmem S250x128 .f32 := Memref.whole cc3_scratch0

/-- the scratch after point n: the accumulator reset at point 0, one tile's product added per point -/
def acc3 (c : Dev nD) : (n : ℕ) → n < cfg3.N → Vec F S250x128 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩) (acc3 c n (Nat.lt_of_succ_lt h))

theorem acc3_zero (c : Dev nD) (h : 0 < cfg3.N) :
    acc3 V c 0 h = k3_pay2 (iblk3 V c 0 ⟨0, h⟩) (iblk3 V c 1 ⟨0, h⟩) (k3_pay1 (F := F)) := rfl

theorem acc3_succ (c : Dev nD) (n : ℕ) (h : n + 1 < cfg3.N) :
    acc3 V c (n + 1) h = k3_pay2 (iblk3 V c 0 ⟨n + 1, h⟩) (iblk3 V c 1 ⟨n + 1, h⟩) (acc3 V c n (Nat.lt_of_succ_lt h)) := rfl

/-- The accumulator after a point that is not the first, over what the point before left. -/
theorem acc3_pos (c : Dev nD) (t : Fin cfg3.N) (hz : t.val ≠ 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl hz
  | succ n => rfl

/-- The accumulator after the first point. -/
theorem acc3_first (c : Dev nD) (t : Fin cfg3.N) (hz : t.val = 0) :
    acc3 V c t.val t.isLt = k3_pay2 (iblk3 V c 0 t) (iblk3 V c 1 t) (k3_pay1 (F := F)) := by
  obtain ⟨n, hn⟩ := t
  cases n with
  | zero => rfl
  | succ n => exact absurd hz (Nat.succ_ne_zero n)

/-- The core's scoped buffers other than this region's staging buffers and its scratch (the staging buffers of the
    three earlier regions), each whole at some contents: the region neither reads nor writes them. -/
def others3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The invariant before position `n`: before the first point what the launch hands the region; afterwards the
    scratch accumulator at what the point before left in it, the other scoped buffers at anything and the generator
    register at some state. -/
def PhiS3 (c : Dev nD) : (n : ℕ) → n ≤ cfg3.N → sProp 𝕄
  | 0, _ => Pipeline.ΦA spec3 c
  | n + 1, hn => iprop((others3 (F := F) c ∗ owns (c : Thread nD τ) scM3 fullShare (acc3 V c n hn)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop((others3 (F := F) c ∗ owns (c : Thread nD τ) scM3 fullShare (acc3 V c n hn)) ∗ (∃ r, prngReg c r)) := rfl

theorem PhiS3_pos (c : Dev nD) (n : ℕ) (h : n ≤ cfg3.N) (hz : n ≠ 0) :
    PhiS3 V c n h = iprop((others3 (F := F) c ∗ owns (c : Thread nD τ) scM3 fullShare (acc3 V c (n - 1) (by omega))) ∗ (∃ r, prngReg c r)) := by
  cases n with
  | zero => exact absurd rfl hz
  | succ n => rfl

/-- The proof data of the readout pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

/-- The class's invariant with the scratch split off as an owned memref. -/
theorem PhiA3_split (c : Dev nD) :
    (Pipeline.ΦA spec3 c : sProp 𝕄) ⊢ iprop((others3 (F := F) c ∗ (∃ d, owns (c : Thread nD τ) scM3 fullShare d)) ∗ (∃ r, prngReg c r)) := by
  unfold Pipeline.ΦA others3; rw [scopedRest3_eq]; simp only [scM3, owns_whole]
  iintro ⟨⟨H1, H2, H3, H4, H5, H6, H7, H8, H9, H10, H11, H12, H13, H14, H15, H16, H17, H18, H19, HS⟩, Hg⟩
  iframe

theorem PhiA3_join (c : Dev nD) :
    iprop((others3 (F := F) c ∗ (∃ d, owns (c : Thread nD τ) scM3 fullShare d)) ∗ (∃ r, prngReg c r)) ⊢ (Pipeline.ΦA spec3 c : sProp 𝕄) := by
  unfold Pipeline.ΦA others3; rw [scopedRest3_eq]; simp only [scM3, owns_whole]
  iintro ⟨⟨⟨H1, H2, H3, H4, H5, H6, H7, H8, H9, H10, H11, H12, H13, H14, H15, H16, H17, H18, H19⟩, HS⟩, Hg⟩
  iframe

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  refine (?_ : _ ⊢ _).trans (PhiA3_join c)
  iintro ⟨⟨Ho, HS⟩, Hg⟩
  isplitr [Hg]
  · isplitl [Ho]
    · iexact Ho
    · iexists _; iexact HS
  · iexact Hg

theorem hout3 (c : Dev nD) : (dat3 V c).Φ (Fin.last cfg3.N) ⊢ Pipeline.ΦA spec3 c :=
  Phi3_out V c _ (by rw [Fin.val_last]; have : cfg3.N = 5 := N_3; omega)

/-! ## The body's branch conditions, decided over the grid -/

/-- The condition of the body's first `scf.if` (the reset of the accumulator), from the grid coordinates. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the body's second `scf.if` (the copy of the accumulator to the output block). -/
abbrev cond3_1 (i : grid3.Coords) : Prop := k3_cond2 i = 1#1
/-- It holds at the last point only. -/
theorem hcond3_1 : ∀ t : Fin cfg3.N, cond3_1 (grid3.coords t) ↔ t.val = 4 :=
  (by decide +kernel : ∀ t : Fin grid3.N, cond3_1 (grid3.coords t) ↔ t.val = 4)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- Where the output is not stored the configuration calls it idle, -/
theorem idleAt3_2 : ∀ t : Fin cfg3.N, ¬cond3_1 (grid3.coords t) → cfg3.idle 2 (grid3.coords t) = true := by decide +kernel
/-- and the pipeline does not write its block back there; -/
theorem noFlush3_2 : ∀ t : Fin cfg3.N, ¬cond3_1 (grid3.coords t) → (cfg3.win 2).flush t = false := by decide +kernel
/-- at the last point it is live. -/
theorem liveAt3_2 : ∀ t : Fin cfg3.N, cond3_1 (grid3.coords t) → cfg3.idle 2 (grid3.coords t) = false := by decide +kernel

/-! ## The staging memrefs at a point -/

abbrev ms3_0 (t : Fin cfg3.N) : Memref sig .tc .vmem S10000x250 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S250x128 .f32 := win3_2.stage (cfg3.slots t 2)
abbrev hs3_2 (t : Fin cfg3.N) : (ms3_2 t).IsWhole := hstage3_2 ((cfg3.slots t 2).cast nbuf3_2)

/-! ## What the body finds in the inputs' buffers -/

/-- The one-hot tile's buffer holds its block at every point: the window is fetched at each. -/
theorem before3_0 (c : Dev nD) (t : Fin cfg3.N) (d) : (dat3 V c).before 0 t d = iblk3 V c 0 t := by
  rw [(dat3 V c).before_fetched 0 t (fetch3_0 t) d]
  unfold Dat.fetched Dat.blockOf iblk3; rw [A_eq3]; try rfl

/-- The feature tile's buffer likewise. -/
theorem before3_1 (c : Dev nD) (t : Fin cfg3.N) (d) : (dat3 V c).before 1 t d = iblk3 V c 1 t := by
  rw [(dat3 V c).before_fetched 1 t (fetch3_1 t) d]
  unfold Dat.fetched Dat.blockOf iblk3; rw [A_eq3]; try rfl

/-! ## The body on any whole staging memrefs, case by case -/

theorem hz2 : (![0, 0] : Fin 2 → Nat) = fun _ => 0 := funext fun a => by fin_cases a <;> rfl

set_option maxHeartbeats 1000000 in
/-- THE FIRST POINT. With the inputs' buffers at `x1`, `x2`, the output's at `xi3` and the scratch at anything, the
    body zeroes the scratch, adds the tiles' product into it and touches nothing else: the output's buffer comes
    back as it was, the scratch at `k3_pay2 x1 x2 k3_pay1`. -/
theorem run3_first (c : Dev nD) (i : grid3.Coords)
    (arg1 : Memref sig .tc .vmem S10000x250 .bf16) (harg1 : arg1.IsWhole)
    (arg2 : Memref sig .tc .vmem S10000x128 .f32) (harg2 : arg2.IsWhole)
    (arg3 : Memref sig .tc .vmem S250x128 .f32) (harg3 : arg3.IsWhole)
    (arg4 : Memref sig .tc .vmem S250x128 .f32) (harg4 : arg4.IsWhole)
    (hc0 : cond3_0 i) (hc1 : ¬cond3_1 i)
    (x1 : Vec F S10000x250 .bf16) (x2 : Vec F S10000x128 .f32) (xi3 : Vec F S250x128 .f32)
    (E : Set ℕ) (K : PUnit → sProp 𝕄) :
    iprop(owns (c : Thread nD τ) arg1 fullShare x1 ∗ owns (c : Thread nD τ) arg2 fullShare x2
        ∗ owns (c : Thread nD τ) arg3 fullShare xi3 ∗ (∃ d, owns (c : Thread nD τ) arg4 fullShare d)
        ∗ (iprop(owns (c : Thread nD τ) arg1 fullShare x1 ∗ owns (c : Thread nD τ) arg2 fullShare x2
            ∗ owns (c : Thread nD τ) arg3 fullShare xi3
            ∗ owns (c : Thread nD τ) arg4 fullShare (k3_pay2 x1 x2 (k3_pay1 (F := F)))) -∗ K ⟨⟩))
      ⊢ wp frame (wpE (defs₀ (F := F)) Variants.none c none) E (cc3__readout_kernel i arg1 harg1 arg2 harg2 arg3 harg3 arg4 harg4) K := by
  simp only [cc3__readout_kernel_eq_skeleton]; unfold cc3__readout_kernel_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr
    · ipureintro; exact harg1.read_unread _
    · iexact H1
  isplitl [H2]
  · iexists _; isplitr
    · ipureintro; exact harg2.read_unread _
    · iexact H2
  isplitl [H3]
  · iexists _; isplitr
    · ipureintro; exact harg3.read_unread _
    · iexact H3
  iexists _; isplitr
  swap
  · iexact H4
  ipureintro
  rw [View.read_writes_eq_canon _ _ _ (fun y => ⟨_, List.mem_cons_self, View.mem_set_unit_zero hz2 inb_S250x128_S250x128_0_0 y⟩)]
  sl_unfold_run_names
  rw [View.canon_cons_unit_zero (S := S250x128) hz2, View.readCov_unit_zero (S := S250x128) _ hz2]
  simp only [View.readAt_eq_ld, harg1.read_unread, harg2.read_unread, View.ld_unit_zero (S := S10000x250) hz2, View.ld_unit_zero (S := S10000x128) hz2]

set_option maxHeartbeats 1000000 in
/-- A MIDDLE POINT. With the scratch at `xs`, what the point before left, the body adds the tiles' product into it:
    the scratch comes back at `k3_pay2 x1 x2 xs`, the output's buffer as it was. -/
theorem run3_mid (c : Dev nD) (i : grid3.Coords)
    (arg1 : Memref sig .tc .vmem S10000x250 .bf16) (harg1 : arg1.IsWhole)
    (arg2 : Memref sig .tc .vmem S10000x128 .f32) (harg2 : arg2.IsWhole)
    (arg3 : Memref sig .tc .vmem S250x128 .f32) (harg3 : arg3.IsWhole)
    (arg4 : Memref sig .tc .vmem S250x128 .f32) (harg4 : arg4.IsWhole)
    (hc0 : ¬cond3_0 i) (hc1 : ¬cond3_1 i)
    (x1 : Vec F S10000x250 .bf16) (x2 : Vec F S10000x128 .f32) (xi3 : Vec F S250x128 .f32) (xs : Vec F S250x128 .f32)
    (E : Set ℕ) (K : PUnit → sProp 𝕄) :
    iprop(owns (c : Thread nD τ) arg1 fullShare x1 ∗ owns (c : Thread nD τ) arg2 fullShare x2
        ∗ owns (c : Thread nD τ) arg3 fullShare xi3 ∗ owns (c : Thread nD τ) arg4 fullShare xs
        ∗ (iprop(owns (c : Thread nD τ) arg1 fullShare x1 ∗ owns (c : Thread nD τ) arg2 fullShare x2
            ∗ owns (c : Thread nD τ) arg3 fullShare xi3
            ∗ owns (c : Thread nD τ) arg4 fullShare (k3_pay2 x1 x2 xs)) -∗ K ⟨⟩))
      ⊢ wp frame (wpE (defs₀ (F := F)) Variants.none c none) E (cc3__readout_kernel i arg1 harg1 arg2 harg2 arg3 harg3 arg4 harg4) K := by
  simp only [cc3__readout_kernel_eq_skeleton]; unfold cc3__readout_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3
  obtain rfl := harg4.eq_unread hf4
  sl_exec (disch := first | exact hc0 | exact hc1)
  sl_step
  iapply Hk
  isplitl [H1]
  · iexists _; isplitr
    · ipureintro; exact harg1.read_unread _
    · iexact H1
  isplitl [H2]
  · iexists _; isplitr
    · ipureintro; exact harg2.read_unread _
    · iexact H2
  isplitl [H3]
  · iexists _; isplitr
    · ipureintro; exact harg3.read_unread _
    · iexact H3
  iexists _; isplitr
  swap
  · iexact H4
  ipureintro
  rw [View.read_writes_eq_canon _ _ _ (fun y => ⟨_, List.mem_cons_self, View.mem_set_unit_zero hz2 inb_S250x128_S250x128_0_0 y⟩)]
  sl_unfold_run_names
  rw [View.canon_cons_unit_zero (S := S250x128) hz2]
  simp only [View.readAt_eq_ld, harg1.read_unread, harg2.read_unread, harg4.read_unread, View.ld_unit_zero (S := S10000x250) hz2, View.ld_unit_zero (S := S10000x128) hz2, View.ld_unit_zero (S := S250x128) hz2]

set_option maxHeartbeats 1000000 in
/-- THE LAST POINT. The body adds the tiles' product into the scratch and copies the scratch to the output's buffer,
    whatever that held: both come back at `k3_pay2 x1 x2 xs`. -/
theorem run3_last (c : Dev nD) (i : grid3.Coords)
    (arg1 : Memref sig .tc .vmem S10000x250 .bf16) (harg1 : arg1.IsWhole)
    (arg2 : Memref sig .tc .vmem S10000x128 .f32) (harg2 : arg2.IsWhole)
    (arg3 : Memref sig .tc .vmem S250x128 .f32) (harg3 : arg3.IsWhole)
    (arg4 : Memref sig .tc .vmem S250x128 .f32) (harg4 : arg4.IsWhole)
    (hc0 : ¬cond3_0 i) (hc1 : cond3_1 i)
    (x1 : Vec F S10000x250 .bf16) (x2 : Vec F S10000x128 .f32) (xs : Vec F S250x128 .f32)
    (E : Set ℕ) (K : PUnit → sProp 𝕄) :
    iprop(owns (c : Thread nD τ) arg1 fullShare x1 ∗ owns (c : Thread nD τ) arg2 fullShare x2
        ∗ (∃ d, owns (c : Thread nD τ) arg3 fullShare d) ∗ owns (c : Thread nD τ) arg4 fullShare xs
        ∗ (iprop(owns (c : Thread nD τ) arg1 fullShare x1 ∗ owns (c : Thread nD τ) arg2 fullShare x2
            ∗ owns (c : Thread nD τ) arg3 fullShare (k3_pay2 x1 x2 xs)
            ∗ owns (c : Thread nD τ) arg4 fullShare (k3_pay2 x1 x2 xs)) -∗ K ⟨⟩))
      ⊢ wp frame (wpE (defs₀ (F := F)) Variants.none c none) E (cc3__readout_kernel i arg1 harg1 arg2 harg2 arg3 harg3 arg4 harg4) K := by
  simp only [cc3__readout_kernel_eq_skeleton]; unfold cc3__readout_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2
  obtain rfl := harg4.eq_unread hf4
  sl_exec (disch := first | exact hc0 | exact hc1)
  sl_step
  iapply Hk
  isplitl [H1]
  · iexists _; isplitr
    · ipureintro; exact harg1.read_unread _
    · iexact H1
  isplitl [H2]
  · iexists _; isplitr
    · ipureintro; exact harg2.read_unread _
    · iexact H2
  isplitl [H3]
  · iexists _; isplitr
    swap
    · iexact H3
    ipureintro
    sl_unfold_run_names
    rw [View.read_writes_eq_canon _ _ _ (fun y => ⟨_, List.mem_cons_self, View.mem_set_unit_zero hz2 inb_S250x128_S250x128_0_0 y⟩)]
    rw [View.canon_cons_unit_zero (S := S250x128) hz2, View.readCov_unit_zero (S := S250x128) _ hz2]
    simp only [View.readAt_eq_ld, harg1.read_unread, harg2.read_unread, harg4.read_unread, View.ld_unit_zero (S := S10000x250) hz2, View.ld_unit_zero (S := S10000x128) hz2, View.ld_unit_zero (S := S250x128) hz2]
  iexists _; isplitr
  swap
  · iexact H4
  ipureintro
  sl_unfold_run_names
  rw [View.read_writes_eq_canon _ _ _ (fun y => ⟨_, List.mem_cons_self, View.mem_set_unit_zero hz2 inb_S250x128_S250x128_0_0 y⟩)]
  rw [View.canon_cons_unit_zero (S := S250x128) hz2]
  simp only [View.readAt_eq_ld, harg1.read_unread, harg2.read_unread, harg4.read_unread, View.ld_unit_zero (S := S10000x250) hz2, View.ld_unit_zero (S := S10000x128) hz2, View.ld_unit_zero (S := S250x128) hz2]

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' buffers hold their blocks; the point is the first, a middle one or the last
    (the closed forms of the two conditions); the invariant hands the body the scratch — at anything at the first
    point, else at what the point before left — and takes it back at this point's accumulator; the output's buffer
    is handed back untouched at the points that do not store it and at the accumulator at the last. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  have hN : t.val < 5 := lt_of_lt_of_eq t.isLt (show cfg3.N = 5 from N_3)
  by_cases h4 : t.val = 4
  · have hc0 : ¬cond3_0 (grid3.coords t) := fun h => by have := (hcond3_0 t).mp h; omega
    have hc1 : cond3_1 (grid3.coords t) := (hcond3_1 t).mpr h4
    have hz : t.val ≠ 0 := by omega
    rw [show (dat3 V c).leavesExact 2 t = owns (c : Thread nD τ) (ms3_2 t) fullShare ((dat3 V c).after 2 t) from by
      unfold Dat.leavesExact; rw [liveAt3_2 t hc1], after3_2]
    rw [acc3_pos V c t hz, PhiS3_castSucc V c t, PhiS3_pos V c _ _ hz]
    iintro ⟨⟨⟨Ho, HS⟩, Hg⟩, Hw, ⟨%d0, H0⟩, ⟨%d1, H1⟩, ⟨%d2, H2⟩⟩
    iapply (run3_last c (grid3.coords t) _ _ _ _ _ _ _ _ hc0 hc1 (iblk3 V c 0 t) (iblk3 V c 1 t) _ Set.univ _)
    isplitl [H0]
    · iexact H0
    isplitl [H1]
    · iexact H1
    isplitl [H2]
    · iexists _; iexact H2
    isplitl [HS]
    · iexact HS
    iintro ⟨H0, H1, H2, HS⟩
    isplitl [Ho HS Hg]
    · isplitr [Hg]
      · isplitl [Ho]
        · iexact Ho
        · iexact HS
      · iexact Hg
    isplitl [Hw]
    · iexact Hw
    isplitl [H0]
    · iexact H0
    isplitl [H1]
    · iexact H1
    iexact H2
  · have hc1 : ¬cond3_1 (grid3.coords t) := fun h => h4 ((hcond3_1 t).mp h)
    rw [Dat.leavesExact_idle (dat3 V c) 2 t (idleAt3_2 t hc1) (noFlush3_2 t hc1)]
    by_cases hz : t.val = 0
    · have hc0 : cond3_0 (grid3.coords t) := (hcond3_0 t).mpr hz
      rw [acc3_first V c t hz, PhiS3_castSucc V c t, PhiS3_zero V c _ _ hz]
      iintro ⟨HA, Hw, ⟨%d0, H0⟩, ⟨%d1, H1⟩, ⟨%d2, H2⟩⟩
      ihave ⟨⟨Ho, HS⟩, Hg⟩ := (PhiA3_split (F := F) c) $$ HA
      iapply (run3_first c (grid3.coords t) _ _ _ _ _ _ _ _ hc0 hc1 (iblk3 V c 0 t) (iblk3 V c 1 t) _ Set.univ _)
      isplitl [H0]
      · iexact H0
      isplitl [H1]
      · iexact H1
      isplitl [H2]
      · iexact H2
      isplitl [HS]
      · iexact HS
      iintro ⟨H0, H1, H2, HS⟩
      isplitl [Ho HS Hg]
      · isplitr [Hg]
        · isplitl [Ho]
          · iexact Ho
          · iexact HS
        · iexact Hg
      isplitl [Hw]
      · iexact Hw
      isplitl [H0]
      · iexact H0
      isplitl [H1]
      · iexact H1
      iexists _; iexact H2
    · have hc0 : ¬cond3_0 (grid3.coords t) := fun h => hz ((hcond3_0 t).mp h)
      rw [acc3_pos V c t hz, PhiS3_castSucc V c t, PhiS3_pos V c _ _ hz]
      iintro ⟨⟨⟨Ho, HS⟩, Hg⟩, Hw, ⟨%d0, H0⟩, ⟨%d1, H1⟩, ⟨%d2, H2⟩⟩
      iapply (run3_mid c (grid3.coords t) _ _ _ _ _ _ _ _ hc0 hc1 (iblk3 V c 0 t) (iblk3 V c 1 t) _ _ Set.univ _)
      isplitl [H0]
      · iexact H0
      isplitl [H1]
      · iexact H1
      isplitl [H2]
      · iexact H2
      isplitl [HS]
      · iexact HS
      iintro ⟨H0, H1, H2, HS⟩
      isplitl [Ho HS Hg]
      · isplitr [Hg]
        · isplitl [Ho]
          · iexact Ho
          · iexact HS
        · iexact Hg
      isplitl [Hw]
      · iexact Hw
      isplitl [H0]
      · iexact H0
      isplitl [H1]
      · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Fold.lean ====
import proofs.«424483_j12627203850513_1_alg».proof.Proof.K.Reg0
import proofs.«424483_j12627203850513_1_alg».proof.Proof.K.Reg1
import proofs.«424483_j12627203850513_1_alg».proof.Proof.K.Reg2
import proofs.«424483_j12627203850513_1_alg».proof.Proof.K.Reg3
import proofs.«424483_j12627203850513_1_alg».proof.Proof.Gen.Kernel.Regions

/-! # The buffer contents at each boundary of @main

@main is twelve items in a row: five host stretches, the first dense call, a host stretch, the second dense call, a
host stretch, the plain product, a host stretch, and the one-hot accumulation. Starting from the launch memory, each
host stretch takes the contents to `StableHlo.after` of its operations; each call leaves its arrays at what its pipeline
leaves (an input as entered, an output with every write-back folded in: `Dat.arrAt … N`) and every other buffer as
entered. `W0 … W12` are these thirteen contents, `V5 … V12` the same read at the TensorCore's references. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After `hostOps0`. -/
abbrev W1 : Dev nD → Valuation τ sig (Elt F) := fun c => StableHlo.after hostOps0 (W0 m ρ c)

/-- After `hostOps0_1`. -/
abbrev W2 : Dev nD → Valuation τ sig (Elt F) := fun c => StableHlo.after hostOps0_1 (W1 m ρ c)

/-- After `hostOps0_2`. -/
abbrev W3 : Dev nD → Valuation τ sig (Elt F) := fun c => StableHlo.after hostOps0_2 (W2 m ρ c)

/-- After `hostOps0_3`. -/
abbrev W4 : Dev nD → Valuation τ sig (Elt F) := fun c => StableHlo.after hostOps0_3 (W3 m ρ c)

/-- After `hostOps0_4`. -/
abbrev W5 : Dev nD → Valuation τ sig (Elt F) := fun c => StableHlo.after hostOps0_4 (W4 m ρ c)
/-- The same read at the TensorCore's references (what the next call's proof data take). -/
abbrev V5 : (c : Dev nD) → (b : Ref sig .tc) → Buf (Elt F) ((c : Thread nD τ).loc b) := fun c b => W5 m ρ c b

/-- At the exit of call 0: its arrays at what its pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references. -/
abbrev V6 : (c : Dev nD) → (b : Ref sig .tc) → Buf (Elt F) ((c : Thread nD τ).loc b) := fun c b => W6 m ρ c b
/-- At the exit of call 0 each of its arrays holds what the pipeline leaves, and every other buffer what it held at
    entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After `hostOps1`. -/
abbrev W7 : Dev nD → Valuation τ sig (Elt F) := fun c => StableHlo.after hostOps1 (W6 m ρ c)
/-- The same read at the TensorCore's references (what the next call's proof data take). -/
abbrev V7 : (c : Dev nD) → (b : Ref sig .tc) → Buf (Elt F) ((c : Thread nD τ).loc b) := fun c b => W7 m ρ c b

/-- At the exit of call 1: its arrays at what its pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references. -/
abbrev V8 : (c : Dev nD) → (b : Ref sig .tc) → Buf (Elt F) ((c : Thread nD τ).loc b) := fun c b => W8 m ρ c b
/-- At the exit of call 1 each of its arrays holds what the pipeline leaves, and every other buffer what it held at
    entry. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2`. -/
abbrev W9 : Dev nD → Valuation τ sig (Elt F) := fun c => StableHlo.after hostOps2 (W8 m ρ c)
/-- The same read at the TensorCore's references (what the next call's proof data take). -/
abbrev V9 : (c : Dev nD) → (b : Ref sig .tc) → Buf (Elt F) ((c : Thread nD τ).loc b) := fun c b => W9 m ρ c b

/-- At the exit of call 2: its arrays at what its pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references. -/
abbrev V10 : (c : Dev nD) → (b : Ref sig .tc) → Buf (Elt F) ((c : Thread nD τ).loc b) := fun c b => W10 m ρ c b
/-- At the exit of call 2 each of its arrays holds what the pipeline leaves, and every other buffer what it held at
    entry. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After `hostOps3`. -/
abbrev W11 : Dev nD → Valuation τ sig (Elt F) := fun c => StableHlo.after hostOps3 (W10 m ρ c)
/-- The same read at the TensorCore's references (what the next call's proof data take). -/
abbrev V11 : (c : Dev nD) → (b : Ref sig .tc) → Buf (Elt F) ((c : Thread nD τ).loc b) := fun c b => W11 m ρ c b

/-- At the exit of call 3: its arrays at what its pipeline leaves, every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references. -/
abbrev V12 : (c : Dev nD) → (b : Ref sig .tc) → Buf (Elt F) ((c : Thread nD τ).loc b) := fun c b => W12 m ρ c b
/-- At the exit of call 3 each of its arrays holds what the pipeline leaves, and every other buffer what it held at
    entry. -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

end Cert.Kernel.Hand

end
-- ==== Proof.K.Run.lean ====
import proofs.«424483_j12627203850513_1_alg».proof.Proof.K.Fold

/-! # The run of @main

@main's twelve items as the segments of the pipeline library's launch theorem: each host stretch over the unscoped
buffers from its boundary's contents, each call as a region whose arrays are split out of those buffers at entry and put
back at exit. The launch theorem then gives that @main terminates and that every final memory holds every unscoped buffer
at the last boundary's contents; from that, the arguments as launched (no item changes one) and the result array. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged

A host stretch changes only the buffers its operations write; a call changes only its output array. -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h
theorem W9_of (c : Dev nD) (r : Ref sig .tc) (h : r ∉ hostOps2_W) :
    W9 m ρ c (Proc.devRef .tc r) = W8 m ρ c (Proc.devRef .tc r) :=
  StableHlo.after_of_writes_sub hostOps2 _ hostOps2_writes h
theorem W11_of (c : Dev nD) (r : Ref sig .tc) (h : r ∉ hostOps3_W) :
    W11 m ρ c (Proc.devRef .tc r) = W10 m ρ c (Proc.devRef .tc r) :=
  StableHlo.after_of_writes_sub hostOps3 _ hostOps3_writes h

/-- Call 0 changes only its output array `main_v35`: an input array ends as entered, a buffer it does not stage is
    untouched. -/
theorem W6_keep (c : Dev nD) (r : Ref sig .tc) (h : r ≠ main_v35) :
    W6 m ρ c (Proc.devRef .tc r) = W5 m ρ c (Proc.devRef .tc r) := by
  by_cases hw : ∃ w, Pipeline.arrRef spec0 w = r
  · obtain ⟨w, rfl⟩ := hw
    have hin : (cfg0.win w).isOut = false := by
      revert h; revert w; decide
    exact (W6_arr m ρ c w).trans (((dat0 (V5 m ρ) c).arrAt_in w hin _).trans (A_eq0 (V5 m ρ) c w))
  · exact W6_of_ne m ρ c r fun w e => hw ⟨w, e⟩
/-- Call 1 changes only its output array `main_v55`: an input array ends as entered, a buffer it does not stage is
    untouched. -/
theorem W8_keep (c : Dev nD) (r : Ref sig .tc) (h : r ≠ main_v55) :
    W8 m ρ c (Proc.devRef .tc r) = W7 m ρ c (Proc.devRef .tc r) := by
  by_cases hw : ∃ w, Pipeline.arrRef spec1 w = r
  · obtain ⟨w, rfl⟩ := hw
    have hin : (cfg1.win w).isOut = false := by
      revert h; revert w; decide
    exact (W8_arr m ρ c w).trans (((dat1 (V7 m ρ) c).arrAt_in w hin _).trans (A_eq1 (V7 m ρ) c w))
  · exact W8_of_ne m ρ c r fun w e => hw ⟨w, e⟩
/-- Call 2 changes only its output array `main_v73`: an input array ends as entered, a buffer it does not stage is
    untouched. -/
theorem W10_keep (c : Dev nD) (r : Ref sig .tc) (h : r ≠ main_v73) :
    W10 m ρ c (Proc.devRef .tc r) = W9 m ρ c (Proc.devRef .tc r) := by
  by_cases hw : ∃ w, Pipeline.arrRef spec2 w = r
  · obtain ⟨w, rfl⟩ := hw
    have hin : (cfg2.win w).isOut = false := by
      revert h; revert w; decide
    exact (W10_arr m ρ c w).trans (((dat2 (V9 m ρ) c).arrAt_in w hin _).trans (A_eq2 (V9 m ρ) c w))
  · exact W10_of_ne m ρ c r fun w e => hw ⟨w, e⟩
/-- Call 3 changes only its output array `main_v81`: an input array ends as entered, a buffer it does not stage is
    untouched. -/
theorem W12_keep (c : Dev nD) (r : Ref sig .tc) (h : r ≠ main_v81) :
    W12 m ρ c (Proc.devRef .tc r) = W11 m ρ c (Proc.devRef .tc r) := by
  by_cases hw : ∃ w, Pipeline.arrRef spec3 w = r
  · obtain ⟨w, rfl⟩ := hw
    have hin : (cfg3.win w).isOut = false := by
      revert h; revert w; decide
    exact (W12_arr m ρ c w).trans (((dat3 (V11 m ρ) c).arrAt_in w hin _).trans (A_eq3 (V11 m ρ) c w))
  · exact W12_of_ne m ρ c r fun w e => hw ⟨w, e⟩

/-- A buffer that no host stretch writes and that is no call's output ends as launched. -/
theorem W12_of_untouched (c : Dev nD) (r : Ref sig .tc)
    (h : r ∉ hostOps0_W ∧ r ∉ hostOps0_1_W ∧ r ∉ hostOps0_2_W ∧ r ∉ hostOps0_3_W ∧ r ∉ hostOps0_4_W ∧ r ≠ main_v35
      ∧ r ∉ hostOps1_W ∧ r ≠ main_v55 ∧ r ∉ hostOps2_W ∧ r ≠ main_v73 ∧ r ∉ hostOps3_W ∧ r ≠ main_v81) :
    W12 m ρ c (Proc.devRef .tc r) = m ((c : Thread nD τ).loc r) := by
  obtain ⟨h1, h2, h3, h4, h5, h6, h7, h8, h9, h10, h11, h12⟩ := h
  exact (W12_keep m ρ c r h12).trans <| (W11_of m ρ c r h11).trans <| (W10_keep m ρ c r h10).trans <|
    (W9_of m ρ c r h9).trans <| (W8_keep m ρ c r h8).trans <| (W7_of m ρ c r h7).trans <| (W6_keep m ρ c r h6).trans <|
    (W5_of m ρ c r h5).trans <| (W4_of m ρ c r h4).trans <| (W3_of m ρ c r h3).trans <| (W2_of m ρ c r h2).trans <|
    (W1_of m ρ c r h1).trans rfl

/-! ### The arguments end as launched -/

theorem W12_main_arg0 (c : Dev nD) : W12 m ρ c (Proc.devRef .tc main_arg0) = m ((c : Thread nD τ).loc main_arg0) :=
  W12_of_untouched m ρ c main_arg0 (by decide)
theorem W12_main_arg1 (c : Dev nD) : W12 m ρ c (Proc.devRef .tc main_arg1) = m ((c : Thread nD τ).loc main_arg1) :=
  W12_of_untouched m ρ c main_arg1 (by decide)
theorem W12_main_arg2 (c : Dev nD) : W12 m ρ c (Proc.devRef .tc main_arg2) = m ((c : Thread nD τ).loc main_arg2) :=
  W12_of_untouched m ρ c main_arg2 (by decide)
theorem W12_main_arg3 (c : Dev nD) : W12 m ρ c (Proc.devRef .tc main_arg3) = m ((c : Thread nD τ).loc main_arg3) :=
  W12_of_untouched m ρ c main_arg3 (by decide)
theorem W12_main_arg4 (c : Dev nD) : W12 m ρ c (Proc.devRef .tc main_arg4) = m ((c : Thread nD τ).loc main_arg4) :=
  W12_of_untouched m ρ c main_arg4 (by decide)
theorem W12_main_arg5 (c : Dev nD) : W12 m ρ c (Proc.devRef .tc main_arg5) = m ((c : Thread nD τ).loc main_arg5) :=
  W12_of_untouched m ρ c main_arg5 (by decide)
theorem W12_main_arg6 (c : Dev nD) : W12 m ρ c (Proc.devRef .tc main_arg6) = m ((c : Thread nD τ).loc main_arg6) :=
  W12_of_untouched m ρ c main_arg6 (by decide)
theorem W12_main_arg7 (c : Dev nD) : W12 m ρ c (Proc.devRef .tc main_arg7) = m ((c : Thread nD τ).loc main_arg7) :=
  W12_of_untouched m ρ c main_arg7 (by decide)
theorem W12_main_arg8 (c : Dev nD) : W12 m ρ c (Proc.devRef .tc main_arg8) = m ((c : Thread nD τ).loc main_arg8) :=
  W12_of_untouched m ρ c main_arg8 (by decide)
theorem W12_main_arg9 (c : Dev nD) : W12 m ρ c (Proc.devRef .tc main_arg9) = m ((c : Thread nD τ).loc main_arg9) :=
  W12_of_untouched m ρ c main_arg9 (by decide)
theorem W12_main_arg10 (c : Dev nD) : W12 m ρ c (Proc.devRef .tc main_arg10) = m ((c : Thread nD τ).loc main_arg10) :=
  W12_of_untouched m ρ c main_arg10 (by decide)
theorem W12_main_arg11 (c : Dev nD) : W12 m ρ c (Proc.devRef .tc main_arg11) = m ((c : Thread nD τ).loc main_arg11) :=
  W12_of_untouched m ρ c main_arg11 (by decide)

/-! ## The proof data family and the thread state -/

/-- The prefetched tables' admissible contents: no call has a table. -/
abbrev adm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W12 m ρ c) ∗ ∃ r, prngReg c r)

/-! ## The calls as segments

Calls 0 to 2 keep the invariant of a body that touches only its windows at every point. Call 3 carries its scratch
accumulator between points: its invariant before the first point is obtained from that same invariant, and the one
after the last point gives it back. -/

set_option backward.isDefEq.respectTransparency.types false in
/-- CALL 0 (the first dense layer) over the thread state: entered from every unscoped buffer at `W5`, left at `W6`. Its arrays are
    split out of the unscoped buffers and put back at the exit contents; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 (the second dense layer) over the thread state: entered from every unscoped buffer at `W7`, left at `W8`. Its arrays are
    split out of the unscoped buffers and put back at the exit contents; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 (the plain product) over the thread state: entered from every unscoped buffer at `W9`, left at `W10`. Its arrays are
    split out of the unscoped buffers and put back at the exit contents; the generator register goes into the
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) (A_eq2 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 3 (the one-hot accumulation) over the thread state: entered from every unscoped buffer at `W11`, left at `W12`. Its arrays are
    split out of the unscoped buffers and put back at the exit contents; the generator register goes into the
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) (A_eq3 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V11 m ρ) c).Φ 0 from rfl]
    refine (?_ : _ ⊢ (Pipeline.ΦA spec3 c : sProp 𝕄)).trans (hin3 (V11 m ρ) c)
    unfold Pipeline.ΦA
    iintro ⟨Hp, -, Hr⟩
    isplitl [Hr]; · iexact Hr
    iexact Hp
  hout c := by
    rw [Pipeline.ownSems0_none, show (pdats m ρ 3 c).Φ (Fin.last _) = (dat3 (V11 m ρ) c).Φ (Fin.last cfg3.N) from rfl]
    refine (hout3 (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ) ]
/-- @main is the run of the segments: it is the chain of its twelve items, and the segments' run is the chain of their
    programs, item for item. -/
theorem main_run (c : Dev nD) : main (F := F) c = Pipeline.Seg.run (segs m ρ) := by
  rw [main_chain c, Pipeline.Seg.run_eq_chain]; rfl

set_option backward.isDefEq.respectTransparency.types false in
/-- THE RUN. From any memory with zero counters, every weakly fair execution of @main on the TensorCores terminates,
    nothing faulting, and every final memory holds each unscoped buffer at the last boundary's contents `W12`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- THE FRAME, at any `F`: @main terminates from any memory with zero counters, and every final memory holds each
    argument array as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c)⟩) (run_main m ρ)

/-- THE VALUE, at any `F`: the same run, with the result array read off the last boundary's contents beside the
    arguments. -/
theorem value_main : θ_run defs (onTc (τ := τ) (main (F := F))) ⟨m, fun _ => 0, ρ⟩ (fun r => ∀ c : Dev nD,
      r.2.mem ((c.tc : Thread nD τ).loc main_v81) = W12 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨h c _ (mem_uc main_v81 (by decide)),
      (h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c)⟩) (run_main m ρ)

end Cert.Kernel.Hand

end
-- ==== Proof.KI.Reg0.lean ====
import proofs.«424483_j12627203850513_1_alg».proof.Proof.Gen.KernelIdeal.Launch
import proofs.«424483_j12627203850513_1_alg».proof.Proof.Gen.KernelIdeal.Skeleton
import proofs.«424483_j12627203850513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the class-A half of the first dense graph-convolution call

The call multiplies a [5000,128] row tile by a [128,128] weight, clamps at zero, normalises each row and scales and
shifts it by a [1,128] pair, over ten row tiles of a [50000,128] array. Everything here is stated at a parameter
`V`, the TensorCore's buffer contents when the region is entered: the five windows' blocks read off `V`, what the
body leaves in the output window's buffer as a function of the four input blocks, the body's triple, the proof data of
the pipeline and its body obligation at every grid point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the input row tile, fetched at every point): its current staging buffer holds its block at every point, fetched there or not, for
    any proof data whose array is `V`'s and whose body leaves the block in place. Where the window is not fetched its
    block index has not moved since the last fetch, and the body kept the block; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight, fetched at the first point only): its current staging buffer holds its block at every point, fetched there or not, for
    any proof data whose array is `V`'s and whose body leaves the block in place. Where the window is not fetched its
    block index has not moved since the last fetch, and the body kept the block; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the scale row, fetched at the first point only): its current staging buffer holds its block at every point, fetched there or not, for
    any proof data whose array is `V`'s and whose body leaves the block in place. Where the window is not fetched its
    block index has not moved since the last fetch, and the body kept the block; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the shift row, fetched at the first point only): its current staging buffer holds its block at every point, fetched there or not, for
    any proof data whose array is `V`'s and whose body leaves the block in place. Where the window is not fetched its
    block index has not moved since the last fetch, and the body kept the block; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rX : Rect S5000x128 := Rect.unit (s := S5000x128) ![0, 0] S5000x128.size inb_S5000x128_S5000x128_0_0
abbrev rW : Rect S128x128 := Rect.unit (s := S128x128) ![0, 0] S128x128.size inb_S128x128_S128x128_0_0
abbrev rG : Rect S1x128 := Rect.unit (s := S1x128) ![0, 0] S1x128.size inb_S1x128_S1x128_0_0

/-! ## What the body leaves in the output window's buffer -/

/-- Window 4's staging buffer after the body, from the four input blocks: the body's one store, of the normalised
    product, through the whole buffer. -/
def out0_4 (x0 : Vec F S5000x128 .f32) (x1 : Vec F S128x128 .f32) (x2 x3 : Vec F S1x128 .f32) : Vec F S5000x128 .f32 :=
  View.canon [⟨rX, k0_pay1 (View.ld x0 rX) (View.ld x1 rW) (View.ld x2 rG) (View.ld x3 rG)⟩]

/-- The one store is through the whole buffer, so it covers it. -/
theorem cover0_4 (p0 : Vec F S5000x128 .f32) (y : S5000x128.Idx) :
    ∃ pc ∈ ([⟨rX, p0⟩] : List (View.Piece (Elt F) S5000x128 .f32)), y ∈ pc.1.set :=
  View.cover_of_tiled [⟨rX, p0⟩] S5000x128.size (by rfl) y

/-! ## The body's triple -/

set_option maxHeartbeats 1000000 in
/-- The kernel body on whole staging memrefs, the four inputs' at read contents `x0 … x3` and the output's at anything,
    runs to the continuation holding the inputs' as they were and the output's at `out0_4` of them. The body reads
    the output's buffer before it writes it; the value read is dropped. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S128x128 .f32) (x2 x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__dense_gconv_kernel_act i arg1 harg1 arg2 harg2 arg3 harg3 arg4 harg4 arg5 harg5) K := by
  simp only [cc0__dense_gconv_kernel_act_eq_skeleton]; unfold cc0__dense_gconv_kernel_act_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t` each
    input's buffer at its block and the output's at `out0_4` of the input blocks; the invariant that of a body touching
    only its windows (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«424483_j12627203850513_1_alg».proof.Proof.Gen.KernelIdeal.Launch
import proofs.«424483_j12627203850513_1_alg».proof.Proof.Gen.KernelIdeal.Skeleton
import proofs.«424483_j12627203850513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the class-A half of the second dense graph-convolution call

The call multiplies a [5000,128] row tile by a [128,128] weight, clamps at zero, normalises each row and scales and
shifts it by a [1,128] pair, over ten row tiles of a [50000,128] array. Everything here is stated at a parameter
`V`, the TensorCore's buffer contents when the region is entered: the five windows' blocks read off `V`, what the
body leaves in the output window's buffer as a function of the four input blocks, the body's triple, the proof data of
the pipeline and its body obligation at every grid point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the input row tile, fetched at every point): its current staging buffer holds its block at every point, fetched there or not, for
    any proof data whose array is `V`'s and whose body leaves the block in place. Where the window is not fetched its
    block index has not moved since the last fetch, and the body kept the block; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight, fetched at the first point only): its current staging buffer holds its block at every point, fetched there or not, for
    any proof data whose array is `V`'s and whose body leaves the block in place. Where the window is not fetched its
    block index has not moved since the last fetch, and the body kept the block; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the scale row, fetched at the first point only): its current staging buffer holds its block at every point, fetched there or not, for
    any proof data whose array is `V`'s and whose body leaves the block in place. Where the window is not fetched its
    block index has not moved since the last fetch, and the body kept the block; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the shift row, fetched at the first point only): its current staging buffer holds its block at every point, fetched there or not, for
    any proof data whose array is `V`'s and whose body leaves the block in place. Where the window is not fetched its
    block index has not moved since the last fetch, and the body kept the block; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rG1 : Rect S1x128 := Rect.unit (s := S1x128) ![0, 0] S1x128.size inb_S1x128_S1x128_0_0

/-! ## What the body leaves in the output window's buffer -/

/-- Window 4's staging buffer after the body, from the four input blocks: the body's one store, of the normalised
    product, through the whole buffer. -/
def out1_4 (x0 : Vec F S5000x128 .f32) (x1 : Vec F S128x128 .f32) (x2 x3 : Vec F S1x128 .f32) : Vec F S5000x128 .f32 :=
  View.canon [⟨rX1, k1_pay1 (View.ld x0 rX1) (View.ld x1 rW1) (View.ld x2 rG1) (View.ld x3 rG1)⟩]

/-- The one store is through the whole buffer, so it covers it. -/
theorem cover1_4 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

/-! ## The body's triple -/

set_option maxHeartbeats 1000000 in
/-- The kernel body on whole staging memrefs, the four inputs' at read contents `x0 … x3` and the output's at anything,
    runs to the continuation holding the inputs' as they were and the output's at `out1_4` of them. The body reads
    the output's buffer before it writes it; the value read is dropped. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S128x128 .f32) (x2 x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__dense_gconv_kernel_act i arg1 harg1 arg2 harg2 arg3 harg3 arg4 harg4 arg5 harg5) K := by
  simp only [cc1__dense_gconv_kernel_act_eq_skeleton]; unfold cc1__dense_gconv_kernel_act_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pipeline on core `c`: the arrays as the region finds them; after the body at point `t` each
    input's buffer at its block and the output's at `out1_4` of the input blocks; the invariant that of a body touching
    only its windows (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- REGION 2 of @main (custom_call 2, the plain matmul, pipeline 2) as the class-A half of a several-region frame,
   stated at a PARAMETER V: the TensorCore's buffer contents when the region is entered.
   Per point of the grid the body reads the input tile and the weight whole, and overwrites the output tile whole with
   the product; so each input window's staging buffer holds its block (fetched there or not: the weight's block index
   never moves), and the output window's buffer is left at the product of the two blocks. -/
import proofs.«424483_j12627203850513_1_alg».proof.Proof.Gen.KernelIdeal.Launch
import proofs.«424483_j12627203850513_1_alg».proof.Proof.Gen.KernelIdeal.Skeleton
import proofs.«424483_j12627203850513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input tile's staging buffer holds its block at every point, for any proof data whose array is V's and
    whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's staging buffer holds its block at every point although it is fetched at the first only: its block
    index never moves, so the block left in place at the previous point is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rX2 : Rect S5000x128 := Rect.unit (s := S5000x128) ![0, 0] S5000x128.size inb_S5000x128_S5000x128_0_0
abbrev rW2 : Rect S128x128 := Rect.unit (s := S128x128) ![0, 0] S128x128.size inb_S128x128_S128x128_0_0

/-! ## What the body leaves in the output window's buffer -/

/-- The output tile's staging buffer after the body, from the two input blocks: its one store, of the product,
    over the whole buffer. -/
def out2_2 (x0 : Vec F S5000x128 .f32) (x1 : Vec F S128x128 .f32) : Vec F S5000x128 .f32 :=
  View.canon [⟨rX2, k2_pay1 (View.ld x0 rX2) (View.ld x1 rW2)⟩]

/-- The one store's rectangle is the whole buffer, so it covers it. -/
theorem cover2_2 (p0 : Vec F S5000x128 .f32) (y : S5000x128.Idx) :
    ∃ pc ∈ ([⟨rX2, p0⟩] : List (View.Piece (Elt F) S5000x128 .f32)), y ∈ pc.1.set :=
  View.cover_of_tiled [⟨rX2, p0⟩] S5000x128.size (by rfl) y

/-! ## The body's triple -/

set_option maxHeartbeats 1000000 in
/-- The kernel body on whole staging memrefs, the inputs' at read contents x0, x1 and the output's at anything, runs
    to the continuation holding the inputs' as they were and the output's at out2_2 of the inputs': the load of the
    output buffer before the store reads a value the store's payload does not use. -/
theorem sound_kernel2 (c : Dev nD) (E : Set ℕ) (i : grid2.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__dense_gconv_kernel_noact i arg1 harg1 arg2 harg2 arg3 harg3) K := by
  simp only [cc2__dense_gconv_kernel_noact_eq_skeleton]; unfold cc2__dense_gconv_kernel_noact_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core c: the arrays as the region finds them; after the body at point t each
    input's buffer at its block and the output's at out2_2 of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«424483_j12627203850513_1_alg».proof.Proof.Gen.KernelIdeal.Launch
import proofs.«424483_j12627203850513_1_alg».proof.Proof.Gen.KernelIdeal.Skeleton
import proofs.«424483_j12627203850513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 3: the readout. Five points; at each the one-hot tile (window 0) and the feature tile (window 1)
are fetched; the product of the transposed one-hot tile with the feature tile is added into a scratch accumulator
that is zeroed at the first point; at the last point the accumulator is copied to the output block (window 2). -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch accumulator as a whole memref. -/
abbrev scM3 : Memref sig .tc .vmem S250x128 .f32 := Memref.whole cc3_scratch0

/-- the scratch after point n: the accumulator reset at point 0, one tile's product added per point -/
def acc3 (c : Dev nD) : (n : ℕ) → n < cfg3.N → Vec F S250x128 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩) (acc3 c n (Nat.lt_of_succ_lt h))

theorem acc3_zero (c : Dev nD) (h : 0 < cfg3.N) :
    acc3 V c 0 h = k3_pay2 (iblk3 V c 0 ⟨0, h⟩) (iblk3 V c 1 ⟨0, h⟩) (k3_pay1 (F := F)) := rfl

theorem acc3_succ (c : Dev nD) (n : ℕ) (h : n + 1 < cfg3.N) :
    acc3 V c (n + 1) h = k3_pay2 (iblk3 V c 0 ⟨n + 1, h⟩) (iblk3 V c 1 ⟨n + 1, h⟩) (acc3 V c n (Nat.lt_of_succ_lt h)) := rfl

/-- The accumulator after a point that is not the first, over what the point before left. -/
theorem acc3_pos (c : Dev nD) (t : Fin cfg3.N) (hz : t.val ≠ 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl hz
  | succ n => rfl

/-- The accumulator after the first point. -/
theorem acc3_first (c : Dev nD) (t : Fin cfg3.N) (hz : t.val = 0) :
    acc3 V c t.val t.isLt = k3_pay2 (iblk3 V c 0 t) (iblk3 V c 1 t) (k3_pay1 (F := F)) := by
  obtain ⟨n, hn⟩ := t
  cases n with
  | zero => rfl
  | succ n => exact absurd hz (Nat.succ_ne_zero n)

/-- The core's scoped buffers other than this region's staging buffers and its scratch (the staging buffers of the
    three earlier regions), each whole at some contents: the region neither reads nor writes them. -/
def others3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The invariant before position `n`: before the first point what the launch hands the region; afterwards the
    scratch accumulator at what the point before left in it, the other scoped buffers at anything and the generator
    register at some state. -/
def PhiS3 (c : Dev nD) : (n : ℕ) → n ≤ cfg3.N → sProp 𝕄
  | 0, _ => Pipeline.ΦA spec3 c
  | n + 1, hn => iprop((others3 (F := F) c ∗ owns (c : Thread nD τ) scM3 fullShare (acc3 V c n hn)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop((others3 (F := F) c ∗ owns (c : Thread nD τ) scM3 fullShare (acc3 V c n hn)) ∗ (∃ r, prngReg c r)) := rfl

theorem PhiS3_pos (c : Dev nD) (n : ℕ) (h : n ≤ cfg3.N) (hz : n ≠ 0) :
    PhiS3 V c n h = iprop((others3 (F := F) c ∗ owns (c : Thread nD τ) scM3 fullShare (acc3 V c (n - 1) (by omega))) ∗ (∃ r, prngReg c r)) := by
  cases n with
  | zero => exact absurd rfl hz
  | succ n => rfl

/-- The proof data of the readout pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

/-- The class's invariant with the scratch split off as an owned memref. -/
theorem PhiA3_split (c : Dev nD) :
    (Pipeline.ΦA spec3 c : sProp 𝕄) ⊢ iprop((others3 (F := F) c ∗ (∃ d, owns (c : Thread nD τ) scM3 fullShare d)) ∗ (∃ r, prngReg c r)) := by
  unfold Pipeline.ΦA others3; rw [scopedRest3_eq]; simp only [scM3, owns_whole]
  iintro ⟨⟨H1, H2, H3, H4, H5, H6, H7, H8, H9, H10, H11, H12, H13, H14, H15, H16, H17, H18, H19, HS⟩, Hg⟩
  iframe

theorem PhiA3_join (c : Dev nD) :
    iprop((others3 (F := F) c ∗ (∃ d, owns (c : Thread nD τ) scM3 fullShare d)) ∗ (∃ r, prngReg c r)) ⊢ (Pipeline.ΦA spec3 c : sProp 𝕄) := by
  unfold Pipeline.ΦA others3; rw [scopedRest3_eq]; simp only [scM3, owns_whole]
  iintro ⟨⟨⟨H1, H2, H3, H4, H5, H6, H7, H8, H9, H10, H11, H12, H13, H14, H15, H16, H17, H18, H19⟩, HS⟩, Hg⟩
  iframe

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  refine (?_ : _ ⊢ _).trans (PhiA3_join c)
  iintro ⟨⟨Ho, HS⟩, Hg⟩
  isplitr [Hg]
  · isplitl [Ho]
    · iexact Ho
    · iexists _; iexact HS
  · iexact Hg

theorem hout3 (c : Dev nD) : (dat3 V c).Φ (Fin.last cfg3.N) ⊢ Pipeline.ΦA spec3 c :=
  Phi3_out V c _ (by rw [Fin.val_last]; have : cfg3.N = 5 := N_3; omega)

/-! ## The body's branch conditions, decided over the grid -/

/-- The condition of the body's first `scf.if` (the reset of the accumulator), from the grid coordinates. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the body's second `scf.if` (the copy of the accumulator to the output block). -/
abbrev cond3_1 (i : grid3.Coords) : Prop := k3_cond2 i = 1#1
/-- It holds at the last point only. -/
theorem hcond3_1 : ∀ t : Fin cfg3.N, cond3_1 (grid3.coords t) ↔ t.val = 4 :=
  (by decide +kernel : ∀ t : Fin grid3.N, cond3_1 (grid3.coords t) ↔ t.val = 4)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- Where the output is not stored the configuration calls it idle, -/
theorem idleAt3_2 : ∀ t : Fin cfg3.N, ¬cond3_1 (grid3.coords t) → cfg3.idle 2 (grid3.coords t) = true := by decide +kernel
/-- and the pipeline does not write its block back there; -/
theorem noFlush3_2 : ∀ t : Fin cfg3.N, ¬cond3_1 (grid3.coords t) → (cfg3.win 2).flush t = false := by decide +kernel
/-- at the last point it is live. -/
theorem liveAt3_2 : ∀ t : Fin cfg3.N, cond3_1 (grid3.coords t) → cfg3.idle 2 (grid3.coords t) = false := by decide +kernel

/-! ## The staging memrefs at a point -/

abbrev ms3_0 (t : Fin cfg3.N) : Memref sig .tc .vmem S10000x250 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S250x128 .f32 := win3_2.stage (cfg3.slots t 2)
abbrev hs3_2 (t : Fin cfg3.N) : (ms3_2 t).IsWhole := hstage3_2 ((cfg3.slots t 2).cast nbuf3_2)

/-! ## What the body finds in the inputs' buffers -/

/-- The one-hot tile's buffer holds its block at every point: the window is fetched at each. -/
theorem before3_0 (c : Dev nD) (t : Fin cfg3.N) (d) : (dat3 V c).before 0 t d = iblk3 V c 0 t := by
  rw [(dat3 V c).before_fetched 0 t (fetch3_0 t) d]
  unfold Dat.fetched Dat.blockOf iblk3; rw [A_eq3]; try rfl

/-- The feature tile's buffer likewise. -/
theorem before3_1 (c : Dev nD) (t : Fin cfg3.N) (d) : (dat3 V c).before 1 t d = iblk3 V c 1 t := by
  rw [(dat3 V c).before_fetched 1 t (fetch3_1 t) d]
  unfold Dat.fetched Dat.blockOf iblk3; rw [A_eq3]; try rfl

/-! ## The body on any whole staging memrefs, case by case -/

theorem hz2 : (![0, 0] : Fin 2 → Nat) = fun _ => 0 := funext fun a => by fin_cases a <;> rfl

set_option maxHeartbeats 1000000 in
/-- THE FIRST POINT. With the inputs' buffers at `x1`, `x2`, the output's at `xi3` and the scratch at anything, the
    body zeroes the scratch, adds the tiles' product into it and touches nothing else: the output's buffer comes
    back as it was, the scratch at `k3_pay2 x1 x2 k3_pay1`. -/
theorem run3_first (c : Dev nD) (i : grid3.Coords)
    (arg1 : Memref sig .tc .vmem S10000x250 .bf16) (harg1 : arg1.IsWhole)
    (arg2 : Memref sig .tc .vmem S10000x128 .f32) (harg2 : arg2.IsWhole)
    (arg3 : Memref sig .tc .vmem S250x128 .f32) (harg3 : arg3.IsWhole)
    (arg4 : Memref sig .tc .vmem S250x128 .f32) (harg4 : arg4.IsWhole)
    (hc0 : cond3_0 i) (hc1 : ¬cond3_1 i)
    (x1 : Vec F S10000x250 .bf16) (x2 : Vec F S10000x128 .f32) (xi3 : Vec F S250x128 .f32)
    (E : Set ℕ) (K : PUnit → sProp 𝕄) :
    iprop(owns (c : Thread nD τ) arg1 fullShare x1 ∗ owns (c : Thread nD τ) arg2 fullShare x2
        ∗ owns (c : Thread nD τ) arg3 fullShare xi3 ∗ (∃ d, owns (c : Thread nD τ) arg4 fullShare d)
        ∗ (iprop(owns (c : Thread nD τ) arg1 fullShare x1 ∗ owns (c : Thread nD τ) arg2 fullShare x2
            ∗ owns (c : Thread nD τ) arg3 fullShare xi3
            ∗ owns (c : Thread nD τ) arg4 fullShare (k3_pay2 x1 x2 (k3_pay1 (F := F)))) -∗ K ⟨⟩))
      ⊢ wp frame (wpE (defs₀ (F := F)) Variants.none c none) E (cc3__readout_kernel i arg1 harg1 arg2 harg2 arg3 harg3 arg4 harg4) K := by
  simp only [cc3__readout_kernel_eq_skeleton]; unfold cc3__readout_kernel_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr
    · ipureintro; exact harg1.read_unread _
    · iexact H1
  isplitl [H2]
  · iexists _; isplitr
    · ipureintro; exact harg2.read_unread _
    · iexact H2
  isplitl [H3]
  · iexists _; isplitr
    · ipureintro; exact harg3.read_unread _
    · iexact H3
  iexists _; isplitr
  swap
  · iexact H4
  ipureintro
  rw [View.read_writes_eq_canon _ _ _ (fun y => ⟨_, List.mem_cons_self, View.mem_set_unit_zero hz2 inb_S250x128_S250x128_0_0 y⟩)]
  sl_unfold_run_names
  rw [View.canon_cons_unit_zero (S := S250x128) hz2, View.readCov_unit_zero (S := S250x128) _ hz2]
  simp only [View.readAt_eq_ld, harg1.read_unread, harg2.read_unread, View.ld_unit_zero (S := S10000x250) hz2, View.ld_unit_zero (S := S10000x128) hz2]

set_option maxHeartbeats 1000000 in
/-- A MIDDLE POINT. With the scratch at `xs`, what the point before left, the body adds the tiles' product into it:
    the scratch comes back at `k3_pay2 x1 x2 xs`, the output's buffer as it was. -/
theorem run3_mid (c : Dev nD) (i : grid3.Coords)
    (arg1 : Memref sig .tc .vmem S10000x250 .bf16) (harg1 : arg1.IsWhole)
    (arg2 : Memref sig .tc .vmem S10000x128 .f32) (harg2 : arg2.IsWhole)
    (arg3 : Memref sig .tc .vmem S250x128 .f32) (harg3 : arg3.IsWhole)
    (arg4 : Memref sig .tc .vmem S250x128 .f32) (harg4 : arg4.IsWhole)
    (hc0 : ¬cond3_0 i) (hc1 : ¬cond3_1 i)
    (x1 : Vec F S10000x250 .bf16) (x2 : Vec F S10000x128 .f32) (xi3 : Vec F S250x128 .f32) (xs : Vec F S250x128 .f32)
    (E : Set ℕ) (K : PUnit → sProp 𝕄) :
    iprop(owns (c : Thread nD τ) arg1 fullShare x1 ∗ owns (c : Thread nD τ) arg2 fullShare x2
        ∗ owns (c : Thread nD τ) arg3 fullShare xi3 ∗ owns (c : Thread nD τ) arg4 fullShare xs
        ∗ (iprop(owns (c : Thread nD τ) arg1 fullShare x1 ∗ owns (c : Thread nD τ) arg2 fullShare x2
            ∗ owns (c : Thread nD τ) arg3 fullShare xi3
            ∗ owns (c : Thread nD τ) arg4 fullShare (k3_pay2 x1 x2 xs)) -∗ K ⟨⟩))
      ⊢ wp frame (wpE (defs₀ (F := F)) Variants.none c none) E (cc3__readout_kernel i arg1 harg1 arg2 harg2 arg3 harg3 arg4 harg4) K := by
  simp only [cc3__readout_kernel_eq_skeleton]; unfold cc3__readout_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3
  obtain rfl := harg4.eq_unread hf4
  sl_exec (disch := first | exact hc0 | exact hc1)
  sl_step
  iapply Hk
  isplitl [H1]
  · iexists _; isplitr
    · ipureintro; exact harg1.read_unread _
    · iexact H1
  isplitl [H2]
  · iexists _; isplitr
    · ipureintro; exact harg2.read_unread _
    · iexact H2
  isplitl [H3]
  · iexists _; isplitr
    · ipureintro; exact harg3.read_unread _
    · iexact H3
  iexists _; isplitr
  swap
  · iexact H4
  ipureintro
  rw [View.read_writes_eq_canon _ _ _ (fun y => ⟨_, List.mem_cons_self, View.mem_set_unit_zero hz2 inb_S250x128_S250x128_0_0 y⟩)]
  sl_unfold_run_names
  rw [View.canon_cons_unit_zero (S := S250x128) hz2]
  simp only [View.readAt_eq_ld, harg1.read_unread, harg2.read_unread, harg4.read_unread, View.ld_unit_zero (S := S10000x250) hz2, View.ld_unit_zero (S := S10000x128) hz2, View.ld_unit_zero (S := S250x128) hz2]

set_option maxHeartbeats 1000000 in
/-- THE LAST POINT. The body adds the tiles' product into the scratch and copies the scratch to the output's buffer,
    whatever that held: both come back at `k3_pay2 x1 x2 xs`. -/
theorem run3_last (c : Dev nD) (i : grid3.Coords)
    (arg1 : Memref sig .tc .vmem S10000x250 .bf16) (harg1 : arg1.IsWhole)
    (arg2 : Memref sig .tc .vmem S10000x128 .f32) (harg2 : arg2.IsWhole)
    (arg3 : Memref sig .tc .vmem S250x128 .f32) (harg3 : arg3.IsWhole)
    (arg4 : Memref sig .tc .vmem S250x128 .f32) (harg4 : arg4.IsWhole)
    (hc0 : ¬cond3_0 i) (hc1 : cond3_1 i)
    (x1 : Vec F S10000x250 .bf16) (x2 : Vec F S10000x128 .f32) (xs : Vec F S250x128 .f32)
    (E : Set ℕ) (K : PUnit → sProp 𝕄) :
    iprop(owns (c : Thread nD τ) arg1 fullShare x1 ∗ owns (c : Thread nD τ) arg2 fullShare x2
        ∗ (∃ d, owns (c : Thread nD τ) arg3 fullShare d) ∗ owns (c : Thread nD τ) arg4 fullShare xs
        ∗ (iprop(owns (c : Thread nD τ) arg1 fullShare x1 ∗ owns (c : Thread nD τ) arg2 fullShare x2
            ∗ owns (c : Thread nD τ) arg3 fullShare (k3_pay2 x1 x2 xs)
            ∗ owns (c : Thread nD τ) arg4 fullShare (k3_pay2 x1 x2 xs)) -∗ K ⟨⟩))
      ⊢ wp frame (wpE (defs₀ (F := F)) Variants.none c none) E (cc3__readout_kernel i arg1 harg1 arg2 harg2 arg3 harg3 arg4 harg4) K := by
  simp only [cc3__readout_kernel_eq_skeleton]; unfold cc3__readout_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2
  obtain rfl := harg4.eq_unread hf4
  sl_exec (disch := first | exact hc0 | exact hc1)
  sl_step
  iapply Hk
  isplitl [H1]
  · iexists _; isplitr
    · ipureintro; exact harg1.read_unread _
    · iexact H1
  isplitl [H2]
  · iexists _; isplitr
    · ipureintro; exact harg2.read_unread _
    · iexact H2
  isplitl [H3]
  · iexists _; isplitr
    swap
    · iexact H3
    ipureintro
    sl_unfold_run_names
    rw [View.read_writes_eq_canon _ _ _ (fun y => ⟨_, List.mem_cons_self, View.mem_set_unit_zero hz2 inb_S250x128_S250x128_0_0 y⟩)]
    rw [View.canon_cons_unit_zero (S := S250x128) hz2, View.readCov_unit_zero (S := S250x128) _ hz2]
    simp only [View.readAt_eq_ld, harg1.read_unread, harg2.read_unread, harg4.read_unread, View.ld_unit_zero (S := S10000x250) hz2, View.ld_unit_zero (S := S10000x128) hz2, View.ld_unit_zero (S := S250x128) hz2]
  iexists _; isplitr
  swap
  · iexact H4
  ipureintro
  sl_unfold_run_names
  rw [View.read_writes_eq_canon _ _ _ (fun y => ⟨_, List.mem_cons_self, View.mem_set_unit_zero hz2 inb_S250x128_S250x128_0_0 y⟩)]
  rw [View.canon_cons_unit_zero (S := S250x128) hz2]
  simp only [View.readAt_eq_ld, harg1.read_unread, harg2.read_unread, harg4.read_unread, View.ld_unit_zero (S := S10000x250) hz2, View.ld_unit_zero (S := S10000x128) hz2, View.ld_unit_zero (S := S250x128) hz2]

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' buffers hold their blocks; the point is the first, a middle one or the last
    (the closed forms of the two conditions); the invariant hands the body the scratch — at anything at the first
    point, else at what the point before left — and takes it back at this point's accumulator; the output's buffer
    is handed back untouched at the points that do not store it and at the accumulator at the last. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  have hN : t.val < 5 := lt_of_lt_of_eq t.isLt (show cfg3.N = 5 from N_3)
  by_cases h4 : t.val = 4
  · have hc0 : ¬cond3_0 (grid3.coords t) := fun h => by have := (hcond3_0 t).mp h; omega
    have hc1 : cond3_1 (grid3.coords t) := (hcond3_1 t).mpr h4
    have hz : t.val ≠ 0 := by omega
    rw [show (dat3 V c).leavesExact 2 t = owns (c : Thread nD τ) (ms3_2 t) fullShare ((dat3 V c).after 2 t) from by
      unfold Dat.leavesExact; rw [liveAt3_2 t hc1], after3_2]
    rw [acc3_pos V c t hz, PhiS3_castSucc V c t, PhiS3_pos V c _ _ hz]
    iintro ⟨⟨⟨Ho, HS⟩, Hg⟩, Hw, ⟨%d0, H0⟩, ⟨%d1, H1⟩, ⟨%d2, H2⟩⟩
    iapply (run3_last c (grid3.coords t) _ _ _ _ _ _ _ _ hc0 hc1 (iblk3 V c 0 t) (iblk3 V c 1 t) _ Set.univ _)
    isplitl [H0]
    · iexact H0
    isplitl [H1]
    · iexact H1
    isplitl [H2]
    · iexists _; iexact H2
    isplitl [HS]
    · iexact HS
    iintro ⟨H0, H1, H2, HS⟩
    isplitl [Ho HS Hg]
    · isplitr [Hg]
      · isplitl [Ho]
        · iexact Ho
        · iexact HS
      · iexact Hg
    isplitl [Hw]
    · iexact Hw
    isplitl [H0]
    · iexact H0
    isplitl [H1]
    · iexact H1
    iexact H2
  · have hc1 : ¬cond3_1 (grid3.coords t) := fun h => h4 ((hcond3_1 t).mp h)
    rw [Dat.leavesExact_idle (dat3 V c) 2 t (idleAt3_2 t hc1) (noFlush3_2 t hc1)]
    by_cases hz : t.val = 0
    · have hc0 : cond3_0 (grid3.coords t) := (hcond3_0 t).mpr hz
      rw [acc3_first V c t hz, PhiS3_castSucc V c t, PhiS3_zero V c _ _ hz]
      iintro ⟨HA, Hw, ⟨%d0, H0⟩, ⟨%d1, H1⟩, ⟨%d2, H2⟩⟩
      ihave ⟨⟨Ho, HS⟩, Hg⟩ := (PhiA3_split (F := F) c) $$ HA
      iapply (run3_first c (grid3.coords t) _ _ _ _ _ _ _ _ hc0 hc1 (iblk3 V c 0 t) (iblk3 V c 1 t) _ Set.univ _)
      isplitl [H0]
      · iexact H0
      isplitl [H1]
      · iexact H1
      isplitl [H2]
      · iexact H2
      isplitl [HS]
      · iexact HS
      iintro ⟨H0, H1, H2, HS⟩
      isplitl [Ho HS Hg]
      · isplitr [Hg]
        · isplitl [Ho]
          · iexact Ho
          · iexact HS
        · iexact Hg
      isplitl [Hw]
      · iexact Hw
      isplitl [H0]
      · iexact H0
      isplitl [H1]
      · iexact H1
      iexists _; iexact H2
    · have hc0 : ¬cond3_0 (grid3.coords t) := fun h => hz ((hcond3_0 t).mp h)
      rw [acc3_pos V c t hz, PhiS3_castSucc V c t, PhiS3_pos V c _ _ hz]
      iintro ⟨⟨⟨Ho, HS⟩, Hg⟩, Hw, ⟨%d0, H0⟩, ⟨%d1, H1⟩, ⟨%d2, H2⟩⟩
      iapply (run3_mid c (grid3.coords t) _ _ _ _ _ _ _ _ hc0 hc1 (iblk3 V c 0 t) (iblk3 V c 1 t) _ _ Set.univ _)
      isplitl [H0]
      · iexact H0
      isplitl [H1]
      · iexact H1
      isplitl [H2]
      · iexact H2
      isplitl [HS]
      · iexact HS
      iintro ⟨H0, H1, H2, HS⟩
      isplitl [Ho HS Hg]
      · isplitr [Hg]
        · isplitl [Ho]
          · iexact Ho
          · iexact HS
        · iexact Hg
      isplitl [Hw]
      · iexact Hw
      isplitl [H0]
      · iexact H0
      isplitl [H1]
      · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Fold.lean ====
import proofs.«424483_j12627203850513_1_alg».proof.Proof.KI.Reg0
import proofs.«424483_j12627203850513_1_alg».proof.Proof.KI.Reg1
import proofs.«424483_j12627203850513_1_alg».proof.Proof.KI.Reg2
import proofs.«424483_j12627203850513_1_alg».proof.Proof.KI.Reg3
import proofs.«424483_j12627203850513_1_alg».proof.Proof.Gen.KernelIdeal.Regions

/-! # The buffer contents at each boundary of @main

@main is twelve items in a row: five host stretches, the first dense call, a host stretch, the second dense call, a
host stretch, the plain product, a host stretch, and the one-hot accumulation. Starting from the launch memory, each
host stretch takes the contents to `StableHlo.after` of its operations; each call leaves its arrays at what its pipeline
leaves (an input as entered, an output with every write-back folded in: `Dat.arrAt … N`) and every other buffer as
entered. `W0 … W12` are these thirteen contents, `V5 … V12` the same read at the TensorCore's references. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After `hostOps0`. -/
abbrev W1 : Dev nD → Valuation τ sig (Elt F) := fun c => StableHlo.after hostOps0 (W0 m ρ c)

/-- After `hostOps0_1`. -/
abbrev W2 : Dev nD → Valuation τ sig (Elt F) := fun c => StableHlo.after hostOps0_1 (W1 m ρ c)

/-- After `hostOps0_2`. -/
abbrev W3 : Dev nD → Valuation τ sig (Elt F) := fun c => StableHlo.after hostOps0_2 (W2 m ρ c)

/-- After `hostOps0_3`. -/
abbrev W4 : Dev nD → Valuation τ sig (Elt F) := fun c => StableHlo.after hostOps0_3 (W3 m ρ c)

/-- After `hostOps0_4`. -/
abbrev W5 : Dev nD → Valuation τ sig (Elt F) := fun c => StableHlo.after hostOps0_4 (W4 m ρ c)
/-- The same read at the TensorCore's references (what the next call's proof data take). -/
abbrev V5 : (c : Dev nD) → (b : Ref sig .tc) → Buf (Elt F) ((c : Thread nD τ).loc b) := fun c b => W5 m ρ c b

/-- At the exit of call 0: its arrays at what its pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references. -/
abbrev V6 : (c : Dev nD) → (b : Ref sig .tc) → Buf (Elt F) ((c : Thread nD τ).loc b) := fun c b => W6 m ρ c b
/-- At the exit of call 0 each of its arrays holds what the pipeline leaves, and every other buffer what it held at
    entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After `hostOps1`. -/
abbrev W7 : Dev nD → Valuation τ sig (Elt F) := fun c => StableHlo.after hostOps1 (W6 m ρ c)
/-- The same read at the TensorCore's references (what the next call's proof data take). -/
abbrev V7 : (c : Dev nD) → (b : Ref sig .tc) → Buf (Elt F) ((c : Thread nD τ).loc b) := fun c b => W7 m ρ c b

/-- At the exit of call 1: its arrays at what its pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references. -/
abbrev V8 : (c : Dev nD) → (b : Ref sig .tc) → Buf (Elt F) ((c : Thread nD τ).loc b) := fun c b => W8 m ρ c b
/-- At the exit of call 1 each of its arrays holds what the pipeline leaves, and every other buffer what it held at
    entry. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2`. -/
abbrev W9 : Dev nD → Valuation τ sig (Elt F) := fun c => StableHlo.after hostOps2 (W8 m ρ c)
/-- The same read at the TensorCore's references (what the next call's proof data take). -/
abbrev V9 : (c : Dev nD) → (b : Ref sig .tc) → Buf (Elt F) ((c : Thread nD τ).loc b) := fun c b => W9 m ρ c b

/-- At the exit of call 2: its arrays at what its pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references. -/
abbrev V10 : (c : Dev nD) → (b : Ref sig .tc) → Buf (Elt F) ((c : Thread nD τ).loc b) := fun c b => W10 m ρ c b
/-- At the exit of call 2 each of its arrays holds what the pipeline leaves, and every other buffer what it held at
    entry. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After `hostOps3`. -/
abbrev W11 : Dev nD → Valuation τ sig (Elt F) := fun c => StableHlo.after hostOps3 (W10 m ρ c)
/-- The same read at the TensorCore's references (what the next call's proof data take). -/
abbrev V11 : (c : Dev nD) → (b : Ref sig .tc) → Buf (Elt F) ((c : Thread nD τ).loc b) := fun c b => W11 m ρ c b

/-- At the exit of call 3: its arrays at what its pipeline leaves, every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references. -/
abbrev V12 : (c : Dev nD) → (b : Ref sig .tc) → Buf (Elt F) ((c : Thread nD τ).loc b) := fun c b => W12 m ρ c b
/-- At the exit of call 3 each of its arrays holds what the pipeline leaves, and every other buffer what it held at
    entry. -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

end Cert.KernelIdeal.Hand

end
-- ==== Proof.KI.Run.lean ====
import proofs.«424483_j12627203850513_1_alg».proof.Proof.KI.Fold

/-! # The run of @main

@main's twelve items as the segments of the pipeline library's launch theorem: each host stretch over the unscoped
buffers from its boundary's contents, each call as a region whose arrays are split out of those buffers at entry and put
back at exit. The launch theorem then gives that @main terminates and that every final memory holds every unscoped buffer
at the last boundary's contents; from that, the arguments as launched (no item changes one) and the result array. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged

A host stretch changes only the buffers its operations write; a call changes only its output array. -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h
theorem W9_of (c : Dev nD) (r : Ref sig .tc) (h : r ∉ hostOps2_W) :
    W9 m ρ c (Proc.devRef .tc r) = W8 m ρ c (Proc.devRef .tc r) :=
  StableHlo.after_of_writes_sub hostOps2 _ hostOps2_writes h
theorem W11_of (c : Dev nD) (r : Ref sig .tc) (h : r ∉ hostOps3_W) :
    W11 m ρ c (Proc.devRef .tc r) = W10 m ρ c (Proc.devRef .tc r) :=
  StableHlo.after_of_writes_sub hostOps3 _ hostOps3_writes h

/-- Call 0 changes only its output array `main_v35`: an input array ends as entered, a buffer it does not stage is
    untouched. -/
theorem W6_keep (c : Dev nD) (r : Ref sig .tc) (h : r ≠ main_v35) :
    W6 m ρ c (Proc.devRef .tc r) = W5 m ρ c (Proc.devRef .tc r) := by
  by_cases hw : ∃ w, Pipeline.arrRef spec0 w = r
  · obtain ⟨w, rfl⟩ := hw
    have hin : (cfg0.win w).isOut = false := by
      revert h; revert w; decide
    exact (W6_arr m ρ c w).trans (((dat0 (V5 m ρ) c).arrAt_in w hin _).trans (A_eq0 (V5 m ρ) c w))
  · exact W6_of_ne m ρ c r fun w e => hw ⟨w, e⟩
/-- Call 1 changes only its output array `main_v55`: an input array ends as entered, a buffer it does not stage is
    untouched. -/
theorem W8_keep (c : Dev nD) (r : Ref sig .tc) (h : r ≠ main_v55) :
    W8 m ρ c (Proc.devRef .tc r) = W7 m ρ c (Proc.devRef .tc r) := by
  by_cases hw : ∃ w, Pipeline.arrRef spec1 w = r
  · obtain ⟨w, rfl⟩ := hw
    have hin : (cfg1.win w).isOut = false := by
      revert h; revert w; decide
    exact (W8_arr m ρ c w).trans (((dat1 (V7 m ρ) c).arrAt_in w hin _).trans (A_eq1 (V7 m ρ) c w))
  · exact W8_of_ne m ρ c r fun w e => hw ⟨w, e⟩
/-- Call 2 changes only its output array `main_v73`: an input array ends as entered, a buffer it does not stage is
    untouched. -/
theorem W10_keep (c : Dev nD) (r : Ref sig .tc) (h : r ≠ main_v73) :
    W10 m ρ c (Proc.devRef .tc r) = W9 m ρ c (Proc.devRef .tc r) := by
  by_cases hw : ∃ w, Pipeline.arrRef spec2 w = r
  · obtain ⟨w, rfl⟩ := hw
    have hin : (cfg2.win w).isOut = false := by
      revert h; revert w; decide
    exact (W10_arr m ρ c w).trans (((dat2 (V9 m ρ) c).arrAt_in w hin _).trans (A_eq2 (V9 m ρ) c w))
  · exact W10_of_ne m ρ c r fun w e => hw ⟨w, e⟩
/-- Call 3 changes only its output array `main_v81`: an input array ends as entered, a buffer it does not stage is
    untouched. -/
theorem W12_keep (c : Dev nD) (r : Ref sig .tc) (h : r ≠ main_v81) :
    W12 m ρ c (Proc.devRef .tc r) = W11 m ρ c (Proc.devRef .tc r) := by
  by_cases hw : ∃ w, Pipeline.arrRef spec3 w = r
  · obtain ⟨w, rfl⟩ := hw
    have hin : (cfg3.win w).isOut = false := by
      revert h; revert w; decide
    exact (W12_arr m ρ c w).trans (((dat3 (V11 m ρ) c).arrAt_in w hin _).trans (A_eq3 (V11 m ρ) c w))
  · exact W12_of_ne m ρ c r fun w e => hw ⟨w, e⟩

/-- A buffer that no host stretch writes and that is no call's output ends as launched. -/
theorem W12_of_untouched (c : Dev nD) (r : Ref sig .tc)
    (h : r ∉ hostOps0_W ∧ r ∉ hostOps0_1_W ∧ r ∉ hostOps0_2_W ∧ r ∉ hostOps0_3_W ∧ r ∉ hostOps0_4_W ∧ r ≠ main_v35
      ∧ r ∉ hostOps1_W ∧ r ≠ main_v55 ∧ r ∉ hostOps2_W ∧ r ≠ main_v73 ∧ r ∉ hostOps3_W ∧ r ≠ main_v81) :
    W12 m ρ c (Proc.devRef .tc r) = m ((c : Thread nD τ).loc r) := by
  obtain ⟨h1, h2, h3, h4, h5, h6, h7, h8, h9, h10, h11, h12⟩ := h
  exact (W12_keep m ρ c r h12).trans <| (W11_of m ρ c r h11).trans <| (W10_keep m ρ c r h10).trans <|
    (W9_of m ρ c r h9).trans <| (W8_keep m ρ c r h8).trans <| (W7_of m ρ c r h7).trans <| (W6_keep m ρ c r h6).trans <|
    (W5_of m ρ c r h5).trans <| (W4_of m ρ c r h4).trans <| (W3_of m ρ c r h3).trans <| (W2_of m ρ c r h2).trans <|
    (W1_of m ρ c r h1).trans rfl

/-! ### The arguments end as launched -/

theorem W12_main_arg0 (c : Dev nD) : W12 m ρ c (Proc.devRef .tc main_arg0) = m ((c : Thread nD τ).loc main_arg0) :=
  W12_of_untouched m ρ c main_arg0 (by decide)
theorem W12_main_arg1 (c : Dev nD) : W12 m ρ c (Proc.devRef .tc main_arg1) = m ((c : Thread nD τ).loc main_arg1) :=
  W12_of_untouched m ρ c main_arg1 (by decide)
theorem W12_main_arg2 (c : Dev nD) : W12 m ρ c (Proc.devRef .tc main_arg2) = m ((c : Thread nD τ).loc main_arg2) :=
  W12_of_untouched m ρ c main_arg2 (by decide)
theorem W12_main_arg3 (c : Dev nD) : W12 m ρ c (Proc.devRef .tc main_arg3) = m ((c : Thread nD τ).loc main_arg3) :=
  W12_of_untouched m ρ c main_arg3 (by decide)
theorem W12_main_arg4 (c : Dev nD) : W12 m ρ c (Proc.devRef .tc main_arg4) = m ((c : Thread nD τ).loc main_arg4) :=
  W12_of_untouched m ρ c main_arg4 (by decide)
theorem W12_main_arg5 (c : Dev nD) : W12 m ρ c (Proc.devRef .tc main_arg5) = m ((c : Thread nD τ).loc main_arg5) :=
  W12_of_untouched m ρ c main_arg5 (by decide)
theorem W12_main_arg6 (c : Dev nD) : W12 m ρ c (Proc.devRef .tc main_arg6) = m ((c : Thread nD τ).loc main_arg6) :=
  W12_of_untouched m ρ c main_arg6 (by decide)
theorem W12_main_arg7 (c : Dev nD) : W12 m ρ c (Proc.devRef .tc main_arg7) = m ((c : Thread nD τ).loc main_arg7) :=
  W12_of_untouched m ρ c main_arg7 (by decide)
theorem W12_main_arg8 (c : Dev nD) : W12 m ρ c (Proc.devRef .tc main_arg8) = m ((c : Thread nD τ).loc main_arg8) :=
  W12_of_untouched m ρ c main_arg8 (by decide)
theorem W12_main_arg9 (c : Dev nD) : W12 m ρ c (Proc.devRef .tc main_arg9) = m ((c : Thread nD τ).loc main_arg9) :=
  W12_of_untouched m ρ c main_arg9 (by decide)
theorem W12_main_arg10 (c : Dev nD) : W12 m ρ c (Proc.devRef .tc main_arg10) = m ((c : Thread nD τ).loc main_arg10) :=
  W12_of_untouched m ρ c main_arg10 (by decide)
theorem W12_main_arg11 (c : Dev nD) : W12 m ρ c (Proc.devRef .tc main_arg11) = m ((c : Thread nD τ).loc main_arg11) :=
  W12_of_untouched m ρ c main_arg11 (by decide)

/-! ## The proof data family and the thread state -/

/-- The prefetched tables' admissible contents: no call has a table. -/
abbrev adm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W12 m ρ c) ∗ ∃ r, prngReg c r)

/-! ## The calls as segments

Calls 0 to 2 keep the invariant of a body that touches only its windows at every point. Call 3 carries its scratch
accumulator between points: its invariant before the first point is obtained from that same invariant, and the one
after the last point gives it back. -/

set_option backward.isDefEq.respectTransparency.types false in
/-- CALL 0 (the first dense layer) over the thread state: entered from every unscoped buffer at `W5`, left at `W6`. Its arrays are
    split out of the unscoped buffers and put back at the exit contents; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 (the second dense layer) over the thread state: entered from every unscoped buffer at `W7`, left at `W8`. Its arrays are
    split out of the unscoped buffers and put back at the exit contents; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 (the plain product) over the thread state: entered from every unscoped buffer at `W9`, left at `W10`. Its arrays are
    split out of the unscoped buffers and put back at the exit contents; the generator register goes into the
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) (A_eq2 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 3 (the one-hot accumulation) over the thread state: entered from every unscoped buffer at `W11`, left at `W12`. Its arrays are
    split out of the unscoped buffers and put back at the exit contents; the generator register goes into the
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) (A_eq3 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V11 m ρ) c).Φ 0 from rfl]
    refine (?_ : _ ⊢ (Pipeline.ΦA spec3 c : sProp 𝕄)).trans (hin3 (V11 m ρ) c)
    unfold Pipeline.ΦA
    iintro ⟨Hp, -, Hr⟩
    isplitl [Hr]; · iexact Hr
    iexact Hp
  hout c := by
    rw [Pipeline.ownSems0_none, show (pdats m ρ 3 c).Φ (Fin.last _) = (dat3 (V11 m ρ) c).Φ (Fin.last cfg3.N) from rfl]
    refine (hout3 (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ) ]
/-- @main is the run of the segments: it is the chain of its twelve items, and the segments' run is the chain of their
    programs, item for item. -/
theorem main_run (c : Dev nD) : main (F := F) c = Pipeline.Seg.run (segs m ρ) := by
  rw [main_chain c, Pipeline.Seg.run_eq_chain]; rfl

set_option backward.isDefEq.respectTransparency.types false in
/-- THE RUN. From any memory with zero counters, every weakly fair execution of @main on the TensorCores terminates,
    nothing faulting, and every final memory holds each unscoped buffer at the last boundary's contents `W12`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- THE FRAME, at any `F`: @main terminates from any memory with zero counters, and every final memory holds each
    argument array as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c)⟩) (run_main m ρ)

/-- THE VALUE, at any `F`: the same run, with the result array read off the last boundary's contents beside the
    arguments. -/
theorem value_main : θ_run defs (onTc (τ := τ) (main (F := F))) ⟨m, fun _ => 0, ρ⟩ (fun r => ∀ c : Dev nD,
      r.2.mem ((c.tc : Thread nD τ).loc main_v81) = W12 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨h c _ (mem_uc main_v81 (by decide)),
      (h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c)⟩) (run_main m ρ)

end Cert.KernelIdeal.Hand

end
-- ==== Proof.KI.RefSpec.lean ====
/-
  The reference network as named pieces. The reference computes, on the host,
    ws      = mean of the four edge features,
    deg i   = max(1, number of edges whose endpoint list `i` names the node)   (out-degree from src, in-degree from dst),
    msg h   = (scatter-add over dst of (h · rsqrt(deg src))[src] · ws) · rsqrt(deg dst),
    layer   = LayerNorm(relu(msg h · W)) with the row mean and variance over the 128 features,
    readout = the scatter-add of the rows of the last layer into their graph's row,
  and its result is readout(dense(msg(layer(msg(layer(msg x)))))). Each piece is written here once, as the reference's own
  host operations composed, so that the reference's result is literally their composition.
-/
import proofs.«424483_j12627203850513_1_alg».proof.Proof.Gen.ReferenceIdeal

noncomputable section

namespace Cert.Bridge.R

open Cert.ReferenceIdeal Cert.ReferenceIdeal.Gen Idealize.ShloMosaic Idealize.ShloMosaic.TcCoe

variable {F : FTy → Type} [FloatOps F]

/-- The contents of a host tensor of shape `S` and element type `e`. -/
abbrev T (S : Shape) (e : EltTy) : Type := (⟨S, e⟩ : BufTy).Contents (Elt F)

/-- The scalar edge weight: the sum of an edge's four features over 4. -/
def ws (w : T (F := F) S800000x4 .f32) : T (F := F) S800000 .f32 :=
  Host.divf (Host.reduceAdd w (constant S_ .f32 0x00000000#32) reducesTo_S800000x4_S800000_d1 h_S_)
    (broadcastInDim S800000 ![] bcast_S_S800000 (constant S_ .f32 0x40800000#32))

/-- The clamped degree: a one scattered to each edge's endpoint `idx`, summed per node, then `max 1`. -/
def deg (idx : T (F := F) S800000 .i32) : T (F := F) S50000 .f32 :=
  maximumf (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32)))

/-- The degree normaliser as a column: `rsqrt (deg idx)`. -/
def norm (idx : T (F := F) S800000 .i32) : T (F := F) S50000x1 .f32 :=
  broadcastInDim S50000x1 ![0] bcast_S50000_S50000x1_0 (Host.rsqrt (deg idx))

/-- The source indices as the gather takes them: a negative index moved up by the node count, as a column. -/
def srcCol (src : T (F := F) S800000 .i32) : T (F := F) S800000x1 .i32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- One round of message passing: scale by the source normaliser, gather along the edges, weigh, scatter-add to the
    destinations, scale by the destination normaliser. -/
def msg (h : T (F := F) S50000x128 .f32) (w : T (F := F) S800000x4 .f32) (src dst : T (F := F) S800000 .i32) :
    T (F := F) S50000x128 .f32 :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (mulf
        (Host.gather gather_S50000x128_S800000x1_S800000x128_1_0_n_n_0_1_1128
          (mulf h (broadcastInDim S50000x128 ![0, 1] bcast_S50000x1_S50000x128_0_1 (norm src))) (srcCol src))
        (broadcastInDim S800000x128 ![0, 1] bcast_S800000x1_S800000x128_0_1
          (broadcastInDim S800000x1 ![0] bcast_S800000_S800000x1_0 (ws w)))))
    (broadcastInDim S50000x128 ![0, 1] bcast_S50000x1_S50000x128_0_1 (norm dst))

/-- The dense product `pre · W`. -/
def dense (pre : T (F := F) S50000x128 .f32) (W : T (F := F) S128x128 .f32) : T (F := F) S50000x128 .f32 :=
  Host.dotGeneral dot_S50000x128_S128x128_S50000x128_1_0_0_1_n_n none pre W

/-- `max x 0`. -/
def relu (x : T (F := F) S50000x128 .f32) : T (F := F) S50000x128 .f32 :=
  maximumf x (broadcastInDim S50000x128 ![] bcast_S_S50000x128 (constant S_ .f32 0x00000000#32))

/-- The mean of each row over its 128 entries, as a column. -/
def rowMean (x : T (F := F) S50000x128 .f32) : T (F := F) S50000x1 .f32 :=
  Host.divf
    (broadcastInDim S50000x1 ![0] bcast_S50000_S50000x1_0
      (Host.reduceAdd x (constant S_ .f32 0x00000000#32) reducesTo_S50000x128_S50000_d1 h_S_))
    (broadcastInDim S50000x1 ![] bcast_S_S50000x1 (constant S_ .f32 0x43000000#32))

/-- A row minus its mean. -/
def centred (x : T (F := F) S50000x128 .f32) : T (F := F) S50000x128 .f32 :=
  subf x (broadcastInDim S50000x128 ![0, 1] bcast_S50000x1_S50000x128_0_1 (rowMean x))

/-- LayerNorm over the 128 features: `(x − μ) · rsqrt(var + ε) · g + b`. -/
def layerNorm (x : T (F := F) S50000x128 .f32) (g b : T (F := F) S128 .f32) : T (F := F) S50000x128 .f32 :=
  addf
    (mulf
      (mulf (centred x)
        (broadcastInDim S50000x128 ![0, 1] bcast_S50000x1_S50000x128_0_1
          (Host.rsqrt (addf (rowMean (mulf (centred x) (centred x)))
            (broadcastInDim S50000x1 ![] bcast_S_S50000x1 (constant S_ .f32 0x3727C5AC#32))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 b))

/-- One activated layer on aggregated features. -/
def layer (pre : T (F := F) S50000x128 .f32) (W : T (F := F) S128x128 .f32) (g b : T (F := F) S128 .f32) :
    T (F := F) S50000x128 .f32 :=
  layerNorm (relu (dense pre W)) g b

/-- The per-graph readout: each node's row added into the row its graph id names. -/
def readout (gid : T (F := F) S50000 .i32) (h : T (F := F) S50000x128 .f32) : T (F := F) S250x128 .f32 :=
  Host.scatterAdd scatter_S250x128_S50000x1_S50000x128_1_0_0_1
    (broadcastInDim S250x128 ![] bcast_S_S250x128 (constant S_ .f32 0x00000000#32))
    (broadcastInDim S50000x1 ![0] bcast_S50000_S50000x1_0 gid) h

/-- The whole network. -/
def net (x : T (F := F) S50000x128 .f32) (w : T (F := F) S800000x4 .f32) (W1 W2 W3 : T (F := F) S128x128 .f32)
    (g1 b1 g2 b2 : T (F := F) S128 .f32) (src dst : T (F := F) S800000 .i32) (gid : T (F := F) S50000 .i32) :
    T (F := F) S250x128 .f32 :=
  readout gid (dense (msg (layer (msg (layer (msg x w src dst) W1 g1 b1) w src dst) W2 g2 b2) w src dst) W3)

end Cert.Bridge.R

end
-- ==== Proof.KI.KSpec.lean ====
/-
  The host code of the kernel's program as named pieces. Between its four kernel launches the program runs, on the host,
  the same message passing as the reference (edge weights, clamped degrees, gather along the edges, scatter-add to the
  destinations), and before the readout launch it builds the indicator table `onehot[n, b] = (gid[n] = b)` as bf16.
  The message-passing pieces are the reference's, operation for operation; the equalities below say so.
-/
import proofs.«424483_j12627203850513_1_alg».proof.Proof.Gen.KernelIdeal
import proofs.«424483_j12627203850513_1_alg».proof.Proof.KI.RefSpec

noncomputable section

namespace Cert.Bridge.K

open Cert.KernelIdeal Cert.KernelIdeal.Gen Idealize.ShloMosaic Idealize.ShloMosaic.TcCoe

variable {F : FTy → Type} [FloatOps F]

/-- The contents of a host tensor of shape `S` and element type `e`. -/
abbrev T (S : Shape) (e : EltTy) : Type := (⟨S, e⟩ : BufTy).Contents (Elt F)

/-- The scalar edge weight: the sum of an edge's four features over 4. -/
def ws (w : T (F := F) S800000x4 .f32) : T (F := F) S800000 .f32 :=
  Host.divf (Host.reduceAdd w (constant S_ .f32 0x00000000#32) reducesTo_S800000x4_S800000_d1 h_S_)
    (broadcastInDim S800000 ![] bcast_S_S800000 (constant S_ .f32 0x40800000#32))

/-- The clamped degree: a one scattered to each edge's endpoint `idx`, summed per node, then `max 1`. -/
def deg (idx : T (F := F) S800000 .i32) : T (F := F) S50000 .f32 :=
  maximumf (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32)))

/-- The degree normaliser as a column: `rsqrt (deg idx)`. -/
def norm (idx : T (F := F) S800000 .i32) : T (F := F) S50000x1 .f32 :=
  broadcastInDim S50000x1 ![0] bcast_S50000_S50000x1_0 (Host.rsqrt (deg idx))

/-- The source indices as the gather takes them: a negative index moved up by the node count, as a column. -/
def srcCol (src : T (F := F) S800000 .i32) : T (F := F) S800000x1 .i32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- One round of message passing: scale by the source normaliser, gather along the edges, weigh, scatter-add to the
    destinations, scale by the destination normaliser. -/
def msg (h : T (F := F) S50000x128 .f32) (w : T (F := F) S800000x4 .f32) (src dst : T (F := F) S800000 .i32) :
    T (F := F) S50000x128 .f32 :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (mulf
        (Host.gather gather_S50000x128_S800000x1_S800000x128_1_0_n_n_0_1_1128
          (mulf h (broadcastInDim S50000x128 ![0, 1] bcast_S50000x1_S50000x128_0_1 (norm src))) (srcCol src))
        (broadcastInDim S800000x128 ![0, 1] bcast_S800000x1_S800000x128_0_1
          (broadcastInDim S800000x1 ![0] bcast_S800000_S800000x1_0 (ws w)))))
    (broadcastInDim S50000x128 ![0, 1] bcast_S50000x1_S50000x128_0_1 (norm dst))

/-- The indicator table the readout launch takes: `onehot[n, b]` is 1 where node `n`'s graph id is `b`, else 0. -/
def onehot (gid : T (F := F) S50000 .i32) : T (F := F) S50000x250 .bf16 :=
  uitofp .bf16
    (cmpi .eq
      (broadcastInDim S50000x250 ![0, 1] bcast_S50000x1_S50000x250_0_1 (broadcastInDim S50000x1 ![0] bcast_S50000_S50000x1_0 gid))
      (broadcastInDim S50000x250 ![0, 1] bcast_S1x250_S50000x250_0_1 (broadcastInDim S1x250 ![1] bcast_S250_S1x250_1 (iotaInDim S250 32 0))))

/-- The kernel program's message passing is the reference's. -/
theorem msg_eq (h : T (F := F) S50000x128 .f32) (w : T (F := F) S800000x4 .f32) (src dst : T (F := F) S800000 .i32) :
    msg h w src dst = Cert.Bridge.R.msg (F := F) h w src dst := rfl

end Cert.Bridge.K

end
-- ==== Proof.KI.HostReads.lean ====
/-
  What each host stretch of the program leaves in the buffers the four launches and the later stretches read, as the
  named host operations of the message passing applied to what the stretch was entered with. Every statement is for an
  arbitrary valuation at the stretch's entry, one stretch at a time, so that the stretches compose by rewriting.
-/
import proofs.«424483_j12627203850513_1_alg».proof.Proof.Gen.KernelIdeal.Launch
import proofs.«424483_j12627203850513_1_alg».proof.Proof.Gen.KernelIdeal.Regions
import proofs.«424483_j12627203850513_1_alg».proof.Proof.KI.KSpec
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo (after)

variable {F : FTy → Type} [FloatOps F]

/-- One round of message passing with the two normaliser columns and the scalar edge weights given: scale by `ns`,
    gather along the edges, weigh by `wv`, scatter-add to the destinations, scale by `nd`. -/
def msgAt (h : Cert.Bridge.K.T (F := F) S50000x128 .f32) (ns nd : Cert.Bridge.K.T (F := F) S50000x1 .f32)
    (wv : Cert.Bridge.K.T (F := F) S800000 .f32) (src dst : Cert.Bridge.K.T (F := F) S800000 .i32) :
    Cert.Bridge.K.T (F := F) S50000x128 .f32 :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (mulf
        (Host.gather gather_S50000x128_S800000x1_S800000x128_1_0_n_n_0_1_1128
          (mulf h (broadcastInDim S50000x128 ![0, 1] bcast_S50000x1_S50000x128_0_1 ns)) (Cert.Bridge.K.srcCol src))
        (broadcastInDim S800000x128 ![0, 1] bcast_S800000x1_S800000x128_0_1
          (broadcastInDim S800000x1 ![0] bcast_S800000_S800000x1_0 wv))))
    (broadcastInDim S50000x128 ![0, 1] bcast_S50000x1_S50000x128_0_1 nd)

/-- The message passing is `msgAt` at its own normalisers and weights. -/
theorem msg_eq_msgAt (h : Cert.Bridge.K.T (F := F) S50000x128 .f32) (w : Cert.Bridge.K.T (F := F) S800000x4 .f32)
    (src dst : Cert.Bridge.K.T (F := F) S800000 .i32) :
    Cert.Bridge.K.msg h w src dst
      = msgAt h (Cert.Bridge.K.norm src) (Cert.Bridge.K.norm dst) (Cert.Bridge.K.ws w) src dst := rfl

/-- The number of edges ending at each node, before the clamp: a one scattered to each edge's endpoint, the ones given. -/
def degRaw (idx : Cert.Bridge.K.T (F := F) S800000 .i32) (ones : Cert.Bridge.K.T (F := F) S800000 .f32) :
    Cert.Bridge.K.T (F := F) S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 idx) ones

/-- The vector of ones the two degree counts scatter. -/
def onesE : Cert.Bridge.K.T (F := F) S800000 .f32 :=
  broadcastInDim S800000 ![] bcast_S_S800000 (constant S_ .f32 0x3F800000#32)

variable (W : Valuation τ sig (Elt F))

/-! ## The first stretch: the edge weights, the ones, the source degree count -/

theorem after0_v2 : after (hostOps0 (F := F)) W main_v2 = Cert.Bridge.K.ws (W main_arg1) := by
  after_results <;> rfl
theorem after0_v3 : after (hostOps0 (F := F)) W main_v3 = onesE := by
  after_results <;> rfl
theorem after0_v6 : after (hostOps0 (F := F)) W main_v6 = degRaw (W main_arg9) onesE := by
  after_results <;> rfl
theorem after0_cst_3 : after (hostOps0 (F := F)) W main_cst_3 = constant S_ .f32 0x3F800000#32 := by
  after_results <;> rfl
theorem after0_of (r : Ref sig .tc) (h : r ∉ hostOps0_W) : after (hostOps0 (F := F)) W r = W r :=
  StableHlo.after_of_writes_sub hostOps0 _ hostOps0_writes h

/-! ## The clamp of the source degree count -/

theorem after01_v7 : after (hostOps0_1 (F := F)) W main_v7
    = maximumf (broadcastInDim S50000 ![] bcast_S_S50000 (id (W main_cst_3))) (W main_v6) := by
  after_results <;> rfl
theorem after01_of (r : Ref sig .tc) (h : r ∉ hostOps0_1_W) : after (hostOps0_1 (F := F)) W r = W r :=
  StableHlo.after_of_writes_sub hostOps0_1 _ hostOps0_1_writes h

/-! ## The destination degree count -/

theorem after02_v10 : after (hostOps0_2 (F := F)) W main_v10 = degRaw (W main_arg10) (W main_v3) := by
  after_results <;> rfl
theorem after02_cst_5 : after (hostOps0_2 (F := F)) W main_cst_5 = constant S_ .f32 0x3F800000#32 := by
  after_results <;> rfl
theorem after02_of (r : Ref sig .tc) (h : r ∉ hostOps0_2_W) : after (hostOps0_2 (F := F)) W r = W r :=
  StableHlo.after_of_writes_sub hostOps0_2 _ hostOps0_2_writes h

/-! ## The clamp of the destination degree count -/

theorem after03_v11 : after (hostOps0_3 (F := F)) W main_v11
    = maximumf (broadcastInDim S50000 ![] bcast_S_S50000 (id (W main_cst_5))) (W main_v10) := by
  after_results <;> rfl
theorem after03_of (r : Ref sig .tc) (h : r ∉ hostOps0_3_W) : after (hostOps0_3 (F := F)) W r = W r :=
  StableHlo.after_of_writes_sub hostOps0_3 _ hostOps0_3_writes h

/-! ## The first message passing: the two normaliser columns, the aggregated features, the two rows of the first
normalisation as 1 × 128 arrays -/

theorem after04_v13 : after (hostOps0_4 (F := F)) W main_v13
    = broadcastInDim S50000x1 ![0] bcast_S50000_S50000x1_0 (Host.rsqrt (W main_v7)) := by
  after_results <;> rfl
theorem after04_v15 : after (hostOps0_4 (F := F)) W main_v15
    = broadcastInDim S50000x1 ![0] bcast_S50000_S50000x1_0 (Host.rsqrt (W main_v11)) := by
  after_results <;> rfl
theorem after04_v32 : after (hostOps0_4 (F := F)) W main_v32
    = msgAt (W main_arg0) (broadcastInDim S50000x1 ![0] bcast_S50000_S50000x1_0 (Host.rsqrt (W main_v7)))
        (broadcastInDim S50000x1 ![0] bcast_S50000_S50000x1_0 (Host.rsqrt (W main_v11))) (W main_v2) (W main_arg9) (W main_arg10) := by
  after_results_simp <;> rfl
theorem after04_of (r : Ref sig .tc) (h : r ∉ hostOps0_4_W) : after (hostOps0_4 (F := F)) W r = W r :=
  StableHlo.after_of_writes_sub hostOps0_4 _ hostOps0_4_writes h

/-- A 128-vector reshaped to one row of 128, read at column `j`, is the vector at `j`. -/
theorem reshape_row_apply (x : Cert.Bridge.K.T (F := F) S128 .f32) (j : Fin 128) :
    shapeCast S1x128 x shapeCasts_S128_S1x128 (ix2 (0 : Fin 1) j) = x (ix1 j) :=
  shapeCast_apply x shapeCasts_S128_S1x128 (ix2 (0 : Fin 1) j) (ix1 j) (by
    rw [Shape.rowMajor_val_one, Shape.rowMajor_val_two]; show j.val = 0 * 128 + j.val; omega)

theorem after04_v33 (j : Fin 128) : after (hostOps0_4 (F := F)) W main_v33 (ix2 (0 : Fin 1) j) = W main_arg5 (ix1 j) := by
  have e : after (hostOps0_4 (F := F)) W main_v33 = shapeCast S1x128 (W main_arg5) shapeCasts_S128_S1x128 := by
    after_results <;> rfl
  rw [e]; exact reshape_row_apply _ j
theorem after04_v34 (j : Fin 128) : after (hostOps0_4 (F := F)) W main_v34 (ix2 (0 : Fin 1) j) = W main_arg6 (ix1 j) := by
  have e : after (hostOps0_4 (F := F)) W main_v34 = shapeCast S1x128 (W main_arg6) shapeCasts_S128_S1x128 := by
    after_results <;> rfl
  rw [e]; exact reshape_row_apply _ j

/-! ## The second message passing, on what the first launch left -/

theorem after1_v52 : after (hostOps1 (F := F)) W main_v52
    = msgAt (W main_v35) (W main_v13) (W main_v15) (W main_v2) (W main_arg9) (W main_arg10) := by
  after_results_simp <;> rfl
theorem after1_v53 (j : Fin 128) : after (hostOps1 (F := F)) W main_v53 (ix2 (0 : Fin 1) j) = W main_arg7 (ix1 j) := by
  have e : after (hostOps1 (F := F)) W main_v53 = shapeCast S1x128 (W main_arg7) shapeCasts_S128_S1x128 := by
    after_results <;> rfl
  rw [e]; exact reshape_row_apply _ j
theorem after1_v54 (j : Fin 128) : after (hostOps1 (F := F)) W main_v54 (ix2 (0 : Fin 1) j) = W main_arg8 (ix1 j) := by
  have e : after (hostOps1 (F := F)) W main_v54 = shapeCast S1x128 (W main_arg8) shapeCasts_S128_S1x128 := by
    after_results <;> rfl
  rw [e]; exact reshape_row_apply _ j
theorem after1_of (r : Ref sig .tc) (h : r ∉ hostOps1_W) : after (hostOps1 (F := F)) W r = W r :=
  StableHlo.after_of_writes_sub hostOps1 _ hostOps1_writes h

/-! ## The third message passing, on what the second launch left -/

theorem after2_v72 : after (hostOps2 (F := F)) W main_v72
    = msgAt (W main_v55) (W main_v13) (W main_v15) (W main_v2) (W main_arg9) (W main_arg10) := by
  after_results_simp <;> rfl
theorem after2_of (r : Ref sig .tc) (h : r ∉ hostOps2_W) : after (hostOps2 (F := F)) W r = W r :=
  StableHlo.after_of_writes_sub hostOps2 _ hostOps2_writes h

/-! ## The indicator table of the readout -/

theorem after3_v80 : after (hostOps3 (F := F)) W main_v80 = Cert.Bridge.K.onehot (W main_arg11) := by
  after_results <;> rfl
theorem after3_of (r : Ref sig .tc) (h : r ∉ hostOps3_W) : after (hostOps3 (F := F)) W r = W r :=
  StableHlo.after_of_writes_sub hostOps3 _ hostOps3_writes h

/-! ## The five stretches before the first launch, composed -/

/-- The contents after the five host stretches that precede the first launch. -/
abbrev after5 : Valuation τ sig (Elt F) :=
  after hostOps0_4 (after hostOps0_3 (after hostOps0_2 (after hostOps0_1 (after hostOps0 W))))

/-- A buffer none of the five stretches writes is as it was. -/
theorem after5_of (r : Ref sig .tc) (h0 : r ∉ hostOps0_W) (h1 : r ∉ hostOps0_1_W) (h2 : r ∉ hostOps0_2_W)
    (h3 : r ∉ hostOps0_3_W) (h4 : r ∉ hostOps0_4_W) : after5 W r = W r := by
  unfold after5
  rw [after04_of _ r h4, after03_of _ r h3, after02_of _ r h2, after01_of _ r h1, after0_of _ r h0]

/-- The scalar edge weights reach the first launch as the first stretch left them. -/
theorem after5_v2 : after5 W main_v2 = Cert.Bridge.K.ws (W main_arg1) := by
  unfold after5
  rw [after04_of _ _ (by decide), after03_of _ _ (by decide), after02_of _ _ (by decide), after01_of _ _ (by decide), after0_v2]

/-- The clamped source degree after the second stretch. -/
theorem after2nd_v7 : after hostOps0_1 (after hostOps0 W) main_v7 = Cert.Bridge.K.deg (W main_arg9) := by
  rw [after01_v7, after0_cst_3, after0_v6]; rfl

/-- The clamped destination degree after the fourth stretch. -/
theorem after4th_v11 : after hostOps0_3 (after hostOps0_2 (after hostOps0_1 (after hostOps0 W))) main_v11
    = Cert.Bridge.K.deg (W main_arg10) := by
  rw [after03_v11, after02_cst_5, after02_v10, after01_of _ _ (by decide), after01_of _ _ (by decide), after0_v3,
    after0_of _ _ (by decide)]; rfl

/-- The clamped source degree is not touched by the third and fourth stretches. -/
theorem after4th_v7 : after hostOps0_3 (after hostOps0_2 (after hostOps0_1 (after hostOps0 W))) main_v7
    = Cert.Bridge.K.deg (W main_arg9) := by
  rw [after03_of _ _ (by decide), after02_of _ _ (by decide), after2nd_v7]

theorem after5_v13 : after5 W main_v13 = Cert.Bridge.K.norm (W main_arg9) := by
  unfold after5
  rw [after04_v13, after4th_v7]; rfl
theorem after5_v15 : after5 W main_v15 = Cert.Bridge.K.norm (W main_arg10) := by
  unfold after5
  rw [after04_v15, after4th_v11]; rfl

/-- The first launch's input array is the message passing of the features. -/
theorem after5_v32 : after5 W main_v32
    = Cert.Bridge.K.msg (W main_arg0) (W main_arg1) (W main_arg9) (W main_arg10) := by
  unfold after5
  rw [after04_v32, after4th_v7, after4th_v11]
  rw [after03_of _ main_v2 (by decide), after02_of _ main_v2 (by decide), after01_of _ main_v2 (by decide), after0_v2]
  rw [after03_of _ main_arg0 (by decide), after02_of _ main_arg0 (by decide), after01_of _ main_arg0 (by decide), after0_of _ main_arg0 (by decide)]
  rw [after03_of _ main_arg9 (by decide), after02_of _ main_arg9 (by decide), after01_of _ main_arg9 (by decide), after0_of _ main_arg9 (by decide)]
  rw [after03_of _ main_arg10 (by decide), after02_of _ main_arg10 (by decide), after01_of _ main_arg10 (by decide), after0_of _ main_arg10 (by decide)]
  rfl

theorem after5_v33 (j : Fin 128) : after5 W main_v33 (ix2 (0 : Fin 1) j) = W main_arg5 (ix1 j) := by
  unfold after5
  rw [after04_v33, after03_of _ _ (by decide), after02_of _ _ (by decide), after01_of _ _ (by decide), after0_of _ _ (by decide)]
theorem after5_v34 (j : Fin 128) : after5 W main_v34 (ix2 (0 : Fin 1) j) = W main_arg6 (ix1 j) := by
  unfold after5
  rw [after04_v34, after03_of _ _ (by decide), after02_of _ _ (by decide), after01_of _ _ (by decide), after0_of _ _ (by decide)]

end Cert.KernelIdeal.Hand

end
-- ==== Proof.KI.DenseSpec.lean ====
/-
  One activated layer on ONE row, as a function of plain sequences of 128 extended reals. A row of the layer's output
  depends on one row of its input only: the row times the weight, clamped at zero, centred by its mean over the 128
  features, scaled by the reciprocal root of its variance plus a small constant, then scaled and shifted feature by
  feature. The kernel's payload on a tile of rows and the reference's layer on the whole array are each read, index by
  index, as this one function of the row the index names. The float constants stay the words the programs print.
-/
import Idealize.ShloMosaic.PureOps.Ideal.Laws
import Idealize.ShloMosaic.Lib.ValueIdx

noncomputable section

namespace Cert.Bridge.Row

open Idealize.ShloMosaic
open scoped BigOperators

/-- A row times the weight: feature `j` of the product. -/
def lin (x : Fin 128 → EReal) (W : Fin 128 → Fin 128 → EReal) (j : Fin 128) : EReal := ∑ k : Fin 128, x k * W k j

/-- Clamped at zero. -/
def relu (v : Fin 128 → EReal) (j : Fin 128) : EReal := max (v j) (Ideal.ofBits .f32 0x00000000#32)

/-- The mean of a row over its 128 features: the plain sum, divided by 128. -/
def mean (v : Fin 128 → EReal) : EReal := Ideal.div (∑ j : Fin 128, v j) (Ideal.ofBits .f32 0x43000000#32)

/-- A row minus its mean. -/
def centred (v : Fin 128 → EReal) (j : Fin 128) : EReal := v j - mean v

/-- The normalised row, scaled by `g` and shifted by `b`. -/
def norm (v g b : Fin 128 → EReal) (j : Fin 128) : EReal :=
  centred v j * Ideal.rsqrt (mean (fun k => centred v k * centred v k) + Ideal.ofBits .f32 0x3727C5AC#32) * g j + b j

/-- One activated layer on one row. -/
def layer (x : Fin 128 → EReal) (W : Fin 128 → Fin 128 → EReal) (g b : Fin 128 → EReal) (j : Fin 128) : EReal :=
  norm (relu (lin x W)) g b j

end Cert.Bridge.Row

end
-- ==== Proof.KI.DenseMath.lean ====
/-
  The activated dense call's payload at an index, at the ideal values. Row `r`, feature `j` of the tile the kernel
  stores is the one-row layer function (the row times the weight, clamped at zero, centred by its mean over the 128
  features, scaled by the reciprocal root of its variance plus a small constant, then scaled and shifted feature by
  feature) of row `r` of the input tile: the product is read as a sum over the 128 contracted entries, each lane sum as
  a sum over the 128 features, each recast and spread as the entry it copies, and the pointwise operations entry by entry.
-/
import proofs.«424483_j12627203850513_1_alg».proof.Proof.Gen.KernelIdeal.Skeleton
import proofs.«424483_j12627203850513_1_alg».proof.Proof.KI.DenseSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

/-! ## The kernel's payload at an index -/

namespace Cert.KernelIdeal.Hand

open Cert.KernelIdeal Cert.KernelIdeal.Gen
open Idealize.ShloMosaic Idealize.ShloMosaic.TcCoe Idealize.ShloMosaic.ValueIdx
open scoped BigOperators

/-! ### The product: which operand entries a contraction index names -/

theorem lhs_dotK_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dotK_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dotK_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dotK_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile's product onto a zero accumulator, at row `r` and feature `j`: the sum over the 128 contracted entries. -/
theorem matmul_at (l : FVec Ideal S5000x128 .bf16) (w : FVec Ideal S128x128 .bf16) (r : Fin 5000) (j : Fin 128) :
    matmul dot_S5000x128_S128x128_S5000x128_1_0_0_1_n_n none l w (constant (F := Ideal) S5000x128 .f32 0x00000000#32) (ix2 r j)
      = ∑ k : Fin 128, l (ix2 r k) * w (ix2 k j) := by
  refine (Ideal.matmul_constant_zero_apply dot_S5000x128_S128x128_S5000x128_1_0_0_1_n_n none l w (ix2 r j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_dotK_0 _ _
    | ⟨1, _⟩ => exact (lhs_dotK_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_dotK_0 _ _).trans hk
    | ⟨1, _⟩ => exact rhs_dotK_1 _ _)
  rw [el, er]

/-! ### The lane sum and the column forms -/

/-- A tile's sum over its features, at row `r`. -/
theorem rowSum_at (v : FVec Ideal S5000x128 .f32) (h : S5000x128.Reduces [1] S5000) (hφ : FKind.Formats .f32)
    (hacc : (0x00000000#32 : BitVec 32) = 0x00000000#32) (r : Fin 5000) :
    multiReduction .add [1] S5000 v 0x00000000#32 h hφ hacc (ix1 r) = ∑ k : Fin 128, v (ix2 r k) := by
  refine (Ideal.multiReduction_add_single v 0x00000000#32 h hφ hacc (ix1 r)).trans ?_
  refine Finset.sum_congr rfl fun k _ => congrArg v (funext fun a => Fin.ext (by
    match a with
    | ⟨0, _⟩ => rfl
    | ⟨1, _⟩ => rfl))

/-- A vector of 5000 entries recast as a column reads, at row `r`, its entry `r`. -/
theorem colCast_at {α : Type} (v : S5000.Idx → α) (h : S5000.ShapeCasts S5000x1) (r : Fin 5000) :
    shapeCast S5000x1 v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column spread over the 128 features reads, at row `r` and any feature, the column's entry `r`. -/
theorem colSpread_at {α : Type} (v : S5000x1.Idx → α) (h : S5000x1.Broadcasts S5000x128) (r : Fin 5000) (j : Fin 128) :
    broadcastTo S5000x128 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- The reciprocal root of a vector reads entry by entry. -/
theorem rsqrt_at {s : Shape} (v : FVec Ideal s .f32) (i : s.Idx) : rsqrt v i = Ideal.rsqrt (v i) := rfl

/-- THE PAYLOAD AT AN INDEX: row `r`, feature `j` of what the kernel stores is the row function of row `r` of the
    input tile, the weight, and the one row each of the scale and the shift. -/
theorem k0_pay1_at (x0 : Vec Ideal S5000x128 .f32) (x1 : Vec Ideal S128x128 .f32) (x2 x3 : Vec Ideal S1x128 .f32)
    (r : Fin 5000) (j : Fin 128) :
    k0_pay1 x0 x1 x2 x3 (ix2 r j)
      = Cert.Bridge.Row.layer (fun k => x0 (ix2 r k)) (fun k j => x1 (ix2 k j)) (fun j => x2 (ix2 (0 : Fin 1) j))
          (fun j => x3 (ix2 (0 : Fin 1) j)) j := by
  unfold k0_pay1
  simp only [addf_apply, mulf_apply, subf_apply, divf_apply, maximumf_apply, broadcast_apply, shapeCast_self, truncf_apply,
    rsqrt_at, colSpread_at, colCast_at, rowSum_at _ _ _ _ r, matmul_at, broadcastTo_1b_ab_apply]
  rfl

/-- The second activated call's payload is the same function. -/
theorem k1_pay1_eq : @k1_pay1 = @k0_pay1 := rfl

end Cert.KernelIdeal.Hand

end
-- ==== Proof.KI.DenseRef.lean ====
/-
  The reference's activated layer read at an index: entry (n, j) of layer(pre, W, g, b) is the one-row layer function of
  row n of pre, the weight, and the scale and shift vectors, at feature j. Each host operation of the layer is read at
  an index in turn: the dense product as a sum over the contracted axis, the clamp against a broadcast zero, the row sum
  over the 128 features (its zero initial value dropped), the broadcasts of a column and of a row vector, the division
  by 128, the reciprocal root.
-/
import proofs.«424483_j12627203850513_1_alg».proof.Proof.KI.RefSpec
import proofs.«424483_j12627203850513_1_alg».proof.Proof.KI.DenseSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.R

open Cert.ReferenceIdeal Cert.ReferenceIdeal.Gen
open Idealize.ShloMosaic Idealize.ShloMosaic.TcCoe Idealize.ShloMosaic.ValueIdx
open scoped BigOperators

/-! ## The dense product at an index -/

/-- The operand indices of the product at output index i and contraction index q: the left operand's are (i 0, q), -/
theorem dense_lhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dense_lhs_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- the right operand's are (q, i 1). -/
theorem dense_rhs_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem dense_rhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The dense product at an index: the sum over k of pre[n, k] · W[k, j]. -/
theorem dense_apply (pre : T (F := Ideal) S50000x128 .f32) (W : T (F := Ideal) S128x128 .f32) (n : Fin 50000) (j : Fin 128) :
    dense (F := Ideal) pre W (ix2 n j) = ∑ k : Fin 128, pre (ix2 n k) * W (ix2 k j) := by
  unfold dense
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n j) ((contrEquiv1 dot_S50000x128_S128x128_S50000x128_1_0_0_1_n_n 128 rfl rfl).symm k) = ix2 n k := funext fun a => Fin.ext (by
    match a with
    | ⟨0, _⟩ => exact dense_lhs_0 _ _
    | ⟨1, _⟩ => exact (dense_lhs_1 _ _).trans hk)
  have er : dot_S50000x128_S128x128_S50000x128_1_0_0_1_n_n.rhsIdx (ix2 n j) ((contrEquiv1 dot_S50000x128_S128x128_S50000x128_1_0_0_1_n_n 128 rfl rfl).symm k) = ix2 k j := funext fun a => Fin.ext (by
    match a with
    | ⟨0, _⟩ => exact (dense_rhs_0 _ _).trans hk
    | ⟨1, _⟩ => exact dense_rhs_1 _ _)
  rw [el, er]

/-! ## The clamp, the row sum and the row mean at an index -/

/-- The clamp at an index: the larger of the entry and the zero word. -/
theorem relu_apply (x : T (F := Ideal) S50000x128 .f32) (i : S50000x128.Idx) :
    relu (F := Ideal) x i = max (x i) (Ideal.ofBits .f32 0x00000000#32) := by
  unfold relu
  show max (x i) (broadcastInDim S50000x128 ![] bcast_S_S50000x128 (constant (F := Ideal) S_ .f32 0x00000000#32) i) = _
  rw [broadcastInDim_apply _ bcast_S_S50000x128 _ i ix0 (fun a => a.elim0)]
  rfl

/-- The sum of row n over its 128 entries; the reduction's initial value is the zero word, which adds nothing. -/
theorem rowSum_apply (x : T (F := Ideal) S50000x128 .f32) (n : Fin 50000) :
    Host.reduceAdd (F := Ideal) x (constant S_ .f32 0x00000000#32) reducesTo_S50000x128_S50000_d1 h_S_ (ix1 n)
      = ∑ k : Fin 128, x (ix2 n k) := by
  simp only [Host.reduceAdd, Ideal.hostReduceAdd_def]
  rw [Ideal.hostReduceAdd_single reducesTo_S50000x128_S50000_d1 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- The mean of row n, as the column entry (n, 0): the row sum over the word of 128. -/
theorem rowMean_apply (x : T (F := Ideal) S50000x128 .f32) (n : Fin 50000) :
    rowMean (F := Ideal) x (ix2 n 0) = Ideal.div (∑ k : Fin 128, x (ix2 n k)) (Ideal.ofBits .f32 0x43000000#32) := by
  unfold rowMean
  show Ideal.div
      (broadcastInDim S50000x1 ![0] bcast_S50000_S50000x1_0
        (Host.reduceAdd (F := Ideal) x (constant S_ .f32 0x00000000#32) reducesTo_S50000x128_S50000_d1 h_S_) (ix2 n 0))
      (broadcastInDim S50000x1 ![] bcast_S_S50000x1 (constant (F := Ideal) S_ .f32 0x43000000#32) (ix2 n 0)) = _
  rw [broadcastInDim_apply _ bcast_S50000_S50000x1_0 _ (ix2 n 0) (ix1 n) (fun a => match a with
      | ⟨0, _⟩ => by show n.val = if (50000 : Nat) = 1 then 0 else n.val; rw [if_neg (by decide)]),
    broadcastInDim_apply _ bcast_S_S50000x1 _ (ix2 n 0) ix0 (fun a => a.elim0), rowSum_apply]
  rfl

/-! ## The centred row and the normalised row at an index -/

/-- A column broadcast along the rows, read at (n, j): the column's entry (n, 0). -/
theorem colBroadcast_apply (y : T (F := Ideal) S50000x1 .f32) (n : Fin 50000) (j : Fin 128) :
    broadcastInDim S50000x128 ![0, 1] bcast_S50000x1_S50000x128_0_1 y (ix2 n j) = y (ix2 n 0) :=
  broadcastInDim_apply _ bcast_S50000x1_S50000x128_0_1 y (ix2 n j) (ix2 n 0) (fun a => match a with
    | ⟨0, _⟩ => by show n.val = if (50000 : Nat) = 1 then 0 else n.val; rw [if_neg (by decide)]
    | ⟨1, _⟩ => by show 0 = if (1 : Nat) = 1 then 0 else j.val; rw [if_pos rfl])

/-- A vector of 128 laid along every row, read at (n, j): the vector's entry j. -/
theorem rowBroadcast_apply (v : T (F := Ideal) S128 .f32) (n : Fin 50000) (j : Fin 128) :
    broadcastInDim S50000x128 ![0, 1] bcast_S1x128_S50000x128_0_1 (broadcastInDim S1x128 ![1] bcast_S128_S1x128_1 v) (ix2 n j)
      = v (ix1 j) := by
  rw [broadcastInDim_apply _ bcast_S1x128_S50000x128_0_1 _ (ix2 n j) (ix2 0 j) (fun a => match a with
    | ⟨0, _⟩ => by show 0 = if (1 : Nat) = 1 then 0 else n.val; rw [if_pos rfl]
    | ⟨1, _⟩ => by show j.val = if (128 : Nat) = 1 then 0 else j.val; rw [if_neg (by decide)])]
  exact broadcastInDim_apply _ bcast_S128_S1x128_1 v (ix2 0 j) (ix1 j) (fun a => match a with
    | ⟨0, _⟩ => by show j.val = if (128 : Nat) = 1 then 0 else j.val; rw [if_neg (by decide)])

/-- The row mean is the one-row mean of the row. -/
theorem rowMean_row (x : T (F := Ideal) S50000x128 .f32) (n : Fin 50000) :
    rowMean (F := Ideal) x (ix2 n 0) = Row.mean (fun k => x (ix2 n k)) := by
  rw [rowMean_apply]; rfl

/-- The centred entry (n, j) is the one-row centred row at j. -/
theorem centred_row (x : T (F := Ideal) S50000x128 .f32) (n : Fin 50000) (j : Fin 128) :
    centred (F := Ideal) x (ix2 n j) = Row.centred (fun k => x (ix2 n k)) j := by
  unfold centred
  show x (ix2 n j) - broadcastInDim S50000x128 ![0, 1] bcast_S50000x1_S50000x128_0_1 (rowMean (F := Ideal) x) (ix2 n j) = _
  rw [colBroadcast_apply, rowMean_row]; rfl

/-- The row mean of the squared centred entries is the one-row mean of the squared centred row. -/
theorem variance_row (x : T (F := Ideal) S50000x128 .f32) (n : Fin 50000) :
    rowMean (F := Ideal) (mulf (F := Ideal) (s := S50000x128) (φ := .f32) (centred (F := Ideal) x) (centred (F := Ideal) x)) (ix2 n 0)
      = Row.mean (fun k => Row.centred (fun k => x (ix2 n k)) k * Row.centred (fun k => x (ix2 n k)) k) := by
  rw [rowMean_row]
  refine congrArg Row.mean (funext fun k => ?_)
  rw [mulf_apply, centred_row]

/-- The reciprocal root of the variance plus the small constant, as the column entry (n, 0). -/
theorem rsqrtVar_row (x : T (F := Ideal) S50000x128 .f32) (n : Fin 50000) :
    Host.rsqrt (F := Ideal)
        (addf (F := Ideal) (s := S50000x1) (φ := .f32) (rowMean (F := Ideal) (mulf (F := Ideal) (s := S50000x128) (φ := .f32) (centred (F := Ideal) x) (centred (F := Ideal) x)))
          (broadcastInDim S50000x1 ![] bcast_S_S50000x1 (constant (F := Ideal) S_ .f32 0x3727C5AC#32))) (ix2 n 0)
      = Ideal.rsqrt (Row.mean (fun k => Row.centred (fun k => x (ix2 n k)) k * Row.centred (fun k => x (ix2 n k)) k)
          + Ideal.ofBits .f32 0x3727C5AC#32) := by
  show Ideal.rsqrt (addf (F := Ideal) (s := S50000x1) (φ := .f32) _ _ (ix2 n 0)) = _
  rw [addf_apply, variance_row, broadcastInDim_apply _ bcast_S_S50000x1 _ (ix2 n 0) ix0 (fun a => a.elim0)]
  rfl

/-- The normalised entry (n, j) is the one-row normalised row at j. -/
theorem layerNorm_row (x : T (F := Ideal) S50000x128 .f32) (g b : T (F := Ideal) S128 .f32) (n : Fin 50000) (j : Fin 128) :
    layerNorm (F := Ideal) x g b (ix2 n j) = Row.norm (fun k => x (ix2 n k)) (fun j => g (ix1 j)) (fun j => b (ix1 j)) j := by
  unfold layerNorm
  rw [addf_apply, mulf_apply, mulf_apply, rowBroadcast_apply, rowBroadcast_apply, colBroadcast_apply, rsqrtVar_row, centred_row]
  rfl

/-! ## The layer at an index -/

/-- The clamped dense product's row n is the one-row clamped product of row n of the input. -/
theorem relu_dense_row (pre : T (F := Ideal) S50000x128 .f32) (W : T (F := Ideal) S128x128 .f32) (n : Fin 50000) (j : Fin 128) :
    relu (F := Ideal) (dense (F := Ideal) pre W) (ix2 n j) = Row.relu (Row.lin (fun k => pre (ix2 n k)) (fun k j => W (ix2 k j))) j := by
  rw [relu_apply, dense_apply]; rfl

/-- Entry (n, j) of the reference's activated layer is the one-row layer of row n of the input, at feature j. -/
theorem layer_apply (pre : T (F := Ideal) Cert.ReferenceIdeal.S50000x128 .f32) (W : T (F := Ideal) Cert.ReferenceIdeal.S128x128 .f32)
    (g b : T (F := Ideal) Cert.ReferenceIdeal.S128 .f32) (n : Fin 50000) (j : Fin 128) :
    layer (F := Ideal) pre W g b (ix2 n j)
      = Cert.Bridge.Row.layer (fun k => pre (ix2 n k)) (fun k j => W (ix2 k j)) (fun j => g (ix1 j)) (fun j => b (ix1 j)) j := by
  unfold layer Row.layer
  rw [layerNorm_row]
  exact congrArg (fun v => Row.norm v (fun j => g (ix1 j)) (fun j => b (ix1 j)) j) (funext fun k => relu_dense_row pre W n k)

end Cert.Bridge.R

end
-- ==== Proof.KI.DenseVal0.lean ====
/-
  Region 0's output array at the ideal values. Each of the ten row tiles the region writes back is the activated layer
  of the reference — row times weight, clamped at zero, normalised over the 128 features, scaled and shifted — of the
  same rows of the input array, so the whole output array is the reference's layer of the whole input array. An entry
  of a tile and the reference's layer at the row it lands on are both the one-row layer function of that row; the tile
  of point `t` holds rows `5000 t … 5000 t + 4999`, and every row is in the tile of the point `row / 5000`.
-/
import proofs.«424483_j12627203850513_1_alg».proof.Proof.KI.Reg0
import proofs.«424483_j12627203850513_1_alg».proof.Proof.KI.RefSpec
import proofs.«424483_j12627203850513_1_alg».proof.Proof.KI.DenseMath
import proofs.«424483_j12627203850513_1_alg».proof.Proof.KI.DenseRef
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when the region is entered, at the ideal values
variable (V : (c : Dev nD) → (b : Ref sig .tc) → Buf (Elt Ideal) ((c : Thread nD τ).loc b))

theorem hz0 : (![0, 0] : Fin 2 → Nat) = fun _ => 0 := funext fun a => by fin_cases a <;> rfl

/-- The windows' block indices, decided over the ten grid points: the input tile and the output tile are tile `t` of
    their arrays at point `t`; the weight and the scale and shift rows are the one block of theirs. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of the input tile at point `t` is row `5000 t + r` of the input array. -/
theorem blk0_0_at (c : Dev nD) (t : Fin cfg0.N) (r : Fin 5000) (k : Fin 128) (n : Fin 50000) (hn : n.val = 5000 * t.val + r.val) :
    iblk0 V c 0 t (ix2 r k) = V c main_v32 (ix2 n k) := by
  obtain ⟨e0, e1, -⟩ := idx_facts0 t
  show V c main_v32 (((cfg0.win 0).blk t).view.emb (ix2 r k)) = V c main_v32 (ix2 n k)
  congr 1; funext a; apply Fin.ext
  match a with
  | ⟨0, _⟩ => show win0_0.index t (0 : Fin 2) * 5000 + 1 * r.val = n.val; omega
  | ⟨1, _⟩ => show win0_0.index t (1 : Fin 2) * 128 + 1 * k.val = k.val; omega

/-- The weight's block at any point is the weight. -/
theorem blk0_1_at (c : Dev nD) (t : Fin cfg0.N) (k j : Fin 128) : iblk0 V c 1 t (ix2 k j) = V c main_arg2 (ix2 k j) := by
  obtain ⟨-, -, e0, e1, -⟩ := idx_facts0 t
  show V c main_arg2 (((cfg0.win 1).blk t).view.emb (ix2 k j)) = V c main_arg2 (ix2 k j)
  congr 1; funext a; apply Fin.ext
  match a with
  | ⟨0, _⟩ => show win0_1.index t (0 : Fin 2) * 128 + 1 * k.val = k.val; omega
  | ⟨1, _⟩ => show win0_1.index t (1 : Fin 2) * 128 + 1 * j.val = j.val; omega

/-- The scale row's block at any point is the scale row; -/
theorem blk0_2_at (c : Dev nD) (t : Fin cfg0.N) (j : Fin 128) : iblk0 V c 2 t (ix2 (0 : Fin 1) j) = V c main_v33 (ix2 (0 : Fin 1) j) := by
  obtain ⟨-, -, -, -, e0, e1, -⟩ := idx_facts0 t
  show V c main_v33 (((cfg0.win 2).blk t).view.emb (ix2 (0 : Fin 1) j)) = V c main_v33 (ix2 (0 : Fin 1) j)
  congr 1; funext a; apply Fin.ext
  match a with
  | ⟨0, _⟩ => show win0_2.index t (0 : Fin 2) * 1 + 1 * 0 = 0; omega
  | ⟨1, _⟩ => show win0_2.index t (1 : Fin 2) * 128 + 1 * j.val = j.val; omega

/-- the shift row's likewise. -/
theorem blk0_3_at (c : Dev nD) (t : Fin cfg0.N) (j : Fin 128) : iblk0 V c 3 t (ix2 (0 : Fin 1) j) = V c main_v34 (ix2 (0 : Fin 1) j) := by
  obtain ⟨-, -, -, -, -, -, e0, e1, -⟩ := idx_facts0 t
  show V c main_v34 (((cfg0.win 3).blk t).view.emb (ix2 (0 : Fin 1) j)) = V c main_v34 (ix2 (0 : Fin 1) j)
  congr 1; funext a; apply Fin.ext
  match a with
  | ⟨0, _⟩ => show win0_3.index t (0 : Fin 2) * 1 + 1 * 0 = 0; omega
  | ⟨1, _⟩ => show win0_3.index t (1 : Fin 2) * 128 + 1 * j.val = j.val; omega

/-- ONE ENTRY OF A TILE: what the payload leaves at row `r`, feature `j` at point `t` is the reference's layer at row
    `5000 t + r` of the whole arrays: both are the one-row layer function of that row. -/
theorem tile_eq0 (c : Dev nD) (g b : Cert.Bridge.R.T (F := Ideal) Cert.ReferenceIdeal.S128 .f32)
    (hg : ∀ j : Fin 128, V c main_v33 (ix2 0 j) = g (ix1 j)) (hb : ∀ j : Fin 128, V c main_v34 (ix2 0 j) = b (ix1 j))
    (t : Fin cfg0.N) (r : Fin 5000) (j : Fin 128) (n : Fin 50000) (hn : n.val = 5000 * t.val + r.val) :
    k0_pay1 (iblk0 V c 0 t) (iblk0 V c 1 t) (iblk0 V c 2 t) (iblk0 V c 3 t) (ix2 r j)
      = Cert.Bridge.R.layer (F := Ideal) (V c main_v32) (V c main_arg2) g b (ix2 n j) := by
  refine (k0_pay1_at _ _ _ _ r j).trans ?_
  refine Eq.trans ?_ (Cert.Bridge.R.layer_apply (V c main_v32) (V c main_arg2) g b n j).symm
  have e0 : (fun k : Fin 128 => iblk0 V c 0 t (ix2 r k)) = fun k => V c main_v32 (ix2 n k) :=
    funext fun k => blk0_0_at V c t r k n hn
  have e1 : (fun k j : Fin 128 => iblk0 V c 1 t (ix2 k j)) = fun k j => V c main_arg2 (ix2 k j) :=
    funext fun k => funext fun j => blk0_1_at V c t k j
  have e2 : (fun j : Fin 128 => iblk0 V c 2 t (ix2 (0 : Fin 1) j)) = fun j => g (ix1 j) :=
    funext fun j => (blk0_2_at V c t j).trans (hg j)
  have e3 : (fun j : Fin 128 => iblk0 V c 3 t (ix2 (0 : Fin 1) j)) = fun j => b (ix1 j) :=
    funext fun j => (blk0_3_at V c t j).trans (hb j)
  rw [e0, e1, e2, e3]

/-- WHAT POINT `t` WRITES BACK is tile `t` of the reference's layer of the arrays the region was entered with. -/
theorem flushed_eq0 (c : Dev nD) (g b : Cert.Bridge.R.T (F := Ideal) Cert.ReferenceIdeal.S128 .f32)
    (hg : ∀ j : Fin 128, V c main_v33 (ix2 0 j) = g (ix1 j)) (hb : ∀ j : Fin 128, V c main_v34 (ix2 0 j) = b (ix1 j)) (t : Fin cfg0.N) :
    (dat0 (F := Ideal) V c).flushed 4 t
      = ((cfg0.win 4).blk t).view.read (Elt Ideal) (Cert.Bridge.R.layer (F := Ideal) (V c main_v32) (V c main_arg2) g b) := by
  show (cfg0.win 4).cut (grid0.coords t) ((dat0 (F := Ideal) V c).after 4 t) = _
  rw [after0_4]
  unfold out0_4
  rw [View.canon_unit_zero hz0]
  simp only [View.ld_unit_zero (S := S5000x128) hz0, View.ld_unit_zero (S := S128x128) hz0, View.ld_unit_zero (S := S1x128) hz0]
  obtain ⟨-, -, -, -, -, -, -, -, e0, e1⟩ := idx_facts0 t
  funext y
  obtain ⟨r, j, rfl⟩ : ∃ (r : Fin 5000) (j : Fin 128), y = ix2 r j := ⟨y 0, y 1, eq_ix2 y⟩
  have hr := r.isLt
  have ht : t.val < 10 := lt_of_lt_of_eq t.isLt N_0
  let n : Fin 50000 := ⟨5000 * t.val + r.val, by omega⟩
  refine (tile_eq0 V c g b hg hb t r j n rfl).trans ?_
  show Cert.Bridge.R.layer (F := Ideal) (V c main_v32) (V c main_arg2) g b (ix2 n j)
    = Cert.Bridge.R.layer (F := Ideal) (V c main_v32) (V c main_arg2) g b (((cfg0.win 4).blk t).view.emb (ix2 r j))
  congr 1; funext a; apply Fin.ext
  match a with
  | ⟨0, _⟩ => show 5000 * t.val + r.val = win0_4.index t (0 : Fin 2) * 5000 + 1 * r.val; omega
  | ⟨1, _⟩ => show j.val = win0_4.index t (1 : Fin 2) * 128 + 1 * j.val; omega

/-- An index of the output array is in point `t`'s tile iff each coordinate is in the tile's range on its axis. -/
theorem mem_blk0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v35).slice (win0_4.rect t)).set ↔ _
  rw [View.set_slice_whole, Rect.mem_set_unit]
  exact Iff.rfl

/-- Every row of the output array is in some point's tile: row `n` in that of point `n / 5000`, which writes it back. -/
theorem cover_arr0 (i : S50000x128.Idx) : ∃ t : Fin cfg0.N, (cfg0.win 4).flush t = true ∧ i ∈ ((cfg0.win 4).blk t).view.set := by
  have h0 : (i 0).val < 50000 := (i 0).isLt
  have h1 : (i 1).val < 128 := (i 1).isLt
  let t : Fin cfg0.N := ⟨(i 0).val / 5000, lt_of_lt_of_eq (by omega) N_0.symm⟩
  obtain ⟨-, -, -, -, -, -, -, -, e0, e1⟩ := idx_facts0 t
  have tv : t.val = (i 0).val / 5000 := rfl
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- After region 0 its output array is the reference's activated layer of its input array, the weight and the scale and
    shift rows the region was entered with (the two rows given as the vectors they are the reshapes of). -/
theorem final0 (c : Dev nD) (g b : Cert.Bridge.R.T (F := Ideal) Cert.ReferenceIdeal.S128 .f32)
    (hg : ∀ j : Fin 128, V c main_v33 (ix2 0 j) = g (ix1 j)) (hb : ∀ j : Fin 128, V c main_v34 (ix2 0 j) = b (ix1 j)) :
    (dat0 (F := Ideal) V c).arrAt 4 cfg0.N = Cert.Bridge.R.layer (F := Ideal) (V c main_v32) (V c main_arg2) g b :=
  (dat0 (F := Ideal) V c).arrAt_eq_of_cover 4 _ (fun t _ => flushed_eq0 V c g b hg hb t) cover_arr0

end Cert.KernelIdeal.Hand

end
-- ==== Proof.KI.DenseVal1.lean ====
/-
  Region 1's output array at the ideal values. Each of the ten row tiles the region writes back is the activated layer
  of the reference — row times weight, clamped at zero, normalised over the 128 features, scaled and shifted — of the
  same rows of the input array, so the whole output array is the reference's layer of the whole input array. An entry
  of a tile and the reference's layer at the row it lands on are both the one-row layer function of that row; the tile
  of point `t` holds rows `5000 t … 5000 t + 4999`, and every row is in the tile of the point `row / 5000`.
-/
import proofs.«424483_j12627203850513_1_alg».proof.Proof.KI.Reg1
import proofs.«424483_j12627203850513_1_alg».proof.Proof.KI.RefSpec
import proofs.«424483_j12627203850513_1_alg».proof.Proof.KI.DenseMath
import proofs.«424483_j12627203850513_1_alg».proof.Proof.KI.DenseRef
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when the region is entered, at the ideal values
variable (V : (c : Dev nD) → (b : Ref sig .tc) → Buf (Elt Ideal) ((c : Thread nD τ).loc b))

theorem hz1 : (![0, 0] : Fin 2 → Nat) = fun _ => 0 := funext fun a => by fin_cases a <;> rfl

/-- The windows' block indices, decided over the ten grid points: the input tile and the output tile are tile `t` of
    their arrays at point `t`; the weight and the scale and shift rows are the one block of theirs. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `r` of the input tile at point `t` is row `5000 t + r` of the input array. -/
theorem blk1_0_at (c : Dev nD) (t : Fin cfg1.N) (r : Fin 5000) (k : Fin 128) (n : Fin 50000) (hn : n.val = 5000 * t.val + r.val) :
    iblk1 V c 0 t (ix2 r k) = V c main_v52 (ix2 n k) := by
  obtain ⟨e0, e1, -⟩ := idx_facts1 t
  show V c main_v52 (((cfg1.win 0).blk t).view.emb (ix2 r k)) = V c main_v52 (ix2 n k)
  congr 1; funext a; apply Fin.ext
  match a with
  | ⟨0, _⟩ => show win1_0.index t (0 : Fin 2) * 5000 + 1 * r.val = n.val; omega
  | ⟨1, _⟩ => show win1_0.index t (1 : Fin 2) * 128 + 1 * k.val = k.val; omega

/-- The weight's block at any point is the weight. -/
theorem blk1_1_at (c : Dev nD) (t : Fin cfg1.N) (k j : Fin 128) : iblk1 V c 1 t (ix2 k j) = V c main_arg3 (ix2 k j) := by
  obtain ⟨-, -, e0, e1, -⟩ := idx_facts1 t
  show V c main_arg3 (((cfg1.win 1).blk t).view.emb (ix2 k j)) = V c main_arg3 (ix2 k j)
  congr 1; funext a; apply Fin.ext
  match a with
  | ⟨0, _⟩ => show win1_1.index t (0 : Fin 2) * 128 + 1 * k.val = k.val; omega
  | ⟨1, _⟩ => show win1_1.index t (1 : Fin 2) * 128 + 1 * j.val = j.val; omega

/-- The scale row's block at any point is the scale row; -/
theorem blk1_2_at (c : Dev nD) (t : Fin cfg1.N) (j : Fin 128) : iblk1 V c 2 t (ix2 (0 : Fin 1) j) = V c main_v53 (ix2 (0 : Fin 1) j) := by
  obtain ⟨-, -, -, -, e0, e1, -⟩ := idx_facts1 t
  show V c main_v53 (((cfg1.win 2).blk t).view.emb (ix2 (0 : Fin 1) j)) = V c main_v53 (ix2 (0 : Fin 1) j)
  congr 1; funext a; apply Fin.ext
  match a with
  | ⟨0, _⟩ => show win1_2.index t (0 : Fin 2) * 1 + 1 * 0 = 0; omega
  | ⟨1, _⟩ => show win1_2.index t (1 : Fin 2) * 128 + 1 * j.val = j.val; omega

/-- the shift row's likewise. -/
theorem blk1_3_at (c : Dev nD) (t : Fin cfg1.N) (j : Fin 128) : iblk1 V c 3 t (ix2 (0 : Fin 1) j) = V c main_v54 (ix2 (0 : Fin 1) j) := by
  obtain ⟨-, -, -, -, -, -, e0, e1, -⟩ := idx_facts1 t
  show V c main_v54 (((cfg1.win 3).blk t).view.emb (ix2 (0 : Fin 1) j)) = V c main_v54 (ix2 (0 : Fin 1) j)
  congr 1; funext a; apply Fin.ext
  match a with
  | ⟨0, _⟩ => show win1_3.index t (0 : Fin 2) * 1 + 1 * 0 = 0; omega
  | ⟨1, _⟩ => show win1_3.index t (1 : Fin 2) * 128 + 1 * j.val = j.val; omega

/-- ONE ENTRY OF A TILE: what the payload leaves at row `r`, feature `j` at point `t` is the reference's layer at row
    `5000 t + r` of the whole arrays: both are the one-row layer function of that row. -/
theorem tile_eq1 (c : Dev nD) (g b : Cert.Bridge.R.T (F := Ideal) Cert.ReferenceIdeal.S128 .f32)
    (hg : ∀ j : Fin 128, V c main_v53 (ix2 0 j) = g (ix1 j)) (hb : ∀ j : Fin 128, V c main_v54 (ix2 0 j) = b (ix1 j))
    (t : Fin cfg1.N) (r : Fin 5000) (j : Fin 128) (n : Fin 50000) (hn : n.val = 5000 * t.val + r.val) :
    k1_pay1 (iblk1 V c 0 t) (iblk1 V c 1 t) (iblk1 V c 2 t) (iblk1 V c 3 t) (ix2 r j)
      = Cert.Bridge.R.layer (F := Ideal) (V c main_v52) (V c main_arg3) g b (ix2 n j) := by
  rw [k1_pay1_eq]; refine (k0_pay1_at _ _ _ _ r j).trans ?_
  refine Eq.trans ?_ (Cert.Bridge.R.layer_apply (V c main_v52) (V c main_arg3) g b n j).symm
  have e0 : (fun k : Fin 128 => iblk1 V c 0 t (ix2 r k)) = fun k => V c main_v52 (ix2 n k) :=
    funext fun k => blk1_0_at V c t r k n hn
  have e1 : (fun k j : Fin 128 => iblk1 V c 1 t (ix2 k j)) = fun k j => V c main_arg3 (ix2 k j) :=
    funext fun k => funext fun j => blk1_1_at V c t k j
  have e2 : (fun j : Fin 128 => iblk1 V c 2 t (ix2 (0 : Fin 1) j)) = fun j => g (ix1 j) :=
    funext fun j => (blk1_2_at V c t j).trans (hg j)
  have e3 : (fun j : Fin 128 => iblk1 V c 3 t (ix2 (0 : Fin 1) j)) = fun j => b (ix1 j) :=
    funext fun j => (blk1_3_at V c t j).trans (hb j)
  rw [e0, e1, e2, e3]

/-- WHAT POINT `t` WRITES BACK is tile `t` of the reference's layer of the arrays the region was entered with. -/
theorem flushed_eq1 (c : Dev nD) (g b : Cert.Bridge.R.T (F := Ideal) Cert.ReferenceIdeal.S128 .f32)
    (hg : ∀ j : Fin 128, V c main_v53 (ix2 0 j) = g (ix1 j)) (hb : ∀ j : Fin 128, V c main_v54 (ix2 0 j) = b (ix1 j)) (t : Fin cfg1.N) :
    (dat1 (F := Ideal) V c).flushed 4 t
      = ((cfg1.win 4).blk t).view.read (Elt Ideal) (Cert.Bridge.R.layer (F := Ideal) (V c main_v52) (V c main_arg3) g b) := by
  show (cfg1.win 4).cut (grid1.coords t) ((dat1 (F := Ideal) V c).after 4 t) = _
  rw [after1_4]
  unfold out1_4
  rw [View.canon_unit_zero hz1]
  simp only [View.ld_unit_zero (S := S5000x128) hz1, View.ld_unit_zero (S := S128x128) hz1, View.ld_unit_zero (S := S1x128) hz1]
  obtain ⟨-, -, -, -, -, -, -, -, e0, e1⟩ := idx_facts1 t
  funext y
  obtain ⟨r, j, rfl⟩ : ∃ (r : Fin 5000) (j : Fin 128), y = ix2 r j := ⟨y 0, y 1, eq_ix2 y⟩
  have hr := r.isLt
  have ht : t.val < 10 := lt_of_lt_of_eq t.isLt N_1
  let n : Fin 50000 := ⟨5000 * t.val + r.val, by omega⟩
  refine (tile_eq1 V c g b hg hb t r j n rfl).trans ?_
  show Cert.Bridge.R.layer (F := Ideal) (V c main_v52) (V c main_arg3) g b (ix2 n j)
    = Cert.Bridge.R.layer (F := Ideal) (V c main_v52) (V c main_arg3) g b (((cfg1.win 4).blk t).view.emb (ix2 r j))
  congr 1; funext a; apply Fin.ext
  match a with
  | ⟨0, _⟩ => show 5000 * t.val + r.val = win1_4.index t (0 : Fin 2) * 5000 + 1 * r.val; omega
  | ⟨1, _⟩ => show j.val = win1_4.index t (1 : Fin 2) * 128 + 1 * j.val; omega

/-- An index of the output array is in point `t`'s tile iff each coordinate is in the tile's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v55).slice (win1_4.rect t)).set ↔ _
  rw [View.set_slice_whole, Rect.mem_set_unit]
  exact Iff.rfl

/-- Every row of the output array is in some point's tile: row `n` in that of point `n / 5000`, which writes it back. -/
theorem cover_arr1 (i : S50000x128.Idx) : ∃ t : Fin cfg1.N, (cfg1.win 4).flush t = true ∧ i ∈ ((cfg1.win 4).blk t).view.set := by
  have h0 : (i 0).val < 50000 := (i 0).isLt
  have h1 : (i 1).val < 128 := (i 1).isLt
  let t : Fin cfg1.N := ⟨(i 0).val / 5000, lt_of_lt_of_eq (by omega) N_1.symm⟩
  obtain ⟨-, -, -, -, -, -, -, -, e0, e1⟩ := idx_facts1 t
  have tv : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After region 1 its output array is the reference's activated layer of its input array, the weight and the scale and
    shift rows the region was entered with (the two rows given as the vectors they are the reshapes of). -/
theorem final1 (c : Dev nD) (g b : Cert.Bridge.R.T (F := Ideal) Cert.ReferenceIdeal.S128 .f32)
    (hg : ∀ j : Fin 128, V c main_v53 (ix2 0 j) = g (ix1 j)) (hb : ∀ j : Fin 128, V c main_v54 (ix2 0 j) = b (ix1 j)) :
    (dat1 (F := Ideal) V c).arrAt 4 cfg1.N = Cert.Bridge.R.layer (F := Ideal) (V c main_v52) (V c main_arg3) g b :=
  (dat1 (F := Ideal) V c).arrAt_eq_of_cover 4 _ (fun t _ => flushed_eq1 V c g b hg hb t) cover_arr1

end Cert.KernelIdeal.Hand

end
-- ==== Proof.KI.NoactVal.lean ====
/-
  Region 2's output array at the ideal values: each row tile it writes back is the product of the same rows of the input
  array with the weight, so the whole output array is the reference's dense product.
-/
import proofs.«424483_j12627203850513_1_alg».proof.Proof.KI.Reg2
import proofs.«424483_j12627203850513_1_alg».proof.Proof.KI.RefSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The tile product at an index

At the ideal values rounding an operand to bf16 changes nothing and the product accumulates into zero, so entry (r, j)
of the tile the body stores is the plain sum over k of x0[r, k] · x1[k, j]. -/

/-- The operand indices of the tile product at output index i and contraction index q: the left operand's are
    (i 0, q), -/
theorem tile_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem tile_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's are (q, i 1). -/
theorem tile_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem tile_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored tile at an index: the sum over k of the row of the input tile times the column of the weight. -/
theorem tile_apply (x0 : Vec Ideal S5000x128 .f32) (x1 : Vec Ideal S128x128 .f32) (r : Fin 5000) (j : Fin 128) :
    k2_pay1 (F := Ideal) x0 x1 (ix2 r j) = ∑ k : Fin 128, x0 (ix2 r k) * x1 (ix2 k j) := by
  unfold k2_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact tile_lhs_0 _ _
    | ⟨1, _⟩ => exact (tile_lhs_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (tile_rhs_0 _ _).trans hk
    | ⟨1, _⟩ => exact tile_rhs_1 _ _)
  rw [el, er, truncf_apply, truncf_apply, shapeCast_self]

/-! ## The reference's dense product at an index -/

/-- The operand indices of the reference's product at output index i and contraction index q: (i 0, q) -/
theorem dense_lhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem dense_lhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
/-- and (q, i 1). -/
theorem dense_rhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem dense_rhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The reference's dense product at an index: the sum over k of pre[n, k] · W[k, j]. -/
theorem dense_apply (pre : Cert.Bridge.R.T (F := Ideal) Cert.ReferenceIdeal.S50000x128 .f32)
    (W : Cert.Bridge.R.T (F := Ideal) Cert.ReferenceIdeal.S128x128 .f32) (n : Fin 50000) (j : Fin 128) :
    Cert.Bridge.R.dense (F := Ideal) pre W (ix2 n j) = ∑ k : Fin 128, pre (ix2 n k) * W (ix2 k j) := by
  unfold Cert.Bridge.R.dense
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 n j) ((contrEquiv1 Cert.ReferenceIdeal.dot_S50000x128_S128x128_S50000x128_1_0_0_1_n_n 128 rfl rfl).symm k) = ix2 n k := funext fun a => Fin.ext (by
    match a with
    | ⟨0, _⟩ => exact dense_lhs_0 _ _
    | ⟨1, _⟩ => exact (dense_lhs_1 _ _).trans hk)
  have er : Cert.ReferenceIdeal.dot_S50000x128_S128x128_S50000x128_1_0_0_1_n_n.rhsIdx (ix2 n j) ((contrEquiv1 Cert.ReferenceIdeal.dot_S50000x128_S128x128_S50000x128_1_0_0_1_n_n 128 rfl rfl).symm k) = ix2 k j := funext fun a => Fin.ext (by
    match a with
    | ⟨0, _⟩ => exact (dense_rhs_0 _ _).trans hk
    | ⟨1, _⟩ => exact dense_rhs_1 _ _)
  rw [el, er]

/-! ## From the tiles to the array -/

theorem zeros2 : (![0, 0] : Fin 2 → Nat) = fun _ => 0 := funext fun a => by
  match a with | ⟨0, _⟩ => rfl | ⟨1, _⟩ => rfl

/-- The block indices over the grid: at point t the input and the output tile are row block t, the weight is whole. -/
theorem blocks2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

-- the TensorCore's buffer contents when the region is entered, at the ideal values
variable (V : (c : Dev nD) → (b : Ref sig .tc) → Buf (Elt Ideal) ((c : Thread nD τ).loc b))

/-- What point t writes back is its block of the reference's dense product of the arrays as the region finds them. -/
theorem flushed2_eq (c : Dev nD) (t : Fin cfg2.N) :
    (dat2 (F := Ideal) V c).flushed 2 t
      = ((cfg2.win 2).blk t).view.read (Elt Ideal) (Cert.Bridge.R.dense (F := Ideal) (V c main_v72) (V c main_arg4)) := by
  show (cfg2.win 2).cut (grid2.coords t) ((dat2 (F := Ideal) V c).after 2 t) = _
  rw [after2_2]
  unfold out2_2
  rw [View.canon_unit_zero zeros2]
  simp only [View.ld_unit_zero (S := S5000x128) zeros2, View.ld_unit_zero (S := S128x128) zeros2]
  obtain ⟨e0, e1, e2, e3, e4, e5⟩ := blocks2 t
  funext y
  obtain ⟨r, j, rfl⟩ : ∃ (r : Fin 5000) (j : Fin 128), y = ix2 r j := ⟨y 0, y 1, eq_ix2 y⟩
  have hr : r.val < 5000 := r.isLt
  have ht : t.val < 10 := t.isLt
  refine (tile_apply (iblk2 V c 0 t) (iblk2 V c 1 t) r j).trans ?_
  have hemb : ((cfg2.win 2).blk t).view.emb (ix2 r j) = ix2 (⟨5000 * t.val + r.val, by omega⟩ : Fin 50000) j :=
    funext fun a => Fin.ext (by
      match a with
      | ⟨0, _⟩ => show win2_2.index t (0 : Fin 2) * 5000 + 1 * r.val = 5000 * t.val + r.val; omega
      | ⟨1, _⟩ => show win2_2.index t (1 : Fin 2) * 128 + 1 * j.val = j.val; omega)
  show _ = Cert.Bridge.R.dense (F := Ideal) (V c main_v72) (V c main_arg4) (((cfg2.win 2).blk t).view.emb (ix2 r j))
  rw [hemb, dense_apply]
  refine Finset.sum_congr rfl fun k _ => ?_
  have h0 : iblk2 V c 0 t (ix2 r k) = V c main_v72 (ix2 (⟨5000 * t.val + r.val, by omega⟩ : Fin 50000) k) := by
    show V c main_v72 (((cfg2.win 0).blk t).view.emb (ix2 r k)) = _
    refine congrArg (V c main_v72) (funext fun a => Fin.ext ?_)
    match a with
    | ⟨0, _⟩ => show win2_0.index t (0 : Fin 2) * 5000 + 1 * r.val = 5000 * t.val + r.val; omega
    | ⟨1, _⟩ => show win2_0.index t (1 : Fin 2) * 128 + 1 * k.val = k.val; omega
  have h1 : iblk2 V c 1 t (ix2 k j) = V c main_arg4 (ix2 k j) := by
    show V c main_arg4 (((cfg2.win 1).blk t).view.emb (ix2 k j)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * j.val = j.val; omega
  rw [h0, h1]

/-- An index of the output array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v73).slice (win2_2.rect t)).set ↔ _
  rw [View.set_slice_whole, Rect.mem_set_unit]
  exact Iff.rfl

/-- Every row of the output array is in the block of the point its row number over 5000 names. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  refine ⟨⟨(i 0).val / 5000, by show (i 0).val / 5000 < 10; omega⟩, flush2_2 _, ?_⟩
  obtain ⟨e0, e1, e2, e3, e4, e5⟩ := blocks2 ⟨(i 0).val / 5000, by show (i 0).val / 5000 < 10; omega⟩
  rw [mem_blk2]
  intro a
  match a with
  | ⟨0, _⟩ =>
    show win2_2.index ⟨(i 0).val / 5000, _⟩ (0 : Fin 2) * 5000 ≤ (i 0).val ∧ (i 0).val < win2_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, _⟩ (1 : Fin 2) * 128 ≤ (i 1).val ∧ (i 1).val < win2_2.index ⟨(i 0).val / 5000, _⟩ (1 : Fin 2) * 128 + 128
    rw [e5]; omega

/-- After region 2 its output array is the reference's dense product of its input array and the weight. -/
theorem final2 (c : Dev nD) :
    (dat2 (F := Ideal) V c).arrAt 2 cfg2.N = Cert.Bridge.R.dense (F := Ideal) (V c main_v72) (V c main_arg4) :=
  (dat2 (F := Ideal) V c).arrAt_eq_of_cover 2 _ (fun t _ => flushed2_eq V c t) cover2

end Cert.KernelIdeal.Hand

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.KI.ReadMath.lean ====
/-
  The readout, index by index. The kernel program's last launch walks the 50000 node rows in five tiles of 10000
  and adds, tile by tile, the product (indicator tile)ᵀ · (feature tile) into a [250,128] accumulator that starts
  at zero; the reference adds each node's feature row into the row its graph id names. With the indicator table
  onehot[n, b] = (gid[n] = b) the two are the same sums: entry (b, j) of both is the sum of h[n, j] over the nodes n
  whose graph id is b, the kernel's grouped by tile. Sums of extended reals are commutative and associative, and
  0 · x = 0, 1 · x = x hold for every extended real, so nothing has to be finite.
-/
import proofs.«424483_j12627203850513_1_alg».proof.Proof.Gen.KernelIdeal.Skeleton
import proofs.«424483_j12627203850513_1_alg».proof.Proof.KI.RefSpec
import proofs.«424483_j12627203850513_1_alg».proof.Proof.KI.KSpec
import proofs.«424483_j12627203850513_1_alg».proof.Proof.LibRows
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

open scoped BigOperators

namespace Cert.Bridge.Readout

open Cert.KernelIdeal Cert.KernelIdeal.Gen Idealize.ShloMosaic Idealize.ShloMosaic.TcCoe Idealize.ShloMosaic.ValueIdx

/-! ## The accumulator's start and one accumulation step, at an entry -/

/-- The accumulator starts at zero. -/
theorem start_apply (b : Fin 250) (j : Fin 128) : k3_pay1 (F := Ideal) (ix2 b j) = 0 := by
  unfold k3_pay1
  rw [shapeCast_self]
  exact Ideal.ofBits_zero_f32

/-- The contraction of the step's product runs over the 10000 rows of a tile: the left operand is read at
    (row, b), transposed … -/
theorem lhs_step_0 (i : S250x128.Idx) (q : dot_S10000x250_S10000x128_S250x128_0_0_1_1_n_n.contr.Idx) :
    (dot_S10000x250_S10000x128_S250x128_0_0_1_1_n_n.lhsIdx i q 0).val = (q ⟨0, by decide⟩).val :=
  dot_S10000x250_S10000x128_S250x128_0_0_1_1_n_n.lhsIdx_val_of_single rfl i q
theorem lhs_step_1 (i : S250x128.Idx) (q : dot_S10000x250_S10000x128_S250x128_0_0_1_1_n_n.contr.Idx) :
    (dot_S10000x250_S10000x128_S250x128_0_0_1_1_n_n.lhsIdx i q 1).val = (i 0).val := by
  unfold DotDims.lhsIdx
  rw [dif_neg (show ¬(1 : Fin S10000x250.rank) ∈ dot_S10000x250_S10000x128_S250x128_0_0_1_1_n_n.lhsBatch by decide), dif_pos (show (1 : Fin S10000x250.rank) ∈ dot_S10000x250_S10000x128_S250x128_0_0_1_1_n_n.lhsNonContracting by decide)]
  rfl
/-- … and the right operand at (row, j). -/
theorem rhs_step_0 (i : S250x128.Idx) (q : dot_S10000x250_S10000x128_S250x128_0_0_1_1_n_n.contr.Idx) :
    (dot_S10000x250_S10000x128_S250x128_0_0_1_1_n_n.rhsIdx i q 0).val = (q ⟨0, by decide⟩).val :=
  dot_S10000x250_S10000x128_S250x128_0_0_1_1_n_n.rhsIdx_val_of_single rfl i q
theorem rhs_step_1 (i : S250x128.Idx) (q : dot_S10000x250_S10000x128_S250x128_0_0_1_1_n_n.contr.Idx) :
    (dot_S10000x250_S10000x128_S250x128_0_0_1_1_n_n.rhsIdx i q 1).val = (i 1).val := by
  unfold DotDims.rhsIdx
  rw [dif_neg (show ¬(1 : Fin S10000x128.rank) ∈ dot_S10000x250_S10000x128_S250x128_0_0_1_1_n_n.rhsBatch by decide), dif_pos (show (1 : Fin S10000x128.rank) ∈ dot_S10000x250_S10000x128_S250x128_0_0_1_1_n_n.rhsNonContracting by decide)]
  rfl

/-- One step adds to entry (b, j) of the accumulator the sum over the tile's rows of indicator (r, b) times feature (r, j). -/
theorem step_apply (oh : Vec Ideal S10000x250 .bf16) (h : Vec Ideal S10000x128 .f32) (acc : Vec Ideal S250x128 .f32)
    (b : Fin 250) (j : Fin 128) :
    k3_pay2 (F := Ideal) oh h acc (ix2 b j) = acc (ix2 b j) + ∑ r : Fin 10000, oh (ix2 r b) * h (ix2 r j) := by
  unfold k3_pay2
  rw [shapeCast_self, shapeCast_self, shapeCast_self]
  rw [addf_apply]
  congr 1
  simp only [matmul]
  rw [Ideal.matmul_constant_zero_apply, ← Equiv.sum_comp (contrEquiv1 dot_S10000x250_S10000x128_S250x128_0_0_1_1_n_n 10000 rfl rfl).symm]
  refine Finset.sum_congr rfl fun r _ => ?_
  have hk := contrEquiv1_symm_val dot_S10000x250_S10000x128_S250x128_0_0_1_1_n_n 10000 rfl rfl r
  have el : dot_S10000x250_S10000x128_S250x128_0_0_1_1_n_n.lhsIdx (ix2 b j) ((contrEquiv1 dot_S10000x250_S10000x128_S250x128_0_0_1_1_n_n 10000 rfl rfl).symm r) = ix2 r b := funext fun a => Fin.ext (by
    match a with
    | ⟨0, _⟩ => exact (lhs_step_0 _ _).trans hk
    | ⟨1, _⟩ => exact lhs_step_1 _ _)
  have er : dot_S10000x250_S10000x128_S250x128_0_0_1_1_n_n.rhsIdx (ix2 b j) ((contrEquiv1 dot_S10000x250_S10000x128_S250x128_0_0_1_1_n_n 10000 rfl rfl).symm r) = ix2 r j := funext fun a => Fin.ext (by
    match a with
    | ⟨0, _⟩ => exact (rhs_step_0 _ _).trans hk
    | ⟨1, _⟩ => exact rhs_step_1 _ _)
  rw [el, er]
  rfl

/-! ## The indicator table at an entry -/

/-- A graph-id word equals the word of a column number below 250 exactly when its signed value is that number. -/
theorem word_eq_iff (w : BitVec 32) (b : Fin 250) : w = BitVec.ofNat 32 b.val ↔ w.toInt = (b.val : ℤ) := by
  have hb : (BitVec.ofNat 32 b.val).toInt = (b.val : ℤ) := by
    have e := BitVec.toInt_eq_toNat_cond (BitVec.ofNat 32 b.val)
    rw [BitVec.toNat_ofNat] at e
    have := b.isLt
    omega
  constructor
  · intro h; rw [h, hb]
  · intro h; exact BitVec.eq_of_toInt_eq (h.trans hb.symm)

/-- The comparison bit of two words, converted to a float, is 1 where they agree and 0 where they do not. -/
theorem indicator_word (w : BitVec 32) (b : Fin 250) :
    FloatOps.uitofp (F := Ideal) .bf16 (IntOp.cmpi .eq w (BitVec.ofNat 32 b.val))
      = if w.toInt = (b.val : ℤ) then (1 : EReal) else 0 := by
  show (((BitVec.ofBool (w == BitVec.ofNat 32 b.val)).toNat : ℝ) : EReal) = _
  by_cases h : w = BitVec.ofNat 32 b.val
  · rw [if_pos ((word_eq_iff w b).mp h)]
    have e : (w == BitVec.ofNat 32 b.val) = true := by simpa using h
    rw [e]
    simp
  · rw [if_neg (fun e => h ((word_eq_iff w b).mpr e))]
    have e : (w == BitVec.ofNat 32 b.val) = false := by simpa using h
    rw [e]
    simp

/-- The graph ids spread along the 250 columns read the node's id … -/
theorem ids_apply (gid : K.T (F := Ideal) S50000 .i32) (n : Fin 50000) (b : Fin 250) :
    broadcastInDim S50000x250 ![0, 1] bcast_S50000x1_S50000x250_0_1 (broadcastInDim S50000x1 ![0] bcast_S50000_S50000x1_0 gid) (ix2 n b)
      = gid (ix1 n) := by
  rw [broadcastInDim_apply _ bcast_S50000x1_S50000x250_0_1 _ (ix2 n b) (ix2 n (0 : Fin 1))
    (fun a => by match a with | ⟨0, _⟩ => rfl | ⟨1, _⟩ => rfl)]
  exact broadcastInDim_apply _ bcast_S50000_S50000x1_0 gid (ix2 n (0 : Fin 1)) (ix1 n)
    (fun a => by match a with | ⟨0, _⟩ => rfl)

/-- … and the column numbers spread along the 50000 rows read the column's number as a word. -/
theorem cols_apply (n : Fin 50000) (b : Fin 250) :
    broadcastInDim S50000x250 ![0, 1] bcast_S1x250_S50000x250_0_1 (broadcastInDim S1x250 ![1] bcast_S250_S1x250_1 (iotaInDim S250 32 0)) (ix2 n b)
      = BitVec.ofNat 32 b.val := by
  rw [broadcastInDim_apply _ bcast_S1x250_S50000x250_0_1 _ (ix2 n b) (ix2 (0 : Fin 1) b)
    (fun a => by match a with | ⟨0, _⟩ => rfl | ⟨1, _⟩ => rfl)]
  exact broadcastInDim_apply _ bcast_S250_S1x250_1 (iotaInDim S250 32 0) (ix2 (0 : Fin 1) b) (ix1 b)
    (fun a => by match a with | ⟨0, _⟩ => rfl)

/-- Entry (n, b) of the indicator table is 1 if node n's graph id, read signed, is b, and 0 if not. -/
theorem onehot_apply (gid : K.T (F := Ideal) S50000 .i32) (n : Fin 50000) (b : Fin 250) :
    K.onehot (F := Ideal) gid (ix2 n b) = if (gid (ix1 n)).toInt = (b.val : ℤ) then (1 : EReal) else 0 := by
  unfold K.onehot
  show FloatOps.uitofp (F := Ideal) .bf16 (IntOp.cmpi .eq
    (broadcastInDim S50000x250 ![0, 1] bcast_S50000x1_S50000x250_0_1 (broadcastInDim S50000x1 ![0] bcast_S50000_S50000x1_0 gid) (ix2 n b))
    (broadcastInDim S50000x250 ![0, 1] bcast_S1x250_S50000x250_0_1 (broadcastInDim S1x250 ![1] bcast_S250_S1x250_1 (iotaInDim S250 32 0)) (ix2 n b))) = _
  rw [ids_apply, cols_apply]
  exact indicator_word _ b

/-! ## The reference's readout at an entry -/

/-- The graph ids as a column read the node's id. -/
theorem idcol_apply (gid : R.T (F := Ideal) Cert.ReferenceIdeal.S50000 .i32) (n : Fin 50000) :
    broadcastInDim Cert.ReferenceIdeal.S50000x1 ![0] Cert.ReferenceIdeal.Gen.bcast_S50000_S50000x1_0 gid (ix2 n (0 : Fin 1)) = gid (ix1 n) :=
  broadcastInDim_apply _ Cert.ReferenceIdeal.Gen.bcast_S50000_S50000x1_0 gid (ix2 n (0 : Fin 1)) (ix1 n)
    (fun a => by match a with | ⟨0, _⟩ => rfl)

/-- Entry (b, j) of the reference's readout is the sum of the features (n, j) over the nodes n whose graph id, read
    signed, is b. -/
theorem readout_apply (gid : R.T (F := Ideal) Cert.ReferenceIdeal.S50000 .i32) (h : R.T (F := Ideal) Cert.ReferenceIdeal.S50000x128 .f32)
    (b : Fin 250) (j : Fin 128) :
    R.readout (F := Ideal) gid h (ix2 b j) = ∑ n : Fin 50000, if (gid (ix1 n)).toInt = (b.val : ℤ) then h (ix2 n j) else 0 := by
  unfold R.readout
  refine (rowScatterAdd_apply (N := 250) (E := 50000) (C := 128) Cert.ReferenceIdeal.Gen.scatter_S250x128_S50000x1_S50000x128_1_0_0_1_wf _ _ _ b j).trans ?_
  rw [Finset.sum_filter]
  show Ideal.ofBits .f32 0x00000000#32 + (∑ n : Fin 50000,
    if (broadcastInDim Cert.ReferenceIdeal.S50000x1 ![0] Cert.ReferenceIdeal.Gen.bcast_S50000_S50000x1_0 gid (ix2 n (0 : Fin 1))).toInt = (b.val : ℤ)
      then h (ix2 n j) else 0) = _
  rw [Ideal.ofBits_zero_f32, zero_add]
  exact Finset.sum_congr rfl fun n _ => by rw [idcol_apply]

/-! ## Five tiles of 10000 rows -/

/-- Row r of tile t. -/
def row (t : Fin 5) (r : Fin 10000) : Fin 50000 := ⟨10000 * t.val + r.val, by have := t.isLt; have := r.isLt; omega⟩

theorem row_val (t : Fin 5) (r : Fin 10000) : (row t r).val = 10000 * t.val + r.val := rfl

/-- Every node row is row r of tile t for exactly one (t, r). -/
def rowEquiv : Fin 5 × Fin 10000 ≃ Fin 50000 where
  toFun p := row p.1 p.2
  invFun n := (⟨n.val / 10000, by have := n.isLt; omega⟩, ⟨n.val % 10000, by omega⟩)
  left_inv p := by
    obtain ⟨t, r⟩ := p
    have := t.isLt; have := r.isLt
    refine Prod.ext (Fin.ext ?_) (Fin.ext ?_)
    · show (10000 * t.val + r.val) / 10000 = t.val
      omega
    · show (10000 * t.val + r.val) % 10000 = r.val
      omega
  right_inv n := Fin.ext (by
    show 10000 * (n.val / 10000) + n.val % 10000 = n.val
    omega)

/-- A sum over the node rows is the sum over the tiles of the sums over a tile's rows. -/
theorem sum_rows (g : Fin 50000 → EReal) : ∑ n, g n = ∑ t : Fin 5, ∑ r : Fin 10000, g (row t r) := by
  rw [← Equiv.sum_comp rowEquiv g, Fintype.sum_prod_type]
  rfl

/-! ## The accumulation is the readout -/

/-- A tile's contribution, with the indicator's entries put in: the features of the tile's rows whose graph id is b. -/
theorem tile_sum (gid : K.T (F := Ideal) S50000 .i32) (h : R.T (F := Ideal) Cert.ReferenceIdeal.S50000x128 .f32)
    (t : Fin 5) (oh : Vec Ideal S10000x250 .bf16) (x : Vec Ideal S10000x128 .f32)
    (hoh : ∀ (r : Fin 10000) (b : Fin 250), oh (ix2 r b) = K.onehot (F := Ideal) gid (ix2 (row t r) b))
    (hx : ∀ (r : Fin 10000) (j : Fin 128), x (ix2 r j) = h (ix2 (row t r) j))
    (b : Fin 250) (j : Fin 128) :
    ∑ r : Fin 10000, oh (ix2 r b) * x (ix2 r j)
      = ∑ r : Fin 10000, if (gid (ix1 (row t r))).toInt = (b.val : ℤ) then h (ix2 (row t r) j) else 0 := by
  refine Finset.sum_congr rfl fun r _ => ?_
  rw [hoh, hx, onehot_apply]
  by_cases hp : (gid (ix1 (row t r))).toInt = (b.val : ℤ)
  · rw [if_pos hp, if_pos hp, one_mul]
  · rw [if_neg hp, if_neg hp, zero_mul]

/-- THE READOUT. Start the accumulator at zero and add, for the five tiles in turn, (indicator tile)ᵀ · (feature
    tile): what is left after the fifth step is the reference's readout. The tiles are given by what they read:
    tile t of a table at (r, k) is the table at (row t r, k). -/
theorem accumulate_eq_readout (gid : K.T (F := Ideal) S50000 .i32) (h : R.T (F := Ideal) Cert.ReferenceIdeal.S50000x128 .f32)
    (oh : Fin 5 → Vec Ideal S10000x250 .bf16) (x : Fin 5 → Vec Ideal S10000x128 .f32)
    (hoh : ∀ (t : Fin 5) (r : Fin 10000) (b : Fin 250), oh t (ix2 r b) = K.onehot (F := Ideal) gid (ix2 (row t r) b))
    (hx : ∀ (t : Fin 5) (r : Fin 10000) (j : Fin 128), x t (ix2 r j) = h (ix2 (row t r) j))
    (A : (n : ℕ) → n < 5 → Vec Ideal S250x128 .f32)
    (hA0 : A 0 (by decide) = k3_pay2 (F := Ideal) (oh 0) (x 0) (k3_pay1 (F := Ideal)))
    (hAs : ∀ (n : ℕ) (hn : n + 1 < 5), A (n + 1) hn = k3_pay2 (F := Ideal) (oh ⟨n + 1, hn⟩) (x ⟨n + 1, hn⟩) (A n (Nat.lt_of_succ_lt hn))) :
    A 4 (by decide) = R.readout (F := Ideal) gid h := by
  funext i
  obtain ⟨b, j, rfl⟩ : ∃ (b : Fin 250) (j : Fin 128), i = ix2 b j := ⟨i 0, i 1, eq_ix2 i⟩
  rw [hAs 3 (by decide), step_apply, hAs 2 (by decide), step_apply, hAs 1 (by decide), step_apply,
    hAs 0 (by decide), step_apply, hA0, step_apply, start_apply, zero_add]
  rw [tile_sum gid h 0 (oh 0) (x 0) (hoh 0) (hx 0), tile_sum gid h 1 (oh ⟨0 + 1, by decide⟩) (x ⟨0 + 1, by decide⟩) (hoh 1) (hx 1),
    tile_sum gid h 2 (oh ⟨1 + 1, by decide⟩) (x ⟨1 + 1, by decide⟩) (hoh 2) (hx 2),
    tile_sum gid h 3 (oh ⟨2 + 1, by decide⟩) (x ⟨2 + 1, by decide⟩) (hoh 3) (hx 3),
    tile_sum gid h 4 (oh ⟨3 + 1, by decide⟩) (x ⟨3 + 1, by decide⟩) (hoh 4) (hx 4)]
  rw [readout_apply, sum_rows, Fin.sum_univ_five]

end Cert.Bridge.Readout

end
-- ==== Proof.KI.ReadVal.lean ====
/-
  Region 3's output array at the ideal values. The region walks the 50000 node rows in five tiles; at each point it
  adds (indicator tile)ᵀ · (feature tile) into the accumulator, and only the last point writes the accumulator back,
  to a block that is the whole [250,128] output array. With the indicator table the host built from the graph ids,
  what is written back is the reference's readout of the feature array.
-/
import proofs.«424483_j12627203850513_1_alg».proof.Proof.KI.Reg3
import proofs.«424483_j12627203850513_1_alg».proof.Proof.KI.ReadMath
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- The block indices over the grid: at point t the indicator tile and the feature tile are row block t, and the
    output block is the whole array. -/
theorem blocks3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

section AtEntry

-- the TensorCore's buffer contents when the region is entered, at the ideal values
variable (V : (c : Dev nD) → (b : Ref sig .tc) → Buf (Elt Ideal) ((c : Thread nD τ).loc b))

/-- The indicator tile of point t at (r, b) is the indicator table at (row r of tile t, b). -/
theorem indicator_tile (c : Dev nD) (t : Fin 5) (r : Fin 10000) (b : Fin 250) :
    iblk3 V c 0 t (ix2 r b) = V c main_v80 (ix2 (Cert.Bridge.Readout.row t r) b) := by
  obtain ⟨e0, e1, e2, e3, e4, e5⟩ := blocks3 t
  have hr : r.val < 10000 := r.isLt
  have ht : t.val < 5 := t.isLt
  show V c main_v80 (((cfg3.win 0).blk t).view.emb (ix2 r b)) = _
  refine congrArg (V c main_v80) (funext fun a => Fin.ext ?_)
  match a with
  | ⟨0, _⟩ => show win3_0.index t (0 : Fin 2) * 10000 + 1 * r.val = 10000 * t.val + r.val; omega
  | ⟨1, _⟩ => show win3_0.index t (1 : Fin 2) * 250 + 1 * b.val = b.val; omega

/-- The feature tile of point t at (r, j) is the feature array at (row r of tile t, j). -/
theorem feature_tile (c : Dev nD) (t : Fin 5) (r : Fin 10000) (j : Fin 128) :
    iblk3 V c 1 t (ix2 r j) = V c main_v73 (ix2 (Cert.Bridge.Readout.row t r) j) := by
  obtain ⟨e0, e1, e2, e3, e4, e5⟩ := blocks3 t
  have hr : r.val < 10000 := r.isLt
  have ht : t.val < 5 := t.isLt
  show V c main_v73 (((cfg3.win 1).blk t).view.emb (ix2 r j)) = _
  refine congrArg (V c main_v73) (funext fun a => Fin.ext ?_)
  match a with
  | ⟨0, _⟩ => show win3_1.index t (0 : Fin 2) * 10000 + 1 * r.val = 10000 * t.val + r.val; omega
  | ⟨1, _⟩ => show win3_1.index t (1 : Fin 2) * 128 + 1 * j.val = j.val; omega

/-- The accumulator after the fifth point is the reference's readout of the feature array. -/
theorem accumulator_last (c : Dev nD) (gid : Cert.Bridge.K.T (F := Ideal) S50000 .i32)
    (hoh : V c main_v80 = Cert.Bridge.K.onehot (F := Ideal) gid) :
    acc3 (F := Ideal) V c 4 (by decide) = Cert.Bridge.R.readout (F := Ideal) gid (V c main_v73) :=
  Cert.Bridge.Readout.accumulate_eq_readout gid (V c main_v73)
    (fun t => iblk3 V c 0 t) (fun t => iblk3 V c 1 t)
    (fun t r b => by rw [indicator_tile V c t r b, hoh])
    (fun t r j => feature_tile V c t r j)
    (fun n hn => acc3 (F := Ideal) V c n hn)
    (acc3_zero V c _) (fun n hn => acc3_succ V c n hn)

/-- What a point that writes back writes: the whole-array block of the readout. Only the last point writes back. -/
theorem flushed3_eq (c : Dev nD) (gid : Cert.Bridge.K.T (F := Ideal) S50000 .i32)
    (hoh : V c main_v80 = Cert.Bridge.K.onehot (F := Ideal) gid) (t : Fin cfg3.N) (hf : (cfg3.win 2).flush t = true) :
    (dat3 (F := Ideal) V c).flushed 2 t
      = ((cfg3.win 2).blk t).view.read (Elt Ideal) (Cert.Bridge.R.readout (F := Ideal) gid (V c main_v73)) := by
  show (cfg3.win 2).cut (grid3.coords t) ((dat3 (F := Ideal) V c).after 2 t) = _
  rw [after3_2]
  have h4 : t.val = 4 := by
    have h := (flush3_2 t).mp hf
    have ht : t.val < 5 := t.isLt
    omega
  have e : acc3 (F := Ideal) V c t.val t.isLt = Cert.Bridge.R.readout (F := Ideal) gid (V c main_v73) := by
    obtain ⟨n, hn⟩ := t
    obtain rfl : n = 4 := h4
    exact accumulator_last V c gid hoh
  rw [e]
  obtain ⟨e0, e1, e2, e3, e4, e5⟩ := blocks3 t
  funext y
  show Cert.Bridge.R.readout (F := Ideal) gid (V c main_v73) ((cfg3.win 2).xinj (grid3.coords t) y)
    = Cert.Bridge.R.readout (F := Ideal) gid (V c main_v73) (((cfg3.win 2).blk t).view.emb y)
  refine congrArg (Cert.Bridge.R.readout (F := Ideal) gid (V c main_v73)) (funext fun a => Fin.ext ?_)
  match a with
  | ⟨0, _⟩ => show (y 0).val = win3_2.index t (0 : Fin 2) * 250 + 1 * (y 0).val; omega
  | ⟨1, _⟩ => show (y 1).val = win3_2.index t (1 : Fin 2) * 128 + 1 * (y 1).val; omega

/-- An index of the output array is in point t's block iff each coordinate is in the block's range on its axis. -/
theorem mem_blk3 (t : Fin cfg3.N) (i : S250x128.Idx) :
    i ∈ ((cfg3.win 2).blk t).view.set ↔ ∀ a : Fin 2, win3_2.index t a * S250x128.size a ≤ (i a).val ∧ (i a).val < win3_2.index t a * S250x128.size a + S250x128.size a := by
  show i ∈ ((View.whole main_v81).slice (win3_2.rect t)).set ↔ _
  rw [View.set_slice_whole, Rect.mem_set_unit]
  exact Iff.rfl

/-- Every index of the output array is in the last point's block, and the last point writes back. -/
theorem cover3 (i : S250x128.Idx) : ∃ t : Fin cfg3.N, (cfg3.win 2).flush t = true ∧ i ∈ ((cfg3.win 2).blk t).view.set := by
  have hi0 : (i 0).val < 250 := (i 0).isLt
  have hi1 : (i 1).val < 128 := (i 1).isLt
  refine ⟨⟨4, by decide⟩, (flush3_2 _).mpr rfl, ?_⟩
  obtain ⟨e0, e1, e2, e3, e4, e5⟩ := blocks3 ⟨4, by decide⟩
  rw [mem_blk3]
  intro a
  match a with
  | ⟨0, _⟩ =>
    show win3_2.index ⟨4, _⟩ (0 : Fin 2) * 250 ≤ (i 0).val ∧ (i 0).val < win3_2.index ⟨4, _⟩ (0 : Fin 2) * 250 + 250
    rw [e4]; omega
  | ⟨1, _⟩ =>
    show win3_2.index ⟨4, _⟩ (1 : Fin 2) * 128 ≤ (i 1).val ∧ (i 1).val < win3_2.index ⟨4, _⟩ (1 : Fin 2) * 128 + 128
    rw [e5]; omega

end AtEntry

/-- After region 3 its output array is the reference's readout, by the graph ids the indicator table was built
    from, of the feature array. -/
theorem final3 (V : (c : Dev nD) → (b : Ref sig .tc) → Buf (Elt Ideal) ((c : Thread nD τ).loc b)) (c : Dev nD)
    (gid : Cert.Bridge.K.T (F := Ideal) S50000 .i32) (hoh : V c main_v80 = Cert.Bridge.K.onehot (F := Ideal) gid) :
    (dat3 (F := Ideal) V c).arrAt 2 cfg3.N = Cert.Bridge.R.readout (F := Ideal) gid (V c main_v73) :=
  (dat3 (F := Ideal) V c).arrAt_eq_of_cover 2 _ (fun t hf => flushed3_eq V c gid hoh t hf) cover3

end Cert.KernelIdeal.Hand

end
-- ==== Proof.KI.Chain2.lean ====
import proofs.«424483_j12627203850513_1_alg».proof.Proof.KI.Fold
import proofs.«424483_j12627203850513_1_alg».proof.Proof.KI.KSpec
import proofs.«424483_j12627203850513_1_alg».proof.Proof.KI.NoactVal
import proofs.«424483_j12627203850513_1_alg».proof.Proof.KI.HostReads
import proofs.«424483_j12627203850513_1_alg».proof.Proof.KI.ReadVal

/-! # From the second launch's exit to the program's result

After the second activated launch the program runs, on the host, the third message passing; the third launch multiplies
its result by the last weight; the host then builds the indicator table of the graph ids; and the fourth launch adds
each node's row into its graph's row. Buffer by buffer and boundary by boundary: the result buffer ends holding the
reference's readout of the reference's dense product of the message passing of what the second launch left. -/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg) (c : Dev nD)

/-! ## After the third host stretch -/

/-- The third launch's input array: the message passing of what the second launch left, the normalisers and the edge
    weights being the ones the first stretches computed. -/
theorem W9_v72 (H : Cert.Bridge.K.T (F := Ideal) S50000x128 .f32) (w : Cert.Bridge.K.T (F := Ideal) S800000x4 .f32)
    (src dst : Cert.Bridge.K.T (F := Ideal) S800000 .i32)
    (h55 : W8 (F := Ideal) m ρ c (Proc.devRef .tc main_v55) = H)
    (h13 : W8 (F := Ideal) m ρ c (Proc.devRef .tc main_v13) = Cert.Bridge.K.norm src)
    (h15 : W8 (F := Ideal) m ρ c (Proc.devRef .tc main_v15) = Cert.Bridge.K.norm dst)
    (h2 : W8 (F := Ideal) m ρ c (Proc.devRef .tc main_v2) = Cert.Bridge.K.ws w)
    (h9 : W8 (F := Ideal) m ρ c (Proc.devRef .tc main_arg9) = src)
    (h10 : W8 (F := Ideal) m ρ c (Proc.devRef .tc main_arg10) = dst) :
    W9 (F := Ideal) m ρ c (Proc.devRef .tc main_v72) = Cert.Bridge.K.msg H w src dst := by
  refine (after2_v72 (F := Ideal) (W8 m ρ c)).trans ?_
  rw [msg_eq_msgAt]
  exact congr (congr (congr (congr (congr (congrArg msgAt h55) h13) h15) h2) h9) h10

/-- The stretch writes neither the last weight -/
theorem W9_arg4 : W9 (F := Ideal) m ρ c (Proc.devRef .tc main_arg4) = W8 (F := Ideal) m ρ c (Proc.devRef .tc main_arg4) :=
  after2_of (F := Ideal) (W8 m ρ c) main_arg4 (by decide)

/-- nor the graph ids. -/
theorem W9_arg11 : W9 (F := Ideal) m ρ c (Proc.devRef .tc main_arg11) = W8 (F := Ideal) m ρ c (Proc.devRef .tc main_arg11) :=
  after2_of (F := Ideal) (W8 m ρ c) main_arg11 (by decide)

/-! ## After the third launch -/

/-- Its output array is the dense product of its input array with the last weight, as it was entered with them. -/
theorem W10_v73 : W10 (F := Ideal) m ρ c (Proc.devRef .tc main_v73)
    = Cert.Bridge.R.dense (F := Ideal) (W9 (F := Ideal) m ρ c (Proc.devRef .tc main_v72)) (W9 (F := Ideal) m ρ c (Proc.devRef .tc main_arg4)) :=
  (W10_arr (F := Ideal) m ρ c 2).trans (final2 (V9 (F := Ideal) m ρ) c)

/-- The graph ids are no array of the third launch: it leaves them as entered. -/
theorem W10_arg11 : W10 (F := Ideal) m ρ c (Proc.devRef .tc main_arg11) = W9 (F := Ideal) m ρ c (Proc.devRef .tc main_arg11) :=
  W10_of_ne (F := Ideal) m ρ c main_arg11 (by decide)

/-! ## After the fourth host stretch -/

/-- The indicator table of the graph ids, -/
theorem W11_v80 : W11 (F := Ideal) m ρ c (Proc.devRef .tc main_v80)
    = Cert.Bridge.K.onehot (F := Ideal) (W10 (F := Ideal) m ρ c (Proc.devRef .tc main_arg11)) :=
  after3_v80 (F := Ideal) (W10 m ρ c)

/-- and the third launch's output untouched. -/
theorem W11_v73 : W11 (F := Ideal) m ρ c (Proc.devRef .tc main_v73) = W10 (F := Ideal) m ρ c (Proc.devRef .tc main_v73) :=
  after3_of (F := Ideal) (W10 m ρ c) main_v73 (by decide)

/-! ## After the fourth launch -/

/-- The result buffer: the readout, by graph id, of the dense product of the third message passing. -/
theorem tail_v81
    (H : Cert.Bridge.K.T (F := Ideal) S50000x128 .f32) (w : Cert.Bridge.K.T (F := Ideal) S800000x4 .f32) (src dst : Cert.Bridge.K.T (F := Ideal) S800000 .i32) (gid : Cert.Bridge.K.T (F := Ideal) S50000 .i32) (W3 : Cert.Bridge.K.T (F := Ideal) S128x128 .f32)
    (h55 : W8 (F := Ideal) m ρ c (Proc.devRef .tc main_v55) = H) (h13 : W8 (F := Ideal) m ρ c (Proc.devRef .tc main_v13) = Cert.Bridge.K.norm src) (h15 : W8 (F := Ideal) m ρ c (Proc.devRef .tc main_v15) = Cert.Bridge.K.norm dst) (h2 : W8 (F := Ideal) m ρ c (Proc.devRef .tc main_v2) = Cert.Bridge.K.ws w)
    (h9 : W8 (F := Ideal) m ρ c (Proc.devRef .tc main_arg9) = src) (h10 : W8 (F := Ideal) m ρ c (Proc.devRef .tc main_arg10) = dst) (h11 : W8 (F := Ideal) m ρ c (Proc.devRef .tc main_arg11) = gid) (h4 : W8 (F := Ideal) m ρ c (Proc.devRef .tc main_arg4) = W3) :
    W12 (F := Ideal) m ρ c (Proc.devRef .tc main_v81) = Cert.Bridge.R.readout (F := Ideal) gid (Cert.Bridge.R.dense (F := Ideal) (Cert.Bridge.K.msg H w src dst) W3) := by
  have hoh : V11 (F := Ideal) m ρ c main_v80 = Cert.Bridge.K.onehot (F := Ideal) gid := by
    show W11 (F := Ideal) m ρ c (Proc.devRef .tc main_v80) = _
    rw [W11_v80, W10_arg11, W9_arg11, h11]
  have h73 : V11 (F := Ideal) m ρ c main_v73 = Cert.Bridge.R.dense (F := Ideal) (Cert.Bridge.K.msg H w src dst) W3 := by
    show W11 (F := Ideal) m ρ c (Proc.devRef .tc main_v73) = _
    rw [W11_v73, W10_v73, W9_v72 m ρ c H w src dst h55 h13 h15 h2 h9 h10, W9_arg4, h4]
  refine (W12_arr (F := Ideal) m ρ c 2).trans ?_
  rw [final3 (V11 (F := Ideal) m ρ) c gid hoh, h73]

end Cert.KernelIdeal.Hand

end
-- ==== Proof.KI.Chain.lean ====
/-
  The value of the whole program. The five host stretches before the first dense call compute the scalar edge weights,
  the two degree normalisers and the first message passing; the first dense call leaves the reference's first layer of
  it; the next stretch the second message passing, and the second dense call the second layer. With what the last third
  of the program makes of these, the result buffer holds the reference network of the twelve argument arrays.
-/
import proofs.«424483_j12627203850513_1_alg».proof.Proof.KI.Fold
import proofs.«424483_j12627203850513_1_alg».proof.Proof.KI.KSpec
import proofs.«424483_j12627203850513_1_alg».proof.Proof.KI.HostReads
import proofs.«424483_j12627203850513_1_alg».proof.Proof.KI.DenseVal0
import proofs.«424483_j12627203850513_1_alg».proof.Proof.KI.DenseVal1
import proofs.«424483_j12627203850513_1_alg».proof.Proof.KI.Chain2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # From the launch to the second dense call's exit

The contents of the buffers the last third of the program reads — the second dense call's output, the two normaliser
columns, the scalar edge weights, the edge lists, the graph ids and the third weight — at the exit of the second dense
call, as the reference's named operations of the twelve argument arrays at launch; then the whole result. -/

variable (m : (ℓ : Loc nD τ sig) → Buf (Elt Ideal) ℓ) (ρ : Dev nD → PrngReg) (c : Dev nD)

/-! ## Before the first dense call -/

theorem W5_through (r : Ref sig .tc) (h0 : r ∉ hostOps0_W) (h1 : r ∉ hostOps0_1_W) (h2 : r ∉ hostOps0_2_W)
    (h3 : r ∉ hostOps0_3_W) (h4 : r ∉ hostOps0_4_W) : W5 (F := Ideal) m ρ c r = W0 m ρ c r :=
  after5_of (W0 m ρ c) r h0 h1 h2 h3 h4
theorem W5_v2 : W5 (F := Ideal) m ρ c main_v2 = Cert.Bridge.K.ws (W0 m ρ c main_arg1) := after5_v2 (W0 m ρ c)
theorem W5_v13 : W5 (F := Ideal) m ρ c main_v13 = Cert.Bridge.K.norm (W0 m ρ c main_arg9) := after5_v13 (W0 m ρ c)
theorem W5_v15 : W5 (F := Ideal) m ρ c main_v15 = Cert.Bridge.K.norm (W0 m ρ c main_arg10) := after5_v15 (W0 m ρ c)
theorem W5_v32 : W5 (F := Ideal) m ρ c main_v32
    = Cert.Bridge.R.msg (F := Ideal) (W0 m ρ c main_arg0) (W0 m ρ c main_arg1) (W0 m ρ c main_arg9) (W0 m ρ c main_arg10) :=
  (after5_v32 (W0 m ρ c)).trans (Cert.Bridge.K.msg_eq _ _ _ _)
theorem W5_v33 (j : Fin 128) : W5 (F := Ideal) m ρ c main_v33 (ix2 (0 : Fin 1) j) = W0 m ρ c main_arg5 (ix1 j) :=
  after5_v33 (W0 m ρ c) j
theorem W5_v34 (j : Fin 128) : W5 (F := Ideal) m ρ c main_v34 (ix2 (0 : Fin 1) j) = W0 m ρ c main_arg6 (ix1 j) :=
  after5_v34 (W0 m ρ c) j

/-! ## At the exit of the first dense call -/

/-- The first dense call's output array is the reference's first layer. -/
theorem W6_v35 : W6 (F := Ideal) m ρ c main_v35
    = Cert.Bridge.R.layer (F := Ideal)
        (Cert.Bridge.R.msg (F := Ideal) (W0 m ρ c main_arg0) (W0 m ρ c main_arg1) (W0 m ρ c main_arg9) (W0 m ρ c main_arg10))
        (W0 m ρ c main_arg2) (W0 m ρ c main_arg5) (W0 m ρ c main_arg6) := by
  refine (W6_arr m ρ c 4).trans ?_
  refine (final0 (V5 m ρ) c (W0 m ρ c main_arg5) (W0 m ρ c main_arg6) (fun j => W5_v33 m ρ c j) (fun j => W5_v34 m ρ c j)).trans ?_
  rw [show V5 m ρ c main_v32 = _ from W5_v32 m ρ c,
    show V5 m ρ c main_arg2 = _ from W5_through m ρ c main_arg2 (by decide) (by decide) (by decide) (by decide) (by decide)]

/-- A buffer that is no array of the first dense call and that no host stretch before it writes is as launched. -/
theorem W6_carried (r : Ref sig .tc) (a0 : ∀ w, Pipeline.arrRef spec0 w ≠ r) (h0 : r ∉ hostOps0_W) (h1 : r ∉ hostOps0_1_W)
    (h2 : r ∉ hostOps0_2_W) (h3 : r ∉ hostOps0_3_W) (h4 : r ∉ hostOps0_4_W) : W6 (F := Ideal) m ρ c r = W0 m ρ c r :=
  (W6_of_ne m ρ c r a0).trans (W5_through m ρ c r h0 h1 h2 h3 h4)
theorem W6_v2 : W6 (F := Ideal) m ρ c main_v2 = Cert.Bridge.K.ws (W0 m ρ c main_arg1) :=
  (W6_of_ne m ρ c main_v2 (by decide)).trans (W5_v2 m ρ c)
theorem W6_v13 : W6 (F := Ideal) m ρ c main_v13 = Cert.Bridge.K.norm (W0 m ρ c main_arg9) :=
  (W6_of_ne m ρ c main_v13 (by decide)).trans (W5_v13 m ρ c)
theorem W6_v15 : W6 (F := Ideal) m ρ c main_v15 = Cert.Bridge.K.norm (W0 m ρ c main_arg10) :=
  (W6_of_ne m ρ c main_v15 (by decide)).trans (W5_v15 m ρ c)

/-! ## Before the second dense call -/

/-- The second dense call's input array is the message passing of the first layer. -/
theorem W7_v52 : W7 (F := Ideal) m ρ c main_v52
    = Cert.Bridge.R.msg (F := Ideal)
        (Cert.Bridge.R.layer (F := Ideal)
          (Cert.Bridge.R.msg (F := Ideal) (W0 m ρ c main_arg0) (W0 m ρ c main_arg1) (W0 m ρ c main_arg9) (W0 m ρ c main_arg10))
          (W0 m ρ c main_arg2) (W0 m ρ c main_arg5) (W0 m ρ c main_arg6))
        (W0 m ρ c main_arg1) (W0 m ρ c main_arg9) (W0 m ρ c main_arg10) := by
  refine (after1_v52 (W6 m ρ c)).trans ?_
  rw [W6_v35, W6_v13, W6_v15, W6_v2,
    W6_carried m ρ c main_arg9 (by decide) (by decide) (by decide) (by decide) (by decide) (by decide),
    W6_carried m ρ c main_arg10 (by decide) (by decide) (by decide) (by decide) (by decide) (by decide)]
  exact (msg_eq_msgAt _ _ _ _).symm.trans (Cert.Bridge.K.msg_eq _ _ _ _)
theorem W7_v53 (j : Fin 128) : W7 (F := Ideal) m ρ c main_v53 (ix2 (0 : Fin 1) j) = W0 m ρ c main_arg7 (ix1 j) :=
  (after1_v53 (W6 m ρ c) j).trans
    (congrFun (W6_carried m ρ c main_arg7 (by decide) (by decide) (by decide) (by decide) (by decide) (by decide)) _)
theorem W7_v54 (j : Fin 128) : W7 (F := Ideal) m ρ c main_v54 (ix2 (0 : Fin 1) j) = W0 m ρ c main_arg8 (ix1 j) :=
  (after1_v54 (W6 m ρ c) j).trans
    (congrFun (W6_carried m ρ c main_arg8 (by decide) (by decide) (by decide) (by decide) (by decide) (by decide)) _)
theorem W7_keep (r : Ref sig .tc) (b1 : r ∉ hostOps1_W) (a0 : ∀ w, Pipeline.arrRef spec0 w ≠ r) (h0 : r ∉ hostOps0_W)
    (h1 : r ∉ hostOps0_1_W) (h2 : r ∉ hostOps0_2_W) (h3 : r ∉ hostOps0_3_W) (h4 : r ∉ hostOps0_4_W) :
    W7 (F := Ideal) m ρ c r = W0 m ρ c r :=
  (after1_of (W6 m ρ c) r b1).trans (W6_carried m ρ c r a0 h0 h1 h2 h3 h4)

/-! ## At the exit of the second dense call -/

/-- The second dense call's output array is the reference's second layer. -/
theorem W8_v55 : W8 (F := Ideal) m ρ c main_v55
    = Cert.Bridge.R.layer (F := Ideal)
        (Cert.Bridge.R.msg (F := Ideal)
          (Cert.Bridge.R.layer (F := Ideal)
            (Cert.Bridge.R.msg (F := Ideal) (W0 m ρ c main_arg0) (W0 m ρ c main_arg1) (W0 m ρ c main_arg9) (W0 m ρ c main_arg10))
            (W0 m ρ c main_arg2) (W0 m ρ c main_arg5) (W0 m ρ c main_arg6))
          (W0 m ρ c main_arg1) (W0 m ρ c main_arg9) (W0 m ρ c main_arg10))
        (W0 m ρ c main_arg3) (W0 m ρ c main_arg7) (W0 m ρ c main_arg8) := by
  refine (W8_arr m ρ c 4).trans ?_
  refine (final1 (V7 m ρ) c (W0 m ρ c main_arg7) (W0 m ρ c main_arg8) (fun j => W7_v53 m ρ c j) (fun j => W7_v54 m ρ c j)).trans ?_
  rw [show V7 m ρ c main_v52 = _ from W7_v52 m ρ c,
    show V7 m ρ c main_arg3 = _ from
      W7_keep m ρ c main_arg3 (by decide) (by decide) (by decide) (by decide) (by decide) (by decide) (by decide)]

/-- A buffer that is no array of the first two dense calls and that no host stretch before the second writes is as
    launched. -/
theorem W8_carried (r : Ref sig .tc) (a1 : ∀ w, Pipeline.arrRef spec1 w ≠ r) (b1 : r ∉ hostOps1_W)
    (a0 : ∀ w, Pipeline.arrRef spec0 w ≠ r) (h0 : r ∉ hostOps0_W) (h1 : r ∉ hostOps0_1_W) (h2 : r ∉ hostOps0_2_W)
    (h3 : r ∉ hostOps0_3_W) (h4 : r ∉ hostOps0_4_W) : W8 (F := Ideal) m ρ c r = W0 m ρ c r :=
  (W8_of_ne m ρ c r a1).trans (W7_keep m ρ c r b1 a0 h0 h1 h2 h3 h4)
theorem W8_v2 : W8 (F := Ideal) m ρ c main_v2 = Cert.Bridge.K.ws (W0 m ρ c main_arg1) :=
  (W8_of_ne m ρ c main_v2 (by decide)).trans ((after1_of (W6 m ρ c) main_v2 (by decide)).trans (W6_v2 m ρ c))
theorem W8_v13 : W8 (F := Ideal) m ρ c main_v13 = Cert.Bridge.K.norm (W0 m ρ c main_arg9) :=
  (W8_of_ne m ρ c main_v13 (by decide)).trans ((after1_of (W6 m ρ c) main_v13 (by decide)).trans (W6_v13 m ρ c))
theorem W8_v15 : W8 (F := Ideal) m ρ c main_v15 = Cert.Bridge.K.norm (W0 m ρ c main_arg10) :=
  (W8_of_ne m ρ c main_v15 (by decide)).trans ((after1_of (W6 m ρ c) main_v15 (by decide)).trans (W6_v15 m ρ c))

/-! ## The whole result -/

/-- What the program leaves in its result buffer is the reference network of the twelve argument arrays at launch. -/
theorem W12_v81 : W12 (F := Ideal) m ρ c (Proc.devRef .tc main_v81)
    = Cert.Bridge.R.net (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) := by
  refine (tail_v81 m ρ c _ (W0 m ρ c main_arg1) (W0 m ρ c main_arg9) (W0 m ρ c main_arg10) (W0 m ρ c main_arg11)
    (W0 m ρ c main_arg4) (W8_v55 m ρ c) (W8_v13 m ρ c) (W8_v15 m ρ c) (W8_v2 m ρ c)
    (W8_carried m ρ c main_arg9 (by decide) (by decide) (by decide) (by decide) (by decide) (by decide) (by decide) (by decide))
    (W8_carried m ρ c main_arg10 (by decide) (by decide) (by decide) (by decide) (by decide) (by decide) (by decide) (by decide))
    (W8_carried m ρ c main_arg11 (by decide) (by decide) (by decide) (by decide) (by decide) (by decide) (by decide) (by decide))
    (W8_carried m ρ c main_arg4 (by decide) (by decide) (by decide) (by decide) (by decide) (by decide) (by decide) (by decide))).trans ?_
  rw [Cert.Bridge.K.msg_eq]
  rfl

end Cert.KernelIdeal.Hand

end
-- ==== Proof.KI.RefRes.lean ====
/-
  The reference's result is the network of named pieces applied to the argument arrays: the composed term its run
  states unfolds, piece by piece, to the same host operations.
-/
import proofs.«424483_j12627203850513_1_alg».proof.Proof.Gen.ReferenceIdeal.Run
import proofs.«424483_j12627203850513_1_alg».proof.Proof.KI.RefSpec

noncomputable section

namespace Cert.Bridge.R

open Cert.ReferenceIdeal Cert.ReferenceIdeal.Gen Idealize.ShloMosaic Idealize.ShloMosaic.TcCoe Idealize.SL.Sem

variable {F : FTy → Type} [FloatOps F]

set_option maxRecDepth 65536 in
/-- What the reference's run leaves in its result buffer is `net` of the twelve argument arrays. -/
theorem res_eq (m : (ℓ : Loc nD τ sig) → Buf (Elt F) ℓ) (c : Dev nD) :
    Cert.ReferenceIdeal.Value.res_main_v122 (F := F) m c
      = net (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) := by
  unfold Cert.ReferenceIdeal.Value.res_main_v122 net
  rfl

end Cert.Bridge.R

end
-- ==== Proof.lean ====
/-
  The certificate's five claims.

  The kernel program runs, on one TensorCore, three rounds of message passing on the host (edge weights, clamped degrees,
  a gather along the edges, a scatter-add to the destinations) each followed by a kernel launch — rows times a weight,
  clamped at zero, normalised over the 128 features (launches 0 and 1), or rows times a weight alone (launch 2) — and a
  readout launch that multiplies the transposed indicator table of the graph ids with the last layer, one tile of
  10000 nodes per grid point, accumulated in a scratch buffer. The reference does the same on the host alone, its readout a
  scatter-add by graph id.

  Frames: @main as twelve segments (eight host stretches, four regions), each region's pipeline with the proof data of
  its own module, launched together; every argument array is read back as launched. The reference's frame is its run with
  the result dropped. The idealisation rewrote nothing, so `preserves` has no conjunct.

  Equal results at the ideal values: the kernel program's result buffer is the last region's output array, which is the
  reference's readout of the third layer's output, which is the reference's dense product of the third message, and so on
  back to the arguments: the reference's network of the twelve argument arrays — what the reference's run leaves in its
  own result buffer. No law beyond the commutativity and associativity of sums is used, so the finiteness of the inputs is
  never opened.
-/
import proofs.«424483_j12627203850513_1_alg».proof.Defs
import proofs.«424483_j12627203850513_1_alg».proof.Proof.Gen.Kernel
import proofs.«424483_j12627203850513_1_alg».proof.Proof.Gen.KernelIdeal
import proofs.«424483_j12627203850513_1_alg».proof.Proof.Gen.ReferenceIdeal
import proofs.«424483_j12627203850513_1_alg».proof.Proof.Gen.Pre_finite_inputs
import proofs.«424483_j12627203850513_1_alg».proof.Proof.Gen.ReferenceIdeal.Run
import proofs.«424483_j12627203850513_1_alg».proof.Proof.Gen.ReferenceIdeal.Read
import proofs.«424483_j12627203850513_1_alg».proof.Proof.K.Run
import proofs.«424483_j12627203850513_1_alg».proof.Proof.KI.Run
import proofs.«424483_j12627203850513_1_alg».proof.Proof.KI.Chain
import proofs.«424483_j12627203850513_1_alg».proof.Proof.KI.RefRes
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : @Cert.frame_Kernel Cert.Kernel.Gen.facts Cert.Pre_finite_inputs.Gen.facts :=
  fun m ρ _ => Cert.Kernel.Hand.frame_main (F := Bits) m ρ

/-- The idealised program runs to the end and leaves its arguments as launched. -/
theorem frame_ki : @Cert.frame_KernelIdeal Cert.KernelIdeal.Gen.facts Cert.Pre_finite_inputs.Gen.facts :=
  fun m ρ _ => Cert.KernelIdeal.Hand.frame_main (F := Ideal) m ρ

/-- The reference runs to the end and leaves its arguments as launched: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- At the ideal values the two programs, run from memories that agree on the arguments, end with the same result:
    the reference's network of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.W12 (F := Ideal) m ρ c (Proc.devRef .tc Cert.KernelIdeal.main_v81),
    Cert.KernelIdeal.Hand.value_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  show Cert.ReferenceIdeal.Value.res_main_v122 (F := Ideal) m' c
    = Cert.KernelIdeal.Hand.W12 (F := Ideal) m ρ c (Proc.devRef .tc Cert.KernelIdeal.main_v81)
  rw [Cert.KernelIdeal.Hand.W12_v81 m ρ c, Cert.Bridge.R.res_eq m' c, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
